-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1024x16 : Shape := ⟨2, ![1024, 16]⟩
abbrev S1600000 : Shape := ⟨1, ![1600000]⟩
abbrev S100000 : Shape := ⟨1, ![100000]⟩
abbrev S32x64 : Shape := ⟨2, ![32, 64]⟩
abbrev S64 : Shape := ⟨1, ![64]⟩
abbrev S64x64 : Shape := ⟨2, ![64, 64]⟩
abbrev S80x256 : Shape := ⟨2, ![80, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S80x256 : S_.BroadcastsInDim S80x256 (![] : Fin 0 → Fin S80x256.rank)
  reducesTo_S80x256_S_d0_1 : S80x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg24 : FVec F S32 .f32) (main_arg25 : FVec F S32x1 .f32) (main_arg26 : FVec F S1 .f32) (main_v98 : IVec S_ 1) (main_v101 : IVec S64x32 1) (main_c_39 : IVec S_ 1) : IVec S_ 1 :=
  let main_v102 : IVec S_ 1 := (fun x v => Host.reduce IntOp.andi x v reducesTo_S64x32_S_d0_1 h_S_) main_v101 main_c_39
  let main_v103 : IVec S_ 1 := andi main_v98 main_v102
  let main_v104 : FVec F S32 .f32 := Host.absf main_arg24
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_v109 : FVec F S32x1 .f32 := Host.absf main_arg25
  let main_cst_42 : FVec F S_ .f32 := constant S_ .f32 0x7F800000#32
  let main_v110 : FVec F S32x1 .f32 := broadcastInDim S32x1 ![] bcast_S_S32x1 main_cst_42
  let main_v111 : IVec S32x1 1 := cmpf .olt main_v109 main_v110
  let main_c_43 : IVec S_ 1 := constantI S_ 1 1#1
  let main_v112 : IVec S_ 1 := (fun x v => Host.reduce IntOp.andi x v reducesTo_S32x1_S_d0_1 h_S_) main_v111 main_c_43
  let main_v113 : IVec S_ 1 := andi main_v108 main_v112
  let main_v114 : FVec F S1 .f32 := Host.absf main_arg26
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg21 : FVec F S64x64 .f32) (main_arg22 : FVec F S64 .f32) (main_arg23 : FVec F S64x32 .f32) (main_arg24 : FVec F S32 .f32) (main_arg25 : FVec F S32x1 .f32) (main_arg26 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg21
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg22
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x32 .f32 := Host.absf main_arg23
  let main_cst_38 : FVec F S_ .f32 := constant S_ .f32 0x7F800000#32
  let main_v100 : FVec F S64x32 .f32 := broadcastInDim S64x32 ![] bcast_S_S64x32 main_cst_38
  let main_v101 : IVec S64x32 1 := cmpf .olt main_v99 main_v100
  let main_c_39 : IVec S_ 1 := constantI S_ 1 1#1
  fn_part6 (F := F) main_arg24 main_arg25 main_arg26 main_v98 main_v101 main_c_39

def fn_part4 {F : FTy → Type} [FloatOps F] (main_arg17 : FVec F S128x128 .f32) (main_arg18 : FVec F S128 .f32) (main_arg19 : FVec F S128x64 .f32) (main_arg20 : FVec F S64 .f32) (main_arg21 : FVec F S64x64 .f32) (main_arg22 : FVec F S64 .f32) (main_arg23 : FVec F S64x32 .f32) (main_arg24 : FVec F S32 .f32) (main_arg25 : FVec F S32x1 .f32) (main_arg26 : FVec F S1 .f32) (main_v63 : IVec S_ 1) (main_v67 : IVec S_ 1) : IVec S_ 1 :=
  let main_v68 : IVec S_ 1 := andi main_v63 main_v67
  let main_v69 : FVec F S128x128 .f32 := Host.absf main_arg17
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x64 .f32 := Host.absf main_arg19
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg20
  let main_cst_32 : FVec F S_ .f32 := constant S_ .f32 0x7F800000#32
  fn_part5 (F := F) main_arg21 main_arg22 main_arg23 main_arg24 main_arg25 main_arg26 main_v83 main_v84 main_cst_32

def fn_part3 {F : FTy → Type} [FloatOps F] (main_arg14 : FVec F S256 .f32) (main_arg15 : FVec F S256x128 .f32) (main_arg16 : FVec F S128 .f32) (main_arg17 : FVec F S128x128 .f32) (main_arg18 : FVec F S128 .f32) (main_arg19 : FVec F S128x64 .f32) (main_arg20 : FVec F S64 .f32) (main_arg21 : FVec F S64x64 .f32) (main_arg22 : FVec F S64 .f32) (main_arg23 : FVec F S64x32 .f32) (main_arg24 : FVec F S32 .f32) (main_arg25 : FVec F S32x1 .f32) (main_arg26 : FVec F S1 .f32) (main_v48 : IVec S_ 1) (main_v49 : FVec F S80x256 .f32) (main_v50 : FVec F S80x256 .f32) : IVec S_ 1 :=
  let main_v51 : IVec S80x256 1 := cmpf .olt main_v49 main_v50
  let main_c_19 : IVec S_ 1 := constantI S_ 1 1#1
  let main_v52 : IVec S_ 1 := (fun x v => Host.reduce IntOp.andi x v reducesTo_S80x256_S_d0_1 h_S_) main_v51 main_c_19
  let main_v53 : IVec S_ 1 := andi main_v48 main_v52
  let main_v54 : FVec F S256 .f32 := Host.absf main_arg14
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg15
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_arg19 main_arg20 main_arg21 main_arg22 main_arg23 main_arg24 main_arg25 main_arg26 main_v63 main_v67

def fn_part2 {F : FTy → Type} [FloatOps F] (main_arg10 : FVec F S64 .f32) (main_arg11 : FVec F S64x64 .f32) (main_arg12 : FVec F S64 .f32) (main_arg13 : FVec F S80x256 .f32) (main_arg14 : FVec F S256 .f32) (main_arg15 : FVec F S256x128 .f32) (main_arg16 : FVec F S128 .f32) (main_arg17 : FVec F S128x128 .f32) (main_arg18 : FVec F S128 .f32) (main_arg19 : FVec F S128x64 .f32) (main_arg20 : FVec F S64 .f32) (main_arg21 : FVec F S64x64 .f32) (main_arg22 : FVec F S64 .f32) (main_arg23 : FVec F S64x32 .f32) (main_arg24 : FVec F S32 .f32) (main_arg25 : FVec F S32x1 .f32) (main_arg26 : FVec F S1 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg11
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S80x256 .f32 := Host.absf main_arg13
  let main_cst_18 : FVec F S_ .f32 := constant S_ .f32 0x7F800000#32
  let main_v50 : FVec F S80x256 .f32 := broadcastInDim S80x256 ![] bcast_S_S80x256 main_cst_18
  fn_part3 (F := F) main_arg14 main_arg15 main_arg16 main_arg17 main_arg18 main_arg19 main_arg20 main_arg21 main_arg22 main_arg23 main_arg24 main_arg25 main_arg26 main_v48 main_v49 main_v50

def fn_part1 {F : FTy → Type} [FloatOps F] (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S80x256 .f32) (main_arg14 : FVec F S256 .f32) (main_arg15 : FVec F S256x128 .f32) (main_arg16 : FVec F S128 .f32) (main_arg17 : FVec F S128x128 .f32) (main_arg18 : FVec F S128 .f32) (main_arg19 : FVec F S128x64 .f32) (main_arg20 : FVec F S64 .f32) (main_arg21 : FVec F S64x64 .f32) (main_arg22 : FVec F S64 .f32) (main_arg23 : FVec F S64x32 .f32) (main_arg24 : FVec F S32 .f32) (main_arg25 : FVec F S32x1 .f32) (main_arg26 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x32 .f32) (main_arg1 : FVec F S1024x16 .f32) (main_arg2 : IVec S1600000 32) (main_arg3 : IVec S1600000 32) (main_arg4 : IVec S100000 32) (main_arg5 : FVec F S32x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S80x256 .f32) (main_arg14 : FVec F S256 .f32) (main_arg15 : FVec F S256x128 .f32) (main_arg16 : FVec F S128 .f32) (main_arg17 : FVec F S128x128 .f32) (main_arg18 : FVec F S128 .f32) (main_arg19 : FVec F S128x64 .f32) (main_arg20 : FVec F S64 .f32) (main_arg21 : FVec F S64x64 .f32) (main_arg22 : FVec F S64 .f32) (main_arg23 : FVec F S64x32 .f32) (main_arg24 : FVec F S32 .f32) (main_arg25 : FVec F S32x1 .f32) (main_arg26 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_v9 : FVec F S32x64 .f32 := Host.absf main_arg5
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x32 : Shape := ⟨2, ![100000, 32]⟩
abbrev S1024x16 : Shape := ⟨2, ![1024, 16]⟩
abbrev S1600000 : Shape := ⟨1, ![1600000]⟩
abbrev S100000 : Shape := ⟨1, ![100000]⟩
abbrev S32x64 : Shape := ⟨2, ![32, 64]⟩
abbrev S64 : Shape := ⟨1, ![64]⟩
abbrev S64x64 : Shape := ⟨2, ![64, 64]⟩
abbrev S80x256 : Shape := ⟨2, ![80, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000x1 : Shape := ⟨2, ![100000, 1]⟩
abbrev S_ : Shape := ⟨0, ![]⟩
abbrev S1600000x1 : Shape := ⟨2, ![1600000, 1]⟩
abbrev S1600000x32 : Shape := ⟨2, ![1600000, 32]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S64x1024 : Shape := ⟨2, ![64, 1024]⟩
abbrev S1x1024 : Shape := ⟨2, ![1, 1024]⟩
abbrev S5000x1 : Shape := ⟨2, ![5000, 1]⟩
abbrev S5000x1024 : Shape := ⟨2, ![5000, 1024]⟩
abbrev S64x5000 : Shape := ⟨2, ![64, 5000]⟩
abbrev S1x5000 : Shape := ⟨2, ![1, 5000]⟩
abbrev S1024x64 : Shape := ⟨2, ![1024, 64]⟩
abbrev S1600000x64 : Shape := ⟨2, ![1600000, 64]⟩
abbrev S1024x80 : Shape := ⟨2, ![1024, 80]⟩
abbrev S1x256 : Shape := ⟨2, ![1, 256]⟩
abbrev S1x128 : Shape := ⟨2, ![1, 128]⟩
abbrev S1x32 : Shape := ⟨2, ![1, 32]⟩
abbrev S1x1 : Shape := ⟨2, ![1, 1]⟩
abbrev S1024x1 : Shape := ⟨2, ![1024, 1]⟩
abbrev S1024x256 : Shape := ⟨2, ![1024, 256]⟩
abbrev S1024x128 : Shape := ⟨2, ![1024, 128]⟩
abbrev S1024x32 : Shape := ⟨2, ![1024, 32]⟩

abbrev nBuf : Space → Nat
  | .hbm => 87
  | .vmem => 48
  | .smem => 0
  | _ => 0

abbrev bufTy : (tb : Table) → Fin (tcTables nBuf tb) → BufTy
  | .hbm, ⟨0, _⟩ => ⟨S100000x32, .f32⟩
  | .hbm, ⟨1, _⟩ => ⟨S1024x16, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S32x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S80x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x64, .f32⟩
  | .hbm, ⟨20, _⟩ => ⟨S64, .f32⟩
  | .hbm, ⟨21, _⟩ => ⟨S64x64, .f32⟩
  | .hbm, ⟨22, _⟩ => ⟨S64, .f32⟩
  | .hbm, ⟨23, _⟩ => ⟨S64x32, .f32⟩
  | .hbm, ⟨24, _⟩ => ⟨S32, .f32⟩
  | .hbm, ⟨25, _⟩ => ⟨S32x1, .f32⟩
  | .hbm, ⟨26, _⟩ => ⟨S1, .f32⟩
  | .hbm, ⟨27, _⟩ => ⟨S100000x1, .i32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x32, .f32⟩
  | .hbm, ⟨37, _⟩ => ⟨S_, .f32⟩
  | .hbm, ⟨38, _⟩ => ⟨S100000x32, .f32⟩
  | .hbm, ⟨39, _⟩ => ⟨S1600000x1, .i32⟩
  | .hbm, ⟨40, _⟩ => ⟨S100000x32, .f32⟩
  | .hbm, ⟨41, _⟩ => ⟨S1x64, .f32⟩
  | .hbm, ⟨42, _⟩ => ⟨S1x64, .f32⟩
  | .hbm, ⟨43, _⟩ => ⟨S100000x64, .f32⟩
  | .hbm, ⟨44, _⟩ => ⟨S64x1024, .f32⟩
  | .hbm, ⟨45, _⟩ => ⟨S1x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S64x1024, .f32⟩
  | .hbm, ⟨50, _⟩ => ⟨S64x1024, .f32⟩
  | .hbm, ⟨51, _⟩ => ⟨S1024x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S1x64, .f32⟩
  | .hbm, ⟨66, _⟩ => ⟨S1x64, .f32⟩
  | .hbm, ⟨67, _⟩ => ⟨S100000x64, .f32⟩
  | .hbm, ⟨68, _⟩ => ⟨S64x1024, .f32⟩
  | .hbm, ⟨69, _⟩ => ⟨S1x1024, .f32⟩
  | .hbm, ⟨70, _⟩ => ⟨S_, .f32⟩
  | .hbm, ⟨71, _⟩ => ⟨S1x1024, .f32⟩
  | .hbm, ⟨72, _⟩ => ⟨S1x1024, .f32⟩
  | .hbm, ⟨73, _⟩ => ⟨S64x1024, .f32⟩
  | .hbm, ⟨74, _⟩ => ⟨S64x1024, .f32⟩
  | .hbm, ⟨75, _⟩ => ⟨S1024x64, .f32⟩
  | .hbm, ⟨76, _⟩ => ⟨S1024x64, .f32⟩
  | .hbm, ⟨77, _⟩ => ⟨S1024x64, .f32⟩
  | .hbm, ⟨78, _⟩ => ⟨S1024x80, .f32⟩
  | .hbm, ⟨79, _⟩ => ⟨S1x256, .f32⟩
  | .hbm, ⟨80, _⟩ => ⟨S1x128, .f32⟩
  | .hbm, ⟨81, _⟩ => ⟨S1x128, .f32⟩
  | .hbm, ⟨82, _⟩ => ⟨S1x64, .f32⟩
  | .hbm, ⟨83, _⟩ => ⟨S1x64, .f32⟩
  | .hbm, ⟨84, _⟩ => ⟨S1x32, .f32⟩
  | .hbm, ⟨85, _⟩ => ⟨S1x1, .f32⟩
  | .hbm, ⟨86, _⟩ => ⟨S1024x1, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .i32⟩
  | .local _ .vmem, ⟨13, _⟩ => ⟨S5000x1, .i32⟩
  | .local _ .vmem, ⟨14, _⟩ => ⟨S64x1024, .f32⟩
  | .local _ .vmem, ⟨15, _⟩ => ⟨S1x1024, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x1, .i32⟩
  | .local _ .vmem, ⟨29, _⟩ => ⟨S5000x1, .i32⟩
  | .local _ .vmem, ⟨30, _⟩ => ⟨S64x1024, .f32⟩
  | .local _ .vmem, ⟨31, _⟩ => ⟨S1x1024, .f32⟩
  | .local _ .vmem, ⟨32, _⟩ => ⟨S1024x80, .f32⟩
  | .local _ .vmem, ⟨33, _⟩ => ⟨S80x256, .f32⟩
  | .local _ .vmem, ⟨34, _⟩ => ⟨S1x256, .f32⟩
  | .local _ .vmem, ⟨35, _⟩ => ⟨S256x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S128x64, .f32⟩
  | .local _ .vmem, ⟨40, _⟩ => ⟨S1x64, .f32⟩
  | .local _ .vmem, ⟨41, _⟩ => ⟨S64x64, .f32⟩
  | .local _ .vmem, ⟨42, _⟩ => ⟨S1x64, .f32⟩
  | .local _ .vmem, ⟨43, _⟩ => ⟨S64x32, .f32⟩
  | .local _ .vmem, ⟨44, _⟩ => ⟨S1x32, .f32⟩
  | .local _ .vmem, ⟨45, _⟩ => ⟨S32x1, .f32⟩
  | .local _ .vmem, ⟨46, _⟩ => ⟨S1x1, .f32⟩
  | .local _ .vmem, ⟨47, _⟩ => ⟨S1024x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_c : Ref sig .tc := ⟨.hbm, 28, rfl⟩
abbrev main_v1 : Ref sig .tc := ⟨.hbm, 29, rfl⟩
abbrev main_v2 : Ref sig .tc := ⟨.hbm, 30, rfl⟩
abbrev main_c_0 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14_0 : Ref sig .tc := ⟨.hbm, 44, rfl⟩
abbrev main_v14_1 : Ref sig .tc := ⟨.hbm, 45, rfl⟩
abbrev main_cst_1 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_2 : Ref sig .tc := ⟨.hbm, 52, rfl⟩
abbrev main_v20 : Ref sig .tc := ⟨.hbm, 53, rfl⟩
abbrev main_v21 : Ref sig .tc := ⟨.hbm, 54, rfl⟩
abbrev main_c_3 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_4 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33_0 : Ref sig .tc := ⟨.hbm, 68, rfl⟩
abbrev main_v33_1 : Ref sig .tc := ⟨.hbm, 69, rfl⟩
abbrev main_cst_5 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc4_stg0_0 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc4_stg8_0 : Ref sig .tc := ⟨.vmem, 40, rfl⟩
abbrev cc4_stg9_0 : Ref sig .tc := ⟨.vmem, 41, rfl⟩
abbrev cc4_stg10_0 : Ref sig .tc := ⟨.vmem, 42, rfl⟩
abbrev cc4_stg11_0 : Ref sig .tc := ⟨.vmem, 43, rfl⟩
abbrev cc4_stg12_0 : Ref sig .tc := ⟨.vmem, 44, rfl⟩
abbrev cc4_stg13_0 : Ref sig .tc := ⟨.vmem, 45, rfl⟩
abbrev cc4_stg14_0 : Ref sig .tc := ⟨.vmem, 46, rfl⟩
abbrev cc4_stg15_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem8_0 : DmaSem sig := 40
abbrev cc4_sem9_0 : DmaSem sig := 41
abbrev cc4_sem10_0 : DmaSem sig := 42
abbrev cc4_sem11_0 : DmaSem sig := 43
abbrev cc4_sem12_0 : DmaSem sig := 44
abbrev cc4_sem13_0 : DmaSem sig := 45
abbrev cc4_sem14_0 : DmaSem sig := 46
abbrev cc4_sem15_0 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x80 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S80x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S64x32 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x32 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S32x1 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1x1 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]

abbrev stage4_15 : Fin 1 → Memref sig .tc .vmem S1024x1 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false]

class Facts₀ : Prop where
  shapeCasts_S100000_S100000x1 : S100000.ShapeCasts S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  inb_S64x1024_S64x1024_0_0 : ∀ a, (![0, 0] : Fin 2 → Nat) a + S64x1024.size a ≤ S64x1024.size a
  h_S64x1024 : 0 < S64x1024.numel
  inb_S1x1024_S1x1024_0_0 : ∀ a, (![0, 0] : Fin 2 → Nat) a + S1x1024.size a ≤ S1x1024.size a
  h_S1x1024 : 0 < S1x1024.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x1024_d1_w32 : S1x1024.Iotas .tc 32 [1]
  broadcasts_S5000x1_S5000x1024 : S5000x1.Broadcasts S5000x1024
  broadcasts_S1x1024_S5000x1024 : S1x1024.Broadcasts S5000x1024
  natLt_1_32 : 1 < 32
  shapeCasts_S5000x64_S5000x64 : S5000x64.ShapeCasts S5000x64
  transposes_S5000x64_p1_0_S64x5000 : S5000x64.Transposes [1, 0] S64x5000
  transposes_S5000x1_p1_0_S1x5000 : S5000x1.Transposes [1, 0] S1x5000
  shapeCasts_S64x1024_S64x1024 : S64x1024.ShapeCasts S64x1024
  shapeCasts_S1x1024_S1x1024 : S1x1024.ShapeCasts S1x1024
  bcast_S_S1x1024 : S_.BroadcastsInDim S1x1024 (![] : Fin 0 → Fin S1x1024.rank)
  bcast_S1x1024_S64x1024_0_1 : S1x1024.BroadcastsInDim S64x1024 (![0, 1] : Fin 2 → Fin S64x1024.rank)
  transposes_S64x1024_S1024x64_1_0 : S64x1024.Transposes [1, 0] S1024x64
  bcast_S_S100000x64 : S_.BroadcastsInDim S100000x64 (![] : Fin 0 → Fin S100000x64.rank)
  concatenates_S1024x64_S1024x16_S1024x80_d1 : Shape.Concatenates [S1024x64, S1024x16] S1024x80 1
  shapeCasts_S256_S1x256 : S256.ShapeCasts S1x256
  shapeCasts_S128_S1x128 : S128.ShapeCasts S1x128
  shapeCasts_S32_S1x32 : S32.ShapeCasts S1x32
  shapeCasts_S1_S1x1 : S1.ShapeCasts S1x1
  inb_S1024x80_S1024x80_0_0 : ∀ a, (![0, 0] : Fin 2 → Nat) a + S1024x80.size a ≤ S1024x80.size a
  h_S1024x80 : 0 < S1024x80.numel
  shapeCasts_S1024x80_S1024x80 : S1024x80.ShapeCasts S1024x80
  inb_S80x256_S80x256_0_0 : ∀ a, (![0, 0] : Fin 2 → Nat) a + S80x256.size a ≤ S80x256.size a
  h_S80x256 : 0 < S80x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  broadcasts_S1x64_S1024x64 : S1x64.Broadcasts S1024x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  dot_S64x5000_S5000x1024_S64x1024_1_0_0_1_n_n_wf : DotDims.WF S64x5000 S5000x1024 S64x1024 [1] [0] [0] [1] [] []
  dot_S1x5000_S5000x1024_S1x1024_1_0_0_1_n_n_wf : DotDims.WF S1x5000 S5000x1024 S1x1024 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S1024x80_S80x256_S1024x256_1_0_0_1_n_n_wf : DotDims.WF S1024x80 S80x256 S1024x256 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  dot_S1024x64_S64x64_S1024x64_1_0_0_1_n_n_wf : DotDims.WF S1024x64 S64x64 S1024x64 [1] [0] [0] [1] [] []
  dot_S1024x64_S64x32_S1024x32_1_0_0_1_n_n_wf : DotDims.WF S1024x64 S64x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .i32 = 32 ∨ (Rect.block (s := S100000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1024.size a ≤ S64x1024.size a
  hwx1_2 : ∀ i : grid1.Coords, EltTy.bits .f32 = 32 ∨ (Rect.block (s := S64x1024) S64x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x1024.size a ≤ S64x1024.size a
  hwx3_2 : ∀ i : grid3.Coords, EltTy.bits .f32 = 32 ∨ (Rect.block (s := S64x1024) S64x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x80.size a ≤ S1024x80.size a
  hwx4_0 : ∀ i : grid4.Coords, EltTy.bits .f32 = 32 ∨ (Rect.block (s := S1024x80) S1024x80.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S80x256.size a ≤ S80x256.size a
  hwx4_1 : ∀ i : grid4.Coords, EltTy.bits .f32 = 32 ∨ (Rect.block (s := S80x256) S80x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x64.size a ≤ S128x64.size a
  hwx4_7 : ∀ i : grid4.Coords, EltTy.bits .f32 = 32 ∨ (Rect.block (s := S128x64) S128x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x64.size a ≤ S64x64.size a
  hwx4_9 : ∀ i : grid4.Coords, EltTy.bits .f32 = 32 ∨ (Rect.block (s := S64x64) S64x64.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x64.size a ≤ S1x64.size a
  hwx4_10 : ∀ i : grid4.Coords, EltTy.bits .f32 = 32 ∨ (Rect.block (s := S1x64) S1x64.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S64x32.size a ≤ S64x32.size a
  hwx4_11 : ∀ i : grid4.Coords, EltTy.bits .f32 = 32 ∨ (Rect.block (s := S64x32) S64x32.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x32.size a ≤ S1x32.size a
  hwx4_12 : ∀ i : grid4.Coords, EltTy.bits .f32 = 32 ∨ (Rect.block (s := S1x32) S1x32.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S32x1.size a ≤ S32x1.size a
  hwx4_13 : ∀ i : grid4.Coords, EltTy.bits .f32 = 32 ∨ (Rect.block (s := S32x1) S32x1.size (cc4_transform_13 i) (hinb4_13 i)).WholeWords (EltTy.packing .f32)
  hstage4_14 : ∀ j, (stage4_14 j).IsWhole
  nbuf4_14 : grid4.bufCount reads4_14 true = 1
  hreads4_14 : ∀ i i' : grid4.Coords, (∀ a, reads4_14 a = true → i a = i' a) → cc4_transform_14 i = cc4_transform_14 i'
  hinb4_14 : ∀ (i : grid4.Coords) a, (cc4_transform_14 i a + 1) * S1x1.size a ≤ S1x1.size a
  hwx4_14 : ∀ i : grid4.Coords, EltTy.bits .f32 = 32 ∨ (Rect.block (s := S1x1) S1x1.size (cc4_transform_14 i) (hinb4_14 i)).WholeWords (EltTy.packing .f32)
  hstage4_15 : ∀ j, (stage4_15 j).IsWhole
  nbuf4_15 : grid4.bufCount reads4_15 true = 1
  hreads4_15 : ∀ i i' : grid4.Coords, (∀ a, reads4_15 a = true → i a = i' a) → cc4_transform_15 i = cc4_transform_15 i'
  hinb4_15 : ∀ (i : grid4.Coords) a, (cc4_transform_15 i a + 1) * S1024x1.size a ≤ S1024x1.size a
  hwx4_15 : ∀ i : grid4.Coords, EltTy.bits .f32 = 32 ∨ (Rect.block (s := S1024x1) S1024x1.size (cc4_transform_15 i) (hinb4_15 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S64x5000_S5000x1024_S64x1024_1_0_0_1_n_n : DotDims S64x5000 S5000x1024 S64x1024 where
  lhsContracting := [1]
  rhsContracting := [0]
  lhsNonContracting := [0]
  rhsNonContracting := [1]
  lhsBatch := []
  rhsBatch := []
  wf := dot_S64x5000_S5000x1024_S64x1024_1_0_0_1_n_n_wf
def dot_S1x5000_S5000x1024_S1x1024_1_0_0_1_n_n : DotDims S1x5000 S5000x1024 S1x1024 where
  lhsContracting := [1]
  rhsContracting := [0]
  lhsNonContracting := [0]
  rhsNonContracting := [1]
  lhsBatch := []
  rhsBatch := []
  wf := dot_S1x5000_S5000x1024_S1x1024_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S1024x80_S80x256_S1024x256_1_0_0_1_n_n : DotDims S1024x80 S80x256 S1024x256 where
  lhsContracting := [1]
  rhsContracting := [0]
  lhsNonContracting := [0]
  rhsNonContracting := [1]
  lhsBatch := []
  rhsBatch := []
  wf := dot_S1024x80_S80x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_0) S64x1024.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14_1) S1x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v32) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33_0) S64x1024.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33_1) S1x1024.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S1024x80.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S80x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v42) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v43) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg17) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v44) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg19) S128x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v45) S1x64.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg21) S64x64.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v46) S1x64.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_arg23) S64x32.size cc4_transform_11 reads4_11 false true 1 stage4_11 sem4_11
    hrank4 hreads4_11 hinb4_11 nbuf4_11 (Memref.isWhole_whole _) hwx4_11 hstage4_11

abbrev win4_12 : Pipeline.Window sig grid4 :=
  Pipeline.Window.ofSpec (Memref.whole main_v47) S1x32.size cc4_transform_12 reads4_12 false true 1 stage4_12 sem4_12
    hrank4 hreads4_12 hinb4_12 nbuf4_12 (Memref.isWhole_whole _) hwx4_12 hstage4_12

abbrev win4_13 : Pipeline.Window sig grid4 :=
  Pipeline.Window.ofSpec (Memref.whole main_arg25) S32x1.size cc4_transform_13 reads4_13 false true 1 stage4_13 sem4_13
    hrank4 hreads4_13 hinb4_13 nbuf4_13 (Memref.isWhole_whole _) hwx4_13 hstage4_13

abbrev win4_14 : Pipeline.Window sig grid4 :=
  Pipeline.Window.ofSpec (Memref.whole main_v48) S1x1.size cc4_transform_14 reads4_14 false true 1 stage4_14 sem4_14
    hrank4 hreads4_14 hinb4_14 nbuf4_14 (Memref.isWhole_whole _) hwx4_14 hstage4_14

abbrev win4_15 : Pipeline.Window sig grid4 :=
  Pipeline.Window.ofSpec (Memref.whole main_v49) S1024x1.size cc4_transform_15 reads4_15 true true 1 stage4_15 sem4_15
    hrank4 hreads4_15 hinb4_15 nbuf4_15 (Memref.isWhole_whole _) hwx4_15 hstage4_15

abbrev win4 : Fin 16 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | 14 => win4_14 | 15 => win4_15 | ⟨_ + 16, h⟩ => absurd h (Nat.not_lt.2 (Nat.le_add_left _ _))
abbrev spec4 : Fin 16 → Pipeline.WinSpec sig grid4.rank := fun w => (win4 w).toWinSpec

class Facts : Prop extends Facts₀ where

variable [Facts]
-- ==== ReferenceIdeal.lean ====
abbrev S100000x32 : Shape := ⟨2, ![100000, 32]⟩
abbrev S1024x16 : Shape := ⟨2, ![1024, 16]⟩
abbrev S1600000 : Shape := ⟨1, ![1600000]⟩
abbrev S100000 : Shape := ⟨1, ![100000]⟩
abbrev S32x64 : Shape := ⟨2, ![32, 64]⟩
abbrev S64 : Shape := ⟨1, ![64]⟩
abbrev S64x64 : Shape := ⟨2, ![64, 64]⟩
abbrev S80x256 : Shape := ⟨2, ![80, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1600000x64 : Shape := ⟨2, ![1600000, 64]⟩
abbrev S1024x80 : Shape := ⟨2, ![1024, 80]⟩
abbrev S1024x256 : Shape := ⟨2, ![1024, 256]⟩
abbrev S1x256 : Shape := ⟨2, ![1, 256]⟩
abbrev S1024x128 : Shape := ⟨2, ![1024, 128]⟩
abbrev S1x128 : Shape := ⟨2, ![1, 128]⟩
abbrev S1024x32 : Shape := ⟨2, ![1024, 32]⟩
abbrev S1x32 : Shape := ⟨2, ![1, 32]⟩
abbrev S1x1 : Shape := ⟨2, ![1, 1]⟩

abbrev nBuf : Space → Nat
  | .hbm => 180
  | .vmem => 0
  | .smem => 0
  | _ => 0

abbrev hbmTy0_0 (i : Nat) : BufTy := match i % 128 with
  | 0 => ⟨S100000x32, .f32⟩
  | 1 => ⟨S1024x16, .f32⟩
  | 2 => ⟨S1600000, .i32⟩
  | 3 => ⟨S1600000, .i32⟩
  | 4 => ⟨S100000, .i32⟩
  | 5 => ⟨S32x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S80x256, .f32⟩
  | 14 => ⟨S256, .f32⟩
  | 15 => ⟨S256x128, .f32⟩
  | 16 => ⟨S128, .f32⟩
  | 17 => ⟨S128x128, .f32⟩
  | 18 => ⟨S128, .f32⟩
  | 19 => ⟨S128x64, .f32⟩
  | 20 => ⟨S64, .f32⟩
  | 21 => ⟨S64x64, .f32⟩
  | 22 => ⟨S64, .f32⟩
  | 23 => ⟨S64x32, .f32⟩
  | 24 => ⟨S32, .f32⟩
  | 25 => ⟨S32x1, .f32⟩
  | 26 => ⟨S1, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x32, .f32⟩
  | 36 => ⟨S_, .f32⟩
  | 37 => ⟨S100000x32, .f32⟩
  | 38 => ⟨S1600000x1, .i32⟩
  | 39 => ⟨S100000x32, .f32⟩
  | 40 => ⟨S100000x32, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S_, .f32⟩
  | 56 => ⟨S1024x64, .f32⟩
  | 57 => ⟨S100000x1, .i32⟩
  | 58 => ⟨S1024x64, .f32⟩
  | 59 => ⟨S_, .f32⟩
  | 60 => ⟨S100000, .f32⟩
  | 61 => ⟨S_, .f32⟩
  | 62 => ⟨S1024, .f32⟩
  | 63 => ⟨S100000x1, .i32⟩
  | 64 => ⟨S1024, .f32⟩
  | 65 => ⟨S_, .f32⟩
  | 66 => ⟨S1024, .f32⟩
  | 67 => ⟨S1024, .f32⟩
  | 68 => ⟨S1024x1, .f32⟩
  | 69 => ⟨S1024x64, .f32⟩
  | 70 => ⟨S1024x64, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x64, .f32⟩
  | 80 => ⟨S_, .f32⟩
  | 81 => ⟨S100000x64, .f32⟩
  | 82 => ⟨S1600000x1, .i32⟩
  | 83 => ⟨S100000x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S_, .f32⟩
  | 100 => ⟨S1024x64, .f32⟩
  | 101 => ⟨S100000x1, .i32⟩
  | 102 => ⟨S1024x64, .f32⟩
  | 103 => ⟨S_, .f32⟩
  | 104 => ⟨S100000, .f32⟩
  | 105 => ⟨S_, .f32⟩
  | 106 => ⟨S1024, .f32⟩
  | 107 => ⟨S100000x1, .i32⟩
  | 108 => ⟨S1024, .f32⟩
  | 109 => ⟨S_, .f32⟩
  | 110 => ⟨S1024, .f32⟩
  | 111 => ⟨S1024, .f32⟩
  | 112 => ⟨S1024x1, .f32⟩
  | 113 => ⟨S1024x64, .f32⟩
  | 114 => ⟨S1024x64, .f32⟩
  | 115 => ⟨S_, .f32⟩
  | 116 => ⟨S1024x64, .f32⟩
  | 117 => ⟨S100000x1, .i32⟩
  | 118 => ⟨S1024x64, .f32⟩
  | 119 => ⟨S_, .f32⟩
  | 120 => ⟨S100000, .f32⟩
  | 121 => ⟨S_, .f32⟩
  | 122 => ⟨S1024, .f32⟩
  | 123 => ⟨S100000x1, .i32⟩
  | 124 => ⟨S1024, .f32⟩
  | 125 => ⟨S_, .f32⟩
  | 126 => ⟨S1024, .f32⟩
  | 127 => ⟨S1024, .f32⟩
  | _ => ⟨S100000x32, .f32⟩

abbrev hbmTy0_1 (i : Nat) : BufTy := match i % 128 with
  | 0 => ⟨S1024x1, .f32⟩
  | 1 => ⟨S1024x64, .f32⟩
  | 2 => ⟨S1024x64, .f32⟩
  | 3 => ⟨S1024x64, .f32⟩
  | 4 => ⟨S1024x64, .f32⟩
  | 5 => ⟨S1024x80, .f32⟩
  | 6 => ⟨S1024x256, .f32⟩
  | 7 => ⟨S1x256, .f32⟩
  | 8 => ⟨S1024x256, .f32⟩
  | 9 => ⟨S1024x256, .f32⟩
  | 10 => ⟨S_, .f32⟩
  | 11 => ⟨S1024x256, .f32⟩
  | 12 => ⟨S1024x256, .f32⟩
  | 13 => ⟨S1024x128, .f32⟩
  | 14 => ⟨S1x128, .f32⟩
  | 15 => ⟨S1024x128, .f32⟩
  | 16 => ⟨S1024x128, .f32⟩
  | 17 => ⟨S_, .f32⟩
  | 18 => ⟨S1024x128, .f32⟩
  | 19 => ⟨S1024x128, .f32⟩
  | 20 => ⟨S1024x128, .f32⟩
  | 21 => ⟨S1x128, .f32⟩
  | 22 => ⟨S1024x128, .f32⟩
  | 23 => ⟨S1024x128, .f32⟩
  | 24 => ⟨S_, .f32⟩
  | 25 => ⟨S1024x128, .f32⟩
  | 26 => ⟨S1024x128, .f32⟩
  | 27 => ⟨S1024x64, .f32⟩
  | 28 => ⟨S1x64, .f32⟩
  | 29 => ⟨S1024x64, .f32⟩
  | 30 => ⟨S1024x64, .f32⟩
  | 31 => ⟨S_, .f32⟩
  | 32 => ⟨S1024x64, .f32⟩
  | 33 => ⟨S1024x64, .f32⟩
  | 34 => ⟨S1024x64, .f32⟩
  | 35 => ⟨S1x64, .f32⟩
  | 36 => ⟨S1024x64, .f32⟩
  | 37 => ⟨S1024x64, .f32⟩
  | 38 => ⟨S_, .f32⟩
  | 39 => ⟨S1024x64, .f32⟩
  | 40 => ⟨S1024x64, .f32⟩
  | 41 => ⟨S1024x32, .f32⟩
  | 42 => ⟨S1x32, .f32⟩
  | 43 => ⟨S1024x32, .f32⟩
  | 44 => ⟨S1024x32, .f32⟩
  | 45 => ⟨S_, .f32⟩
  | 46 => ⟨S1024x32, .f32⟩
  | 47 => ⟨S1024x32, .f32⟩
  | 48 => ⟨S1024x1, .f32⟩
  | 49 => ⟨S1x1, .f32⟩
  | 50 => ⟨S1024x1, .f32⟩
  | 51 => ⟨S1024x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_call0_cst : Ref sig .tc := ⟨.hbm, 45, rfl⟩
abbrev main_call0_v0 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_call1_cst : Ref sig .tc := ⟨.hbm, 52, rfl⟩
abbrev main_call1_v0 : Ref sig .tc := ⟨.hbm, 53, rfl⟩
abbrev main_v20 : Ref sig .tc := ⟨.hbm, 54, rfl⟩
abbrev main_cst_1 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_2 : Ref sig .tc := ⟨.hbm, 59, rfl⟩
abbrev main_v24 : Ref sig .tc := ⟨.hbm, 60, rfl⟩
abbrev main_cst_3 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_4 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_5 : Ref sig .tc := ⟨.hbm, 71, rfl⟩
abbrev main_v33 : Ref sig .tc := ⟨.hbm, 72, rfl⟩
abbrev main_v34 : Ref sig .tc := ⟨.hbm, 73, rfl⟩
abbrev main_c_6 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_7 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_call2_cst : Ref sig .tc := ⟨.hbm, 89, rfl⟩
abbrev main_call2_v0 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_call3_cst : Ref sig .tc := ⟨.hbm, 96, rfl⟩
abbrev main_call3_v0 : Ref sig .tc := ⟨.hbm, 97, rfl⟩
abbrev main_v53 : Ref sig .tc := ⟨.hbm, 98, rfl⟩
abbrev main_cst_8 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_9 : Ref sig .tc := ⟨.hbm, 103, rfl⟩
abbrev main_v57 : Ref sig .tc := ⟨.hbm, 104, rfl⟩
abbrev main_cst_10 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_11 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_12 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_13 : Ref sig .tc := ⟨.hbm, 119, rfl⟩
abbrev main_v69 : Ref sig .tc := ⟨.hbm, 120, rfl⟩
abbrev main_cst_14 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_15 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_call4_cst : Ref sig .tc := ⟨.hbm, 138, rfl⟩
abbrev main_call4_v0 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_call5_cst : Ref sig .tc := ⟨.hbm, 145, rfl⟩
abbrev main_call5_v0 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_call6_cst : Ref sig .tc := ⟨.hbm, 152, rfl⟩
abbrev main_call6_v0 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_call7_cst : Ref sig .tc := ⟨.hbm, 159, rfl⟩
abbrev main_call7_v0 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_call8_cst : Ref sig .tc := ⟨.hbm, 166, rfl⟩
abbrev main_call8_v0 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_call9_cst : Ref sig .tc := ⟨.hbm, 173, rfl⟩
abbrev main_call9_v0 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  concatenates_S1024x64_S1024x16_S1024x80_d1 : Shape.Concatenates [S1024x64, S1024x16] S1024x80 1
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S1x64_S1024x64_0_1 : S1x64.BroadcastsInDim S1024x64 (![0, 1] : Fin 2 → Fin S1024x64.rank)
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S1024x80_S80x256_S1024x256_1_0_0_1_n_n_wf : DotDims.WF S1024x80 S80x256 S1024x256 [1] [0] [0] [1] [] []
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  dot_S1024x64_S64x64_S1024x64_1_0_0_1_n_n_wf : DotDims.WF S1024x64 S64x64 S1024x64 [1] [0] [0] [1] [] []
  dot_S1024x64_S64x32_S1024x32_1_0_0_1_n_n_wf : DotDims.WF S1024x64 S64x32 S1024x32 [1] [0] [0] [1] [] []
  dot_S1024x32_S32x1_S1024x1_1_0_0_1_n_n_wf : DotDims.WF S1024x32 S32x1 S1024x1 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S1024x80_S80x256_S1024x256_1_0_0_1_n_n : DotDims S1024x80 S80x256 S1024x256 where
  lhsContracting := [1]
  rhsContracting := [0]
  lhsNonContracting := [0]
  rhsNonContracting := [1]
  lhsBatch := []
  rhsBatch := []
  wf := dot_S1024x80_S80x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

class Facts : Prop extends Facts₀ where

variable [Facts]
-- ==== Proof.Spec.lean ====
/- What both programs compute, as whole-array functions at the exact (extended-real) values.

   One GIN layer sends the node features x to relu(relu((x + agg) · w1 + b1) · w2 + b2), where agg sums over the
   incoming edges the source node's row; a readout averages a layer's rows over the nodes of each graph (the sum of
   the rows whose graph id is g, divided by max(count, 1)); the head is seven affine layers with a relu after each but
   the last, applied to the two readouts summed (the second counted twice) beside the per-graph event features.
   The functions are written with the host operations' own names, so that the reference's composed term is literally
   their composition; the kernel's stages are proved equal to them one by one. -/
import proofs.«406926_j64544768525161_1_alg».proof.Proof.Gen.ReferenceIdeal
import Idealize.ShloMosaic.PureOps.Ideal

noncomputable section

namespace Cert.Spec

open Idealize.ShloMosaic Cert.ReferenceIdeal Cert.ReferenceIdeal.Gen

/-- The edge list's source column as gather indices: a negative entry wraps once by the number of nodes. -/
def srcIdx (src : IVec S1600000 32) : IVec S1600000x1 32 :=
  broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)

/-- Sum aggregation over the edges, 32 features: row n of the result is the sum of x's rows at the sources of the
    edges whose destination is n. -/
def agg32 (x : FVec Ideal S100000x32 .f32) (src dst : IVec S1600000 32) : FVec Ideal S100000x32 .f32 :=
  Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 dst) (Host.gather gather_S100000x32_S1600000x1_S1600000x32_1_0_n_n_0_1_132 x (srcIdx src))

/-- The zero array of the hidden width, relu's other operand. -/
def zero64 : FVec Ideal S100000x64 .f32 := broadcastInDim S100000x64 ![] bcast_S_S100000x64 (constant S_ .f32 0x00000000#32)

/-- Sum aggregation over the edges, 64 features. -/
def agg64 (x : FVec Ideal S100000x64 .f32) (src dst : IVec S1600000 32) : FVec Ideal S100000x64 .f32 :=
  Host.scatterAdd scatter_S100000x64_S1600000x1_S1600000x64_1_0_0_1 zero64 (broadcastInDim S1600000x1 ![0] bcast_S1600000_S1600000x1_0 dst) (Host.gather gather_S100000x64_S1600000x1_S1600000x64_1_0_n_n_0_1_164 x (srcIdx src))

/-- A bias vector as one row. -/
def row64 (b : FVec Ideal S64 .f32) : FVec Ideal S1x64 .f32 := broadcastInDim S1x64 ![1] bcast_S64_S1x64_1 b

/-- A bias row repeated down the nodes. -/
def rows64 (br : FVec Ideal S1x64 .f32) : FVec Ideal S100000x64 .f32 := broadcastInDim S100000x64 ![0, 1] bcast_S1x64_S100000x64_0_1 br

/-- One GIN layer's node update from 32 features, the biases given as rows:
    relu(relu((x + agg) · w1 + b1) · w2 + b2), row by row. -/
def mlp32 (x agg : FVec Ideal S100000x32 .f32) (w1 : FVec Ideal S32x64 .f32) (b1 : FVec Ideal S1x64 .f32)
    (w2 : FVec Ideal S64x64 .f32) (b2 : FVec Ideal S1x64 .f32) : FVec Ideal S100000x64 .f32 :=
  maximumf (addf (Host.dotGeneral dot_S100000x64_S64x64_S100000x64_1_0_0_1_n_n none (maximumf (addf (Host.dotGeneral dot_S100000x32_S32x64_S100000x64_1_0_0_1_n_n none (addf x agg) w1) (rows64 b1)) zero64) w2) (rows64 b2)) zero64

/-- The same from 64 features. -/
def mlp64 (x agg : FVec Ideal S100000x64 .f32) (w1 : FVec Ideal S64x64 .f32) (b1 : FVec Ideal S1x64 .f32)
    (w2 : FVec Ideal S64x64 .f32) (b2 : FVec Ideal S1x64 .f32) : FVec Ideal S100000x64 .f32 :=
  maximumf (addf (Host.dotGeneral dot_S100000x64_S64x64_S100000x64_1_0_0_1_n_n none (maximumf (addf (Host.dotGeneral dot_S100000x64_S64x64_S100000x64_1_0_0_1_n_n none (addf x agg) w1) (rows64 b1)) zero64) w2) (rows64 b2)) zero64

/-- The graph ids as a column. -/
def gidCol (gid : IVec S100000 32) : IVec S100000x1 32 := broadcastInDim S100000x1 ![0] bcast_S100000_S100000x1_0 gid

/-- Per-graph sums of the node rows: entry (g, f) is the sum of h(n, f) over the nodes n whose graph id is g (an id
    outside 0 … 1023 contributes nowhere). -/
def segSum (h : FVec Ideal S100000x64 .f32) (g2 : IVec S100000x1 32) : FVec Ideal S1024x64 .f32 :=
  Host.scatterAdd scatter_S1024x64_S100000x1_S100000x64_1_0_0_1 (broadcastInDim S1024x64 ![] bcast_S_S1024x64 (constant S_ .f32 0x00000000#32)) g2 h

/-- Per-graph node counts. -/
def segCnt (g2 : IVec S100000x1 32) : FVec Ideal S1024 .f32 :=
  Host.scatterAdd scatter_S1024_S100000x1_S100000_n_0_0_1 (broadcastInDim S1024 ![] bcast_S_S1024 (constant S_ .f32 0x00000000#32)) g2 (broadcastInDim S100000 ![] bcast_S_S100000 (constant S_ .f32 0x3F800000#32))

/-- The mean readout: per-graph sums over max(count, 1). -/
def avgPool (h : FVec Ideal S100000x64 .f32) (g2 : IVec S100000x1 32) : FVec Ideal S1024x64 .f32 :=
  Host.divf (segSum h g2) (broadcastInDim S1024x64 ![0, 1] bcast_S1024x1_S1024x64_0_1 (broadcastInDim S1024x1 ![0] bcast_S1024_S1024x1_0 (maximumf (segCnt g2) (broadcastInDim S1024 ![] bcast_S_S1024 (constant S_ .f32 0x3F800000#32)))))

/-- The head's input: the readouts p2 + p1 + p2 beside the event features. -/
def headIn (p2 p1 : FVec Ideal S1024x64 .f32) (ev : FVec Ideal S1024x16 .f32) : FVec Ideal S1024x80 .f32 :=
  concatenate S1024x80 1 [⟨S1024x64, (addf (addf p2 p1) p2)⟩, ⟨S1024x16, ev⟩] concatenates_S1024x64_S1024x16_S1024x80_d1

/-- The dense head, the biases given as rows: seven affine layers, relu after each but the last. -/
def head (t : FVec Ideal S1024x80 .f32)
    (w0 : FVec Ideal S80x256 .f32) (b0 : FVec Ideal S1x256 .f32) (w1 : FVec Ideal S256x128 .f32) (b1 : FVec Ideal S1x128 .f32)
    (w2 : FVec Ideal S128x128 .f32) (b2 : FVec Ideal S1x128 .f32) (w3 : FVec Ideal S128x64 .f32) (b3 : FVec Ideal S1x64 .f32)
    (w4 : FVec Ideal S64x64 .f32) (b4 : FVec Ideal S1x64 .f32) (w5 : FVec Ideal S64x32 .f32) (b5 : FVec Ideal S1x32 .f32)
    (w6 : FVec Ideal S32x1 .f32) (b6 : FVec Ideal S1x1 .f32) : FVec Ideal S1024x1 .f32 :=
  addf (Host.dotGeneral dot_S1024x32_S32x1_S1024x1_1_0_0_1_n_n none (maximumf (addf (Host.dotGeneral dot_S1024x64_S64x32_S1024x32_1_0_0_1_n_n none (maximumf (addf (Host.dotGeneral dot_S1024x64_S64x64_S1024x64_1_0_0_1_n_n none (maximumf (addf (Host.dotGeneral dot_S1024x128_S128x64_S1024x64_1_0_0_1_n_n none (maximumf (addf (Host.dotGeneral dot_S1024x128_S128x128_S1024x128_1_0_0_1_n_n none (maximumf (addf (Host.dotGeneral dot_S1024x256_S256x128_S1024x128_1_0_0_1_n_n none (maximumf (addf (Host.dotGeneral dot_S1024x80_S80x256_S1024x256_1_0_0_1_n_n none t w0) (broadcastInDim S1024x256 ![0, 1] bcast_S1x256_S1024x256_0_1 b0)) (broadcastInDim S1024x256 ![] bcast_S_S1024x256 (constant S_ .f32 0x00000000#32))) w1) (broadcastInDim S1024x128 ![0, 1] bcast_S1x128_S1024x128_0_1 b1)) (broadcastInDim S1024x128 ![] bcast_S_S1024x128 (constant S_ .f32 0x00000000#32))) w2) (broadcastInDim S1024x128 ![0, 1] bcast_S1x128_S1024x128_0_1 b2)) (broadcastInDim S1024x128 ![] bcast_S_S1024x128 (constant S_ .f32 0x00000000#32))) w3) (broadcastInDim S1024x64 ![0, 1] bcast_S1x64_S1024x64_0_1 b3)) (broadcastInDim S1024x64 ![] bcast_S_S1024x64 (constant S_ .f32 0x00000000#32))) w4) (broadcastInDim S1024x64 ![0, 1] bcast_S1x64_S1024x64_0_1 b4)) (broadcastInDim S1024x64 ![] bcast_S_S1024x64 (constant S_ .f32 0x00000000#32))) w5) (broadcastInDim S1024x32 ![0, 1] bcast_S1x32_S1024x32_0_1 b5)) (broadcastInDim S1024x32 ![] bcast_S_S1024x32 (constant S_ .f32 0x00000000#32))) w6) (broadcastInDim S1024x1 ![0, 1] bcast_S1x1_S1024x1_0_1 b6)

/-- The head's bias vectors as rows. -/
def row256 (b : FVec Ideal S256 .f32) : FVec Ideal S1x256 .f32 := broadcastInDim S1x256 ![1] bcast_S256_S1x256_1 b
def row128 (b : FVec Ideal S128 .f32) : FVec Ideal S1x128 .f32 := broadcastInDim S1x128 ![1] bcast_S128_S1x128_1 b
def row32 (b : FVec Ideal S32 .f32) : FVec Ideal S1x32 .f32 := broadcastInDim S1x32 ![1] bcast_S32_S1x32_1 b
def row1 (b : FVec Ideal S1 .f32) : FVec Ideal S1x1 .f32 := broadcastInDim S1x1 ![1] bcast_S1_S1x1_1 b

/-- The first layer's node features. -/
def hidden1 (x : FVec Ideal S100000x32 .f32) (src dst : IVec S1600000 32) (w1 : FVec Ideal S32x64 .f32) (b1 : FVec Ideal S64 .f32)
    (w2 : FVec Ideal S64x64 .f32) (b2 : FVec Ideal S64 .f32) : FVec Ideal S100000x64 .f32 :=
  mlp32 x (agg32 x src dst) w1 (row64 b1) w2 (row64 b2)

/-- The second layer's node features, from the first's. -/
def hidden2 (h1 : FVec Ideal S100000x64 .f32) (src dst : IVec S1600000 32) (w1 : FVec Ideal S64x64 .f32) (b1 : FVec Ideal S64 .f32)
    (w2 : FVec Ideal S64x64 .f32) (b2 : FVec Ideal S64 .f32) : FVec Ideal S100000x64 .f32 :=
  mlp64 h1 (agg64 h1 src dst) w1 (row64 b1) w2 (row64 b2)

/-- The whole computation as one function of the 27 argument arrays. -/
def whole (a0 : FVec Ideal S100000x32 .f32) (a1 : FVec Ideal S1024x16 .f32) (a2 a3 : IVec S1600000 32) (a4 : IVec S100000 32)
    (a5 : FVec Ideal S32x64 .f32) (a6 : FVec Ideal S64 .f32) (a7 : FVec Ideal S64x64 .f32) (a8 : FVec Ideal S64 .f32)
    (a9 : FVec Ideal S64x64 .f32) (a10 : FVec Ideal S64 .f32) (a11 : FVec Ideal S64x64 .f32) (a12 : FVec Ideal S64 .f32)
    (a13 : FVec Ideal S80x256 .f32) (a14 : FVec Ideal S256 .f32) (a15 : FVec Ideal S256x128 .f32) (a16 : FVec Ideal S128 .f32)
    (a17 : FVec Ideal S128x128 .f32) (a18 : FVec Ideal S128 .f32) (a19 : FVec Ideal S128x64 .f32) (a20 : FVec Ideal S64 .f32)
    (a21 : FVec Ideal S64x64 .f32) (a22 : FVec Ideal S64 .f32) (a23 : FVec Ideal S64x32 .f32) (a24 : FVec Ideal S32 .f32)
    (a25 : FVec Ideal S32x1 .f32) (a26 : FVec Ideal S1 .f32) : FVec Ideal S1024x1 .f32 :=
  head (headIn (avgPool (hidden2 (hidden1 a0 a2 a3 a5 a6 a7 a8) a2 a3 a9 a10 a11 a12) (gidCol a4))
      (avgPool (hidden1 a0 a2 a3 a5 a6 a7 a8) (gidCol a4)) a1)
    a13 (row256 a14) a15 (row128 a16) a17 (row128 a18) a19 (row64 a20) a21 (row64 a22) a23 (row32 a24) a25 (row1 a26)

end Cert.Spec

end
-- ==== Proof.Layer1Rows.lean ====
/- The first GIN layer's pallas_call (32 input features), as a whole-array value. -/
import proofs.«406926_j64544768525161_1_alg».proof.Proof.Gen.KernelIdeal.Frame
import proofs.«406926_j64544768525161_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.KernelValue

open Idealize.ShloMosaic Idealize.ShloMosaic.TcCoe Idealize.ShloMosaic.ValueIdx Idealize.SL.Sem Cert.KernelIdeal Cert.KernelIdeal.Gen
open Idealize.ShloMosaic.Pipeline (Dat Cfg Window)
open scoped BigOperators

namespace Layer1

/-- One row's update: relu(relu((x + a) · w1 + b1) · w2 + b2) at column j, from the row's entries. -/
def rowMlp {K : ℕ} (xr ar : Fin K → EReal) (w1 : Fin K → Fin 64 → EReal) (b1 : Fin 64 → EReal)
    (w2 : Fin 64 → Fin 64 → EReal) (b2 : Fin 64 → EReal) (j : Fin 64) : EReal :=
  max ((∑ k : Fin 64, max ((∑ i : Fin K, (xr i + ar i) * w1 i k) + b1 k) 0 * w2 k j) + b2 j) 0

/-! ## The body's value at an entry of its block -/

theorem lhsA_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem lhsA_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem rhsA_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem rhsA_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The block product of a [5000,32] by a [32,64] operand into the zero accumulator, at an entry: the row times the column. -/
theorem mmA_apply {φ₁ φ₂ : FTy} (a : FVec Ideal S5000x32 φ₁) (b : FVec Ideal S32x64 φ₂) (r : Fin 5000) (j : Fin 64) :
    matmul dot_S5000x32_S32x64_S5000x64_1_0_0_1_n_n none a b (constant S5000x64 .f32 0x00000000#32) (ix2 r j)
      = ∑ i : Fin 32, a (ix2 r i) * b (ix2 i j) := by
  simp only [matmul]
  rw [Ideal.matmul_constant_zero_apply, ← Equiv.sum_comp (ValueIdx.contrEquiv1 dot_S5000x32_S32x64_S5000x64_1_0_0_1_n_n 32 rfl rfl).symm]
  refine Finset.sum_congr rfl fun k _ => ?_
  have hk := ValueIdx.contrEquiv1_symm_val dot_S5000x32_S32x64_S5000x64_1_0_0_1_n_n 32 rfl rfl k
  have el : dot_S5000x32_S32x64_S5000x64_1_0_0_1_n_n.lhsIdx (ix2 r j) ((ValueIdx.contrEquiv1 dot_S5000x32_S32x64_S5000x64_1_0_0_1_n_n 32 rfl rfl).symm k) = ix2 r k := funext fun a => Fin.ext (by
    match a with
    | ⟨0, _⟩ => exact lhsA_0 _ _
    | ⟨1, _⟩ => exact (lhsA_1 _ _).trans hk)
  have er : dot_S5000x32_S32x64_S5000x64_1_0_0_1_n_n.rhsIdx (ix2 r j) ((ValueIdx.contrEquiv1 dot_S5000x32_S32x64_S5000x64_1_0_0_1_n_n 32 rfl rfl).symm k) = ix2 k j := funext fun a => Fin.ext (by
    match a with
    | ⟨0, _⟩ => exact (rhsA_0 _ _).trans hk
    | ⟨1, _⟩ => exact rhsA_1 _ _)
  rw [el, er]

theorem lhsB_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsB_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsB_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsB_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product of a [5000,64] by a [64,64] operand into the zero accumulator, at an entry. -/
theorem mmB_apply {φ₁ φ₂ : FTy} (a : FVec Ideal S5000x64 φ₁) (b : FVec Ideal S64x64 φ₂) (r : Fin 5000) (j : Fin 64) :
    matmul dot_S5000x64_S64x64_S5000x64_1_0_0_1_n_n none a b (constant S5000x64 .f32 0x00000000#32) (ix2 r j)
      = ∑ k : Fin 64, a (ix2 r k) * b (ix2 k j) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r j) ((ValueIdx.contrEquiv1 dot_S5000x64_S64x64_S5000x64_1_0_0_1_n_n 64 rfl rfl).symm k) = ix2 r k := funext fun a => Fin.ext (by
    match a with
    | ⟨0, _⟩ => exact lhsB_0 _ _
    | ⟨1, _⟩ => exact (lhsB_1 _ _).trans hk)
  have er : dot_S5000x64_S64x64_S5000x64_1_0_0_1_n_n.rhsIdx (ix2 r j) ((ValueIdx.contrEquiv1 dot_S5000x64_S64x64_S5000x64_1_0_0_1_n_n 64 rfl rfl).symm k) = ix2 k j := funext fun a => Fin.ext (by
    match a with
    | ⟨0, _⟩ => exact (rhsB_0 _ _).trans hk
    | ⟨1, _⟩ => exact rhsB_1 _ _)
  rw [el, er]

theorem zero_word : (FloatOps.ofBits (F := Ideal) .f32 0x00000000#32 : Ideal .f32) = (0 : EReal) := Ideal.ofBits_zero_f32

/-- The body's value at row r, column j of its block. -/
theorem pay_apply (x0 x1 : Vec Ideal S5000x32 .f32) (w1 : Vec Ideal S32x64 .f32) (b1 : Vec Ideal S1x64 .f32)
    (w2 : Vec Ideal S64x64 .f32) (b2 : Vec Ideal S1x64 .f32) (r : Fin 5000) (j : Fin 64) :
    k0_pay1 x0 x1 w1 b1 w2 b2 (ix2 r j)
      = rowMlp (fun i => x0 (ix2 r i)) (fun i => x1 (ix2 r i)) (fun i k => w1 (ix2 i k)) (fun k => b1 (ix2 (0 : Fin 1) k))
          (fun k j => w2 (ix2 k j)) (fun j => b2 (ix2 (0 : Fin 1) j)) j := by
  unfold k0_pay1 rowMlp
  dsimp only
  rw [shapeCast_self, shapeCast_self, shapeCast_self]
  simp only [maximumf_apply, addf_apply, broadcast_apply, mmB_apply, mmA_apply, truncf_apply, broadcastTo_1b_ab_apply, zero_word]

/-! ## The row-wise function at an entry of the whole array -/

theorem lhsH1_0 (i : Cert.ReferenceIdeal.S100000x64.Idx) (q : Cert.ReferenceIdeal.dot_S100000x32_S32x64_S100000x64_1_0_0_1_n_n.contr.Idx) :
    (Cert.ReferenceIdeal.dot_S100000x32_S32x64_S100000x64_1_0_0_1_n_n.lhsIdx i q 0).val = (i 0).val := by
  unfold DotDims.lhsIdx
  rw [dif_neg (show ¬(0 : Fin Cert.ReferenceIdeal.S100000x32.rank) ∈ Cert.ReferenceIdeal.dot_S100000x32_S32x64_S100000x64_1_0_0_1_n_n.lhsBatch by decide), dif_pos (show (0 : Fin Cert.ReferenceIdeal.S100000x32.rank) ∈ Cert.ReferenceIdeal.dot_S100000x32_S32x64_S100000x64_1_0_0_1_n_n.lhsNonContracting by decide)]
  rfl
theorem lhsH1_1 (i : Cert.ReferenceIdeal.S100000x64.Idx) (q : Cert.ReferenceIdeal.dot_S100000x32_S32x64_S100000x64_1_0_0_1_n_n.contr.Idx) :
    (Cert.ReferenceIdeal.dot_S100000x32_S32x64_S100000x64_1_0_0_1_n_n.lhsIdx i q 1).val = (q ⟨0, by decide⟩).val :=
  Cert.ReferenceIdeal.dot_S100000x32_S32x64_S100000x64_1_0_0_1_n_n.lhsIdx_val_of_single rfl i q
theorem rhsH1_0 (i : Cert.ReferenceIdeal.S100000x64.Idx) (q : Cert.ReferenceIdeal.dot_S100000x32_S32x64_S100000x64_1_0_0_1_n_n.contr.Idx) :
    (Cert.ReferenceIdeal.dot_S100000x32_S32x64_S100000x64_1_0_0_1_n_n.rhsIdx i q 0).val = (q ⟨0, by decide⟩).val :=
  Cert.ReferenceIdeal.dot_S100000x32_S32x64_S100000x64_1_0_0_1_n_n.rhsIdx_val_of_single rfl i q
theorem rhsH1_1 (i : Cert.ReferenceIdeal.S100000x64.Idx) (q : Cert.ReferenceIdeal.dot_S100000x32_S32x64_S100000x64_1_0_0_1_n_n.contr.Idx) :
    (Cert.ReferenceIdeal.dot_S100000x32_S32x64_S100000x64_1_0_0_1_n_n.rhsIdx i q 1).val = (i 1).val := by
  unfold DotDims.rhsIdx
  rw [dif_neg (show ¬(1 : Fin Cert.ReferenceIdeal.S32x64.rank) ∈ Cert.ReferenceIdeal.dot_S100000x32_S32x64_S100000x64_1_0_0_1_n_n.rhsBatch by decide), dif_pos (show (1 : Fin Cert.ReferenceIdeal.S32x64.rank) ∈ Cert.ReferenceIdeal.dot_S100000x32_S32x64_S100000x64_1_0_0_1_n_n.rhsNonContracting by decide)]
  rfl

/-- The host's product of a [100000,32] by a [32,64] operand, at an entry: the row times the column. -/
theorem hostDot32_apply {φ₁ φ₂ : FTy} (a : FVec Ideal Cert.ReferenceIdeal.S100000x32 φ₁) (b : FVec Ideal Cert.ReferenceIdeal.S32x64 φ₂) (n : Fin 100000) (j : Fin 64) :
    Host.dotGeneral Cert.ReferenceIdeal.dot_S100000x32_S32x64_S100000x64_1_0_0_1_n_n none a b (ix2 n j)
      = ∑ k : Fin 32, a (ix2 n k) * b (ix2 k j) := by
  simp only [Host.dotGeneral]
  rw [Ideal.dotGeneral_apply, ← Equiv.sum_comp (ValueIdx.contrEquiv1 Cert.ReferenceIdeal.dot_S100000x32_S32x64_S100000x64_1_0_0_1_n_n 32 rfl rfl).symm]
  refine Finset.sum_congr rfl fun k _ => ?_
  have hk := ValueIdx.contrEquiv1_symm_val Cert.ReferenceIdeal.dot_S100000x32_S32x64_S100000x64_1_0_0_1_n_n 32 rfl rfl k
  have el : Cert.ReferenceIdeal.dot_S100000x32_S32x64_S100000x64_1_0_0_1_n_n.lhsIdx (ix2 n j) ((ValueIdx.contrEquiv1 Cert.ReferenceIdeal.dot_S100000x32_S32x64_S100000x64_1_0_0_1_n_n 32 rfl rfl).symm k) = ix2 n k := funext fun a => Fin.ext (by
    match a with
    | ⟨0, _⟩ => exact lhsH1_0 _ _
    | ⟨1, _⟩ => exact (lhsH1_1 _ _).trans hk)
  have er : Cert.ReferenceIdeal.dot_S100000x32_S32x64_S100000x64_1_0_0_1_n_n.rhsIdx (ix2 n j) ((ValueIdx.contrEquiv1 Cert.ReferenceIdeal.dot_S100000x32_S32x64_S100000x64_1_0_0_1_n_n 32 rfl rfl).symm k) = ix2 k j := funext fun a => Fin.ext (by
    match a with
    | ⟨0, _⟩ => exact (rhsH1_0 _ _).trans hk
    | ⟨1, _⟩ => exact rhsH1_1 _ _)
  rw [el, er]

theorem lhsH2_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem lhsH2_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhsH2_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhsH2_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The host's product of a [100000,64] by a [64,64] operand, at an entry: the row times the column. -/
theorem hostDot64_apply {φ₁ φ₂ : FTy} (a : FVec Ideal Cert.ReferenceIdeal.S100000x64 φ₁) (b : FVec Ideal Cert.ReferenceIdeal.S64x64 φ₂) (n : Fin 100000) (j : Fin 64) :
    Host.dotGeneral Cert.ReferenceIdeal.dot_S100000x64_S64x64_S100000x64_1_0_0_1_n_n none a b (ix2 n j)
      = ∑ k : Fin 64, a (ix2 n k) * b (ix2 k j) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 n j) ((ValueIdx.contrEquiv1 Cert.ReferenceIdeal.dot_S100000x64_S64x64_S100000x64_1_0_0_1_n_n 64 rfl rfl).symm k) = ix2 n k := funext fun a => Fin.ext (by
    match a with
    | ⟨0, _⟩ => exact lhsH2_0 _ _
    | ⟨1, _⟩ => exact (lhsH2_1 _ _).trans hk)
  have er : Cert.ReferenceIdeal.dot_S100000x64_S64x64_S100000x64_1_0_0_1_n_n.rhsIdx (ix2 n j) ((ValueIdx.contrEquiv1 Cert.ReferenceIdeal.dot_S100000x64_S64x64_S100000x64_1_0_0_1_n_n 64 rfl rfl).symm k) = ix2 k j := funext fun a => Fin.ext (by
    match a with
    | ⟨0, _⟩ => exact (rhsH2_0 _ _).trans hk
    | ⟨1, _⟩ => exact rhsH2_1 _ _)
  rw [el, er]

/-- A bias row repeated down the nodes reads the row's entry of the column. -/
theorem rows64_apply (b : FVec Ideal Cert.ReferenceIdeal.S1x64 .f32) (n : Fin 100000) (j : Fin 64) :
    Cert.Spec.rows64 b (ix2 n j) = b (ix2 (0 : Fin 1) j) := by
  unfold Cert.Spec.rows64
  exact broadcastInDim_apply _ _ b (ix2 n j) (ix2 (0 : Fin 1) j) (fun a => match a with
    | ⟨0, _⟩ => by show (0 : Nat) = if (1 : Nat) = 1 then 0 else n.val; rw [if_pos rfl]
    | ⟨1, _⟩ => by show j.val = if (64 : Nat) = 1 then 0 else j.val; rw [if_neg (by decide)])

/-- The zero array is zero everywhere. -/
theorem zero64_apply (i : Cert.ReferenceIdeal.S100000x64.Idx) : Cert.Spec.zero64 i = (0 : EReal) := by
  unfold Cert.Spec.zero64
  rw [broadcastInDim_scalar_apply]
  exact Ideal.ofBits_zero_f32

/-- The layer's node update at node n, column j, from row n of the two feature arrays. -/
theorem mlp32_apply (x agg : FVec Ideal Cert.ReferenceIdeal.S100000x32 .f32) (w1 : FVec Ideal Cert.ReferenceIdeal.S32x64 .f32) (b1 : FVec Ideal Cert.ReferenceIdeal.S1x64 .f32)
    (w2 : FVec Ideal Cert.ReferenceIdeal.S64x64 .f32) (b2 : FVec Ideal Cert.ReferenceIdeal.S1x64 .f32) (n : Fin 100000) (j : Fin 64) :
    Cert.Spec.mlp32 x agg w1 b1 w2 b2 (ix2 n j)
      = rowMlp (fun i => x (ix2 n i)) (fun i => agg (ix2 n i)) (fun i k => w1 (ix2 i k)) (fun k => b1 (ix2 (0 : Fin 1) k))
          (fun k j => w2 (ix2 k j)) (fun j => b2 (ix2 (0 : Fin 1) j)) j := by
  unfold Cert.Spec.mlp32 rowMlp
  simp only [maximumf_apply, addf_apply, hostDot64_apply, hostDot32_apply, rows64_apply, zero64_apply]

/-! ## From the blocks to the array -/

/-- The body's value on blocks that hold row n of the two feature arrays (at the block's row r) and the whole of the
    weights and bias rows is the row-wise function at node n. -/
theorem pay_eq_spec (X A : FVec Ideal Cert.ReferenceIdeal.S100000x32 .f32) (W1 : FVec Ideal Cert.ReferenceIdeal.S32x64 .f32) (B1 : FVec Ideal Cert.ReferenceIdeal.S1x64 .f32)
    (W2 : FVec Ideal Cert.ReferenceIdeal.S64x64 .f32) (B2 : FVec Ideal Cert.ReferenceIdeal.S1x64 .f32)
    (x0 x1 : Vec Ideal S5000x32 .f32) (w1 : Vec Ideal S32x64 .f32) (b1 : Vec Ideal S1x64 .f32)
    (w2 : Vec Ideal S64x64 .f32) (b2 : Vec Ideal S1x64 .f32) (r : Fin 5000) (j : Fin 64) (n : Fin 100000)
    (h0 : ∀ i : Fin 32, x0 (ix2 r i) = X (ix2 n i)) (h1 : ∀ i : Fin 32, x1 (ix2 r i) = A (ix2 n i))
    (h2 : ∀ (i : Fin 32) (k : Fin 64), w1 (ix2 i k) = W1 (ix2 i k)) (h3 : ∀ k : Fin 64, b1 (ix2 (0 : Fin 1) k) = B1 (ix2 (0 : Fin 1) k))
    (h4 : ∀ k j : Fin 64, w2 (ix2 k j) = W2 (ix2 k j)) (h5 : ∀ j : Fin 64, b2 (ix2 (0 : Fin 1) j) = B2 (ix2 (0 : Fin 1) j)) :
    k0_pay1 x0 x1 w1 b1 w2 b2 (ix2 r j) = Cert.Spec.mlp32 X A W1 B1 W2 B2 (ix2 n j) := by
  rw [pay_apply, mlp32_apply]
  simp only [h0, h1, h2, h3, h4, h5]

theorem hz : (![0, 0] : Fin 2 → Nat) = fun _ => 0 := funext fun a => by fin_cases a <;> rfl

/-- The index maps, decided over the 20 points: the two row windows and the output are at row block t, the weight and
    bias windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- What point t writes back is block t of the row-wise function of the arrays the call was entered with. -/
theorem flushed_eq (c : Dev nD) (t : Fin cfg0.N) :
    (dat0 (F := Ideal) V c).flushed 6 t = ((cfg0.win 6).blk t).view.read (Elt Ideal)
      (Cert.Spec.mlp32 (V c main_arg0) (V c main_v10) (V c main_arg5) (V c main_v11) (V c main_arg7) (V c main_v12)) := by
  show (cfg0.win 6).cut (grid0.coords t) ((dat0 V c).after 6 t) = _
  rw [after0_6]
  unfold out0_6
  rw [View.canon_unit_zero hz]
  simp only [View.ld_unit_zero (S := S5000x32) hz, View.ld_unit_zero (S := S32x64) hz, View.ld_unit_zero (S := S1x64) hz, View.ld_unit_zero (S := S64x64) hz]
  obtain ⟨e00, e01, e10, e11, e20, e21, e30, e31, e40, e41, e50, e51, e60, e61⟩ := idx_facts t
  funext y
  obtain ⟨r, j, rfl⟩ : ∃ (r : Fin 5000) (j : Fin 64), y = ix2 r j := ⟨y 0, y 1, eq_ix2 y⟩
  have ht : t.val < 20 := lt_of_lt_of_eq t.isLt N_0
  have hr : r.val < 5000 := r.isLt
  have hn : 5000 * t.val + r.val < 100000 := by omega
  -- the array's index under the block's index (r, j): row 5000 t + r, column j
  have hemb : ((cfg0.win 6).blk t).view.emb (ix2 r j) = ix2 (⟨5000 * t.val + r.val, hn⟩ : Fin 100000) j := by
    funext a; apply Fin.ext
    match a with
    | ⟨0, _⟩ => show win0_6.index t (0 : Fin 2) * 5000 + 1 * r.val = 5000 * t.val + r.val; omega
    | ⟨1, _⟩ => show win0_6.index t (1 : Fin 2) * 64 + 1 * j.val = j.val; omega
  -- each input block read where the output's rectangle says
  have b0 : ∀ i : Fin 32, (iblk0 V c 0 t : Vec Ideal S5000x32 .f32) (ix2 r i) = V c main_arg0 (ix2 (⟨5000 * t.val + r.val, hn⟩ : Fin 100000) i) := fun i => by
    show V c main_arg0 (((cfg0.win 0).blk t).view.emb (ix2 r i)) = _
    refine congrArg _ (funext fun a => Fin.ext ?_)
    match a with
    | ⟨0, _⟩ => show win0_0.index t (0 : Fin 2) * 5000 + 1 * r.val = 5000 * t.val + r.val; omega
    | ⟨1, _⟩ => show win0_0.index t (1 : Fin 2) * 32 + 1 * i.val = i.val; omega
  have b1 : ∀ i : Fin 32, (iblk0 V c 1 t : Vec Ideal S5000x32 .f32) (ix2 r i) = V c main_v10 (ix2 (⟨5000 * t.val + r.val, hn⟩ : Fin 100000) i) := fun i => by
    show V c main_v10 (((cfg0.win 1).blk t).view.emb (ix2 r i)) = _
    refine congrArg _ (funext fun a => Fin.ext ?_)
    match a with
    | ⟨0, _⟩ => show win0_1.index t (0 : Fin 2) * 5000 + 1 * r.val = 5000 * t.val + r.val; omega
    | ⟨1, _⟩ => show win0_1.index t (1 : Fin 2) * 32 + 1 * i.val = i.val; omega
  have b2 : ∀ (i : Fin 32) (k : Fin 64), (iblk0 V c 2 t : Vec Ideal S32x64 .f32) (ix2 i k) = V c main_arg5 (ix2 i k) := fun i k => by
    show V c main_arg5 (((cfg0.win 2).blk t).view.emb (ix2 i k)) = _
    refine congrArg _ (funext fun a => Fin.ext ?_)
    match a with
    | ⟨0, _⟩ => show win0_2.index t (0 : Fin 2) * 32 + 1 * i.val = i.val; omega
    | ⟨1, _⟩ => show win0_2.index t (1 : Fin 2) * 64 + 1 * k.val = k.val; omega
  have b3 : ∀ k : Fin 64, (iblk0 V c 3 t : Vec Ideal S1x64 .f32) (ix2 (0 : Fin 1) k) = V c main_v11 (ix2 (0 : Fin 1) k) := fun k => by
    show V c main_v11 (((cfg0.win 3).blk t).view.emb (ix2 (0 : Fin 1) k)) = _
    refine congrArg _ (funext fun a => Fin.ext ?_)
    match a with
    | ⟨0, _⟩ => show win0_3.index t (0 : Fin 2) * 1 + 1 * 0 = 0; omega
    | ⟨1, _⟩ => show win0_3.index t (1 : Fin 2) * 64 + 1 * k.val = k.val; omega
  have b4 : ∀ k j : Fin 64, (iblk0 V c 4 t : Vec Ideal S64x64 .f32) (ix2 k j) = V c main_arg7 (ix2 k j) := fun k j => by
    show V c main_arg7 (((cfg0.win 4).blk t).view.emb (ix2 k j)) = _
    refine congrArg _ (funext fun a => Fin.ext ?_)
    match a with
    | ⟨0, _⟩ => show win0_4.index t (0 : Fin 2) * 64 + 1 * k.val = k.val; omega
    | ⟨1, _⟩ => show win0_4.index t (1 : Fin 2) * 64 + 1 * j.val = j.val; omega
  have b5 : ∀ j : Fin 64, (iblk0 V c 5 t : Vec Ideal S1x64 .f32) (ix2 (0 : Fin 1) j) = V c main_v12 (ix2 (0 : Fin 1) j) := fun j => by
    show V c main_v12 (((cfg0.win 5).blk t).view.emb (ix2 (0 : Fin 1) j)) = _
    refine congrArg _ (funext fun a => Fin.ext ?_)
    match a with
    | ⟨0, _⟩ => show win0_5.index t (0 : Fin 2) * 1 + 1 * 0 = 0; omega
    | ⟨1, _⟩ => show win0_5.index t (1 : Fin 2) * 64 + 1 * j.val = j.val; omega
  refine (pay_eq_spec (V c main_arg0) (V c main_v10) (V c main_arg5) (V c main_v11) (V c main_arg7) (V c main_v12)
    (iblk0 V c 0 t) (iblk0 V c 1 t) (iblk0 V c 2 t) (iblk0 V c 3 t) (iblk0 V c 4 t) (iblk0 V c 5 t) r j ⟨5000 * t.val + r.val, hn⟩
    b0 b1 b2 b3 b4 b5).trans ?_
  rw [View.read_apply]
  exact (congrArg _ hemb).symm

/-- An index of the array is in point t's block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v13).slice (win0_6.rect t)).set ↔ _
  rw [View.set_slice_whole, Rect.mem_set_unit]
  exact Iff.rfl

/-- Every row of the array is in some point's block: row n in the block of point n / 5000. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, htv⟩ : ∃ t : Fin cfg0.N, t.val = (i 0).val / 5000 :=
    ⟨⟨(i 0).val / 5000, lt_of_lt_of_eq (show (i 0).val / 5000 < 20 by omega) N_0.symm⟩, rfl⟩
  obtain ⟨-, -, -, -, -, -, -, -, -, -, -, -, e60, e61⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

end Layer1

/-- After pallas_call 0 the node-feature array holds the GIN layer's update of the arrays the call was entered with:
    its 20 row blocks are the blocks of one row-wise function. -/
theorem layer1 (V : (c : Dev nD) → (b : Ref sig .tc) → Buf (Elt Ideal) ((c : Thread nD τ).loc b)) (c : Dev nD) :
    (dat0 (F := Ideal) V c).arrAt 6 cfg0.N
      = Cert.Spec.mlp32 (V c main_arg0) (V c main_v10) (V c main_arg5) (V c main_v11) (V c main_arg7) (V c main_v12) :=
  (dat0 (F := Ideal) V c).arrAt_eq_of_cover 6
    (Cert.Spec.mlp32 (V c main_arg0) (V c main_v10) (V c main_arg5) (V c main_v11) (V c main_arg7) (V c main_v12))
    (fun t _ => Layer1.flushed_eq V c t) Layer1.cover

end Cert.KernelValue

end
-- ==== Proof.Layer2Rows.lean ====
/- The second GIN layer's pallas_call (64 input features), as a whole-array value. -/
import proofs.«406926_j64544768525161_1_alg».proof.Proof.Gen.KernelIdeal.Frame
import proofs.«406926_j64544768525161_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.KernelValue

open Idealize.ShloMosaic Idealize.ShloMosaic.TcCoe Idealize.ShloMosaic.ValueIdx Idealize.SL.Sem Cert.KernelIdeal Cert.KernelIdeal.Gen
open Idealize.ShloMosaic.Pipeline (Dat Cfg Window)
open scoped BigOperators

namespace Layer2

/-- One row's update from 64 features: relu(relu((x + a) · w1 + b1) · w2 + b2) at column j, from the row's entries. -/
def rowMlp (xr ar : Fin 64 → EReal) (w1 : Fin 64 → Fin 64 → EReal) (b1 : Fin 64 → EReal)
    (w2 : Fin 64 → Fin 64 → EReal) (b2 : Fin 64 → EReal) (j : Fin 64) : EReal :=
  max ((∑ k : Fin 64, max ((∑ i : Fin 64, (xr i + ar i) * w1 i k) + b1 k) 0 * w2 k j) + b2 j) 0

/-! ## The body's value at an entry of its block -/

/-- The operand indices of the body's two block products (both [5000,64] by [64,64]), coordinate by coordinate. -/
theorem lhsK_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsK_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsK_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsK_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product of a [5000,64] by a [64,64] operand into the zero accumulator, at an entry: the row times the column. -/
theorem mm_apply {φ₁ φ₂ : FTy} (a : FVec Ideal S5000x64 φ₁) (b : FVec Ideal S64x64 φ₂) (r : Fin 5000) (j : Fin 64) :
    matmul dot_S5000x64_S64x64_S5000x64_1_0_0_1_n_n none a b (constant S5000x64 .f32 0x00000000#32) (ix2 r j)
      = ∑ k : Fin 64, a (ix2 r k) * b (ix2 k j) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r j) ((ValueIdx.contrEquiv1 dot_S5000x64_S64x64_S5000x64_1_0_0_1_n_n 64 rfl rfl).symm k) = ix2 r k := funext fun a => Fin.ext (by
    match a with
    | ⟨0, _⟩ => exact lhsK_0 _ _
    | ⟨1, _⟩ => exact (lhsK_1 _ _).trans hk)
  have er : dot_S5000x64_S64x64_S5000x64_1_0_0_1_n_n.rhsIdx (ix2 r j) ((ValueIdx.contrEquiv1 dot_S5000x64_S64x64_S5000x64_1_0_0_1_n_n 64 rfl rfl).symm k) = ix2 k j := funext fun a => Fin.ext (by
    match a with
    | ⟨0, _⟩ => exact (rhsK_0 _ _).trans hk
    | ⟨1, _⟩ => exact rhsK_1 _ _)
  rw [el, er]

theorem zero_word : (FloatOps.ofBits (F := Ideal) .f32 0x00000000#32 : Ideal .f32) = (0 : EReal) := Ideal.ofBits_zero_f32

/-- The body's value at row r, column j of its block. -/
theorem pay_apply (x0 x1 : Vec Ideal S5000x64 .f32) (w1 : Vec Ideal S64x64 .f32) (b1 : Vec Ideal S1x64 .f32)
    (w2 : Vec Ideal S64x64 .f32) (b2 : Vec Ideal S1x64 .f32) (r : Fin 5000) (j : Fin 64) :
    k2_pay1 x0 x1 w1 b1 w2 b2 (ix2 r j)
      = rowMlp (fun i => x0 (ix2 r i)) (fun i => x1 (ix2 r i)) (fun i k => w1 (ix2 i k)) (fun k => b1 (ix2 (0 : Fin 1) k))
          (fun k j => w2 (ix2 k j)) (fun j => b2 (ix2 (0 : Fin 1) j)) j := by
  unfold k2_pay1 rowMlp
  dsimp only
  rw [shapeCast_self, shapeCast_self, shapeCast_self, shapeCast_self]
  simp only [maximumf_apply, addf_apply, broadcast_apply, mm_apply, truncf_apply, broadcastTo_1b_ab_apply, zero_word]

/-! ## The row-wise function at an entry of the whole array -/

/-- The operand indices of the host's two products (both [100000,64] by [64,64]), coordinate by coordinate. -/
theorem lhsH_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem lhsH_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhsH_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhsH_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The host's product of a [100000,64] by a [64,64] operand, at an entry: the row times the column. -/
theorem hostDot_apply {φ₁ φ₂ : FTy} (a : FVec Ideal Cert.ReferenceIdeal.S100000x64 φ₁) (b : FVec Ideal Cert.ReferenceIdeal.S64x64 φ₂) (n : Fin 100000) (j : Fin 64) :
    Host.dotGeneral Cert.ReferenceIdeal.dot_S100000x64_S64x64_S100000x64_1_0_0_1_n_n none a b (ix2 n j)
      = ∑ k : Fin 64, a (ix2 n k) * b (ix2 k j) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 n j) ((ValueIdx.contrEquiv1 Cert.ReferenceIdeal.dot_S100000x64_S64x64_S100000x64_1_0_0_1_n_n 64 rfl rfl).symm k) = ix2 n k := funext fun a => Fin.ext (by
    match a with
    | ⟨0, _⟩ => exact lhsH_0 _ _
    | ⟨1, _⟩ => exact (lhsH_1 _ _).trans hk)
  have er : Cert.ReferenceIdeal.dot_S100000x64_S64x64_S100000x64_1_0_0_1_n_n.rhsIdx (ix2 n j) ((ValueIdx.contrEquiv1 Cert.ReferenceIdeal.dot_S100000x64_S64x64_S100000x64_1_0_0_1_n_n 64 rfl rfl).symm k) = ix2 k j := funext fun a => Fin.ext (by
    match a with
    | ⟨0, _⟩ => exact (rhsH_0 _ _).trans hk
    | ⟨1, _⟩ => exact rhsH_1 _ _)
  rw [el, er]

/-- A bias row repeated down the nodes reads the row's entry of the column. -/
theorem rows64_apply (b : FVec Ideal Cert.ReferenceIdeal.S1x64 .f32) (n : Fin 100000) (j : Fin 64) :
    Cert.Spec.rows64 b (ix2 n j) = b (ix2 (0 : Fin 1) j) := by
  unfold Cert.Spec.rows64
  exact broadcastInDim_apply _ _ b (ix2 n j) (ix2 (0 : Fin 1) j) (fun a => match a with
    | ⟨0, _⟩ => by show (0 : Nat) = if (1 : Nat) = 1 then 0 else n.val; rw [if_pos rfl]
    | ⟨1, _⟩ => by show j.val = if (64 : Nat) = 1 then 0 else j.val; rw [if_neg (by decide)])

/-- The zero array is zero everywhere. -/
theorem zero64_apply (i : Cert.ReferenceIdeal.S100000x64.Idx) : Cert.Spec.zero64 i = (0 : EReal) := by
  unfold Cert.Spec.zero64
  rw [broadcastInDim_scalar_apply]
  exact Ideal.ofBits_zero_f32

/-- The layer's node update at node n, column j, from row n of the two feature arrays. -/
theorem mlp64_apply (x agg : FVec Ideal Cert.ReferenceIdeal.S100000x64 .f32) (w1 : FVec Ideal Cert.ReferenceIdeal.S64x64 .f32) (b1 : FVec Ideal Cert.ReferenceIdeal.S1x64 .f32)
    (w2 : FVec Ideal Cert.ReferenceIdeal.S64x64 .f32) (b2 : FVec Ideal Cert.ReferenceIdeal.S1x64 .f32) (n : Fin 100000) (j : Fin 64) :
    Cert.Spec.mlp64 x agg w1 b1 w2 b2 (ix2 n j)
      = rowMlp (fun i => x (ix2 n i)) (fun i => agg (ix2 n i)) (fun i k => w1 (ix2 i k)) (fun k => b1 (ix2 (0 : Fin 1) k))
          (fun k j => w2 (ix2 k j)) (fun j => b2 (ix2 (0 : Fin 1) j)) j := by
  unfold Cert.Spec.mlp64 rowMlp
  simp only [maximumf_apply, addf_apply, hostDot_apply, rows64_apply, zero64_apply]

/-! ## From the blocks to the array -/

/-- The body's value on blocks that hold row n of the two feature arrays (at the block's row r) and the whole of the
    weights and bias rows is the row-wise function at node n. -/
theorem pay_eq_spec (X A : FVec Ideal Cert.ReferenceIdeal.S100000x64 .f32) (W1 : FVec Ideal Cert.ReferenceIdeal.S64x64 .f32) (B1 : FVec Ideal Cert.ReferenceIdeal.S1x64 .f32)
    (W2 : FVec Ideal Cert.ReferenceIdeal.S64x64 .f32) (B2 : FVec Ideal Cert.ReferenceIdeal.S1x64 .f32)
    (x0 x1 : Vec Ideal S5000x64 .f32) (w1 : Vec Ideal S64x64 .f32) (b1 : Vec Ideal S1x64 .f32)
    (w2 : Vec Ideal S64x64 .f32) (b2 : Vec Ideal S1x64 .f32) (r : Fin 5000) (j : Fin 64) (n : Fin 100000)
    (h0 : ∀ i : Fin 64, x0 (ix2 r i) = X (ix2 n i)) (h1 : ∀ i : Fin 64, x1 (ix2 r i) = A (ix2 n i))
    (h2 : ∀ i k : Fin 64, w1 (ix2 i k) = W1 (ix2 i k)) (h3 : ∀ k : Fin 64, b1 (ix2 (0 : Fin 1) k) = B1 (ix2 (0 : Fin 1) k))
    (h4 : ∀ k j : Fin 64, w2 (ix2 k j) = W2 (ix2 k j)) (h5 : ∀ j : Fin 64, b2 (ix2 (0 : Fin 1) j) = B2 (ix2 (0 : Fin 1) j)) :
    k2_pay1 x0 x1 w1 b1 w2 b2 (ix2 r j) = Cert.Spec.mlp64 X A W1 B1 W2 B2 (ix2 n j) := by
  rw [pay_apply, mlp64_apply]
  simp only [h0, h1, h2, h3, h4, h5]

theorem hz : (![0, 0] : Fin 2 → Nat) = fun _ => 0 := funext fun a => by fin_cases a <;> rfl

/-- The index maps, decided over the 20 points: the two row windows and the output are at row block t, the weight and
    bias windows at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- What point t writes back is block t of the row-wise function of the arrays the call was entered with. -/
theorem flushed_eq (c : Dev nD) (t : Fin cfg2.N) :
    (dat2 (F := Ideal) V c).flushed 6 t = ((cfg2.win 6).blk t).view.read (Elt Ideal)
      (Cert.Spec.mlp64 (V c main_v13) (V c main_v29) (V c main_arg9) (V c main_v30) (V c main_arg11) (V c main_v31)) := by
  show (cfg2.win 6).cut (grid2.coords t) ((dat2 V c).after 6 t) = _
  rw [after2_6]
  unfold out2_6
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51, e60, e61⟩ := idx_facts t
  funext y
  obtain ⟨r, j, rfl⟩ : ∃ (r : Fin 5000) (j : Fin 64), y = ix2 r j := ⟨y 0, y 1, eq_ix2 y⟩
  have ht : t.val < 20 := lt_of_lt_of_eq t.isLt N_2
  have hr : r.val < 5000 := r.isLt
  have hn : 5000 * t.val + r.val < 100000 := by omega
  -- the array's index under the block's index (r, j): row 5000 t + r, column j
  have hemb : ((cfg2.win 6).blk t).view.emb (ix2 r j) = ix2 (⟨5000 * t.val + r.val, hn⟩ : Fin 100000) j := by
    funext a; apply Fin.ext
    match a with
    | ⟨0, _⟩ => show win2_6.index t (0 : Fin 2) * 5000 + 1 * r.val = 5000 * t.val + r.val; omega
    | ⟨1, _⟩ => show win2_6.index t (1 : Fin 2) * 64 + 1 * j.val = j.val; omega
  -- each input block read where the output's rectangle says
  have b0 : ∀ i : Fin 64, (iblk2 V c 0 t : Vec Ideal S5000x64 .f32) (ix2 r i) = V c main_v13 (ix2 (⟨5000 * t.val + r.val, hn⟩ : Fin 100000) i) := fun i => by
    show V c main_v13 (((cfg2.win 0).blk t).view.emb (ix2 r i)) = _
    refine congrArg _ (funext fun a => Fin.ext ?_)
    match a with
    | ⟨0, _⟩ => show win2_0.index t (0 : Fin 2) * 5000 + 1 * r.val = 5000 * t.val + r.val; omega
    | ⟨1, _⟩ => show win2_0.index t (1 : Fin 2) * 64 + 1 * i.val = i.val; omega
  have b1 : ∀ i : Fin 64, (iblk2 V c 1 t : Vec Ideal S5000x64 .f32) (ix2 r i) = V c main_v29 (ix2 (⟨5000 * t.val + r.val, hn⟩ : Fin 100000) i) := fun i => by
    show V c main_v29 (((cfg2.win 1).blk t).view.emb (ix2 r i)) = _
    refine congrArg _ (funext fun a => Fin.ext ?_)
    match a with
    | ⟨0, _⟩ => show win2_1.index t (0 : Fin 2) * 5000 + 1 * r.val = 5000 * t.val + r.val; omega
    | ⟨1, _⟩ => show win2_1.index t (1 : Fin 2) * 64 + 1 * i.val = i.val; omega
  have b2 : ∀ i k : Fin 64, (iblk2 V c 2 t : Vec Ideal S64x64 .f32) (ix2 i k) = V c main_arg9 (ix2 i k) := fun i k => by
    show V c main_arg9 (((cfg2.win 2).blk t).view.emb (ix2 i k)) = _
    refine congrArg _ (funext fun a => Fin.ext ?_)
    match a with
    | ⟨0, _⟩ => show win2_2.index t (0 : Fin 2) * 64 + 1 * i.val = i.val; omega
    | ⟨1, _⟩ => show win2_2.index t (1 : Fin 2) * 64 + 1 * k.val = k.val; omega
  have b3 : ∀ k : Fin 64, (iblk2 V c 3 t : Vec Ideal S1x64 .f32) (ix2 (0 : Fin 1) k) = V c main_v30 (ix2 (0 : Fin 1) k) := fun k => by
    show V c main_v30 (((cfg2.win 3).blk t).view.emb (ix2 (0 : Fin 1) k)) = _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * k.val = k.val; omega
  have b4 : ∀ k j : Fin 64, (iblk2 V c 4 t : Vec Ideal S64x64 .f32) (ix2 k j) = V c main_arg11 (ix2 k j) := fun k j => by
    show V c main_arg11 (((cfg2.win 4).blk t).view.emb (ix2 k j)) = _
    refine congrArg _ (funext fun a => Fin.ext ?_)
    match a with
    | ⟨0, _⟩ => show win2_4.index t (0 : Fin 2) * 64 + 1 * k.val = k.val; omega
    | ⟨1, _⟩ => show win2_4.index t (1 : Fin 2) * 64 + 1 * j.val = j.val; omega
  have b5 : ∀ j : Fin 64, (iblk2 V c 5 t : Vec Ideal S1x64 .f32) (ix2 (0 : Fin 1) j) = V c main_v31 (ix2 (0 : Fin 1) j) := fun j => by
    show V c main_v31 (((cfg2.win 5).blk t).view.emb (ix2 (0 : Fin 1) j)) = _
    refine congrArg _ (funext fun a => Fin.ext ?_)
    match a with
    | ⟨0, _⟩ => show win2_5.index t (0 : Fin 2) * 1 + 1 * 0 = 0; omega
    | ⟨1, _⟩ => show win2_5.index t (1 : Fin 2) * 64 + 1 * j.val = j.val; omega
  refine (pay_eq_spec (V c main_v13) (V c main_v29) (V c main_arg9) (V c main_v30) (V c main_arg11) (V c main_v31)
    (iblk2 V c 0 t) (iblk2 V c 1 t) (iblk2 V c 2 t) (iblk2 V c 3 t) (iblk2 V c 4 t) (iblk2 V c 5 t) r j ⟨5000 * t.val + r.val, hn⟩
    b0 b1 b2 b3 b4 b5).trans ?_
  rw [View.read_apply]
  exact (congrArg _ hemb).symm

/-- An index of the array is in point t's block iff each coordinate is in the block's range on its axis. -/
theorem mem_blk (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v32).slice (win2_6.rect t)).set ↔ _
  rw [View.set_slice_whole, Rect.mem_set_unit]
  exact Iff.rfl

/-- Every row of the array is in some point's block: row n in the block of point n / 5000. -/
theorem cover (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, htv⟩ : ∃ t : Fin cfg2.N, t.val = (i 0).val / 5000 :=
    ⟨⟨(i 0).val / 5000, lt_of_lt_of_eq (show (i 0).val / 5000 < 20 by omega) N_2.symm⟩, rfl⟩
  obtain ⟨-, -, -, -, -, -, -, -, -, -, -, -, e60, e61⟩ := idx_facts t
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

end Layer2

/-- After pallas_call 2 the node-feature array holds the GIN layer's update of the arrays the call was entered with:
    its 20 row blocks are the blocks of one row-wise function. -/
theorem layer2 (V : (c : Dev nD) → (b : Ref sig .tc) → Buf (Elt Ideal) ((c : Thread nD τ).loc b)) (c : Dev nD) :
    (dat2 (F := Ideal) V c).arrAt 6 cfg2.N
      = Cert.Spec.mlp64 (V c main_v13) (V c main_v29) (V c main_arg9) (V c main_v30) (V c main_arg11) (V c main_v31) :=
  (dat2 (F := Ideal) V c).arrAt_eq_of_cover 6
    (Cert.Spec.mlp64 (V c main_v13) (V c main_v29) (V c main_arg9) (V c main_v30) (V c main_arg11) (V c main_v31))
    (fun t _ => Layer2.flushed_eq V c t) Layer2.cover

end Cert.KernelValue

end
-- ==== Proof.NodeSums.lean ====
/- The readout's sums, index by index: over all nodes, a node's row counted where its graph id is g. -/
import proofs.«406926_j64544768525161_1_alg».proof.Proof.Spec
import Idealize.ShloMosaic.Lib.ValueIdx

noncomputable section

namespace Cert.Readout

open Idealize.ShloMosaic Idealize.ShloMosaic.ValueIdx Cert.ReferenceIdeal
open scoped BigOperators

/-- 1 where the 32-bit word is the graph number g, else 0. -/
def isGraph (w : BitVec 32) (g : Fin 1024) : EReal := if w = BitVec.ofNat 32 g.val then 1 else 0

/-- The sum of feature f over the nodes of graph g. -/
def nodeSum (h : FVec Ideal S100000x64 .f32) (g2 : IVec S100000x1 32) (f : Fin 64) (g : Fin 1024) : EReal :=
  ∑ n : Fin 100000, h (ix2 n f) * isGraph (g2 (ix2 n 0)) g

/-- The number of nodes of graph g. -/
def nodeCnt (g2 : IVec S100000x1 32) (g : Fin 1024) : EReal :=
  ∑ n : Fin 100000, isGraph (g2 (ix2 n 0)) g

end Cert.Readout

end
-- ==== Proof.Readout1.lean ====
/- The first readout's pallas_call: per-graph sums and counts accumulated over the node tiles. -/
import proofs.«406926_j64544768525161_1_alg».proof.Proof.Gen.KernelIdeal.Frame
import proofs.«406926_j64544768525161_1_alg».proof.Proof.NodeSums
import Idealize.ShloMosaic.Lib.ValueIdx
import Idealize.ShloMosaic.Lib.Pipeline.Value
import Idealize.ShloMosaic.PureOps.Ideal.Laws
import Idealize.ShloMosaic.Lib.Affine

set_option maxRecDepth 16384

noncomputable section

namespace Cert.KernelValue

open Idealize.ShloMosaic Idealize.ShloMosaic.TcCoe Idealize.ShloMosaic.ValueIdx Idealize.SL.Sem Cert.KernelIdeal Cert.KernelIdeal.Gen
open Idealize.ShloMosaic.Pipeline (Dat Cfg Window)
open scoped BigOperators
open Cert.Readout

/-! ## Pallas_call 1, piece by piece: the payloads at an entry, what each control case leaves, the tiles read,
    the running sums by induction on the point, and the last point's write-back. -/

namespace R1

/-- The one-hot word: 1 where the two 32-bit words agree, else 0, read as a signed integer. -/
theorem onehot_word (a b : BitVec 32) :
    (((BitVec.setWidth 32 (IntOp.cmpi .eq a b)).toInt : ℝ) : EReal) = if a = b then 1 else 0 := by
  by_cases h : a = b
  · rw [if_pos h, IntOp.cmpi_eq.mpr h]
    have : (BitVec.setWidth 32 (1#1)).toInt = 1 := by decide
    rw [this]; norm_num
  · rw [if_neg h, eq_zero_of_ne_one (fun e => h (IntOp.cmpi_eq.mp e))]
    have : (BitVec.setWidth 32 (0#1)).toInt = 0 := by decide
    rw [this]; norm_num

/-- The bf16 pattern of 1.0 is the extended real 1. -/
theorem one_bf16 : Ideal.ofBits .bf16 0x3F80#16 = 1 := IdealRules.sign_bit.ideal_onePat .bf16

/-- The one-hot tile at (r, g): 1 where row r's graph id is g. -/
theorem pay3_apply (v3 : Vec Ideal S5000x1 .i32) (r : Fin 5000) (g : Fin 1024) :
    k1_pay3 (F := Ideal) v3 (ix2 r g) = isGraph (v3 (ix2 r 0)) g := by
  unfold k1_pay3
  have e1 : broadcastTo S5000x1024 (shapeCast S5000x1 v3 shapeCasts_S5000x1_S5000x1) broadcasts_S5000x1_S5000x1024 (ix2 r g) = v3 (ix2 r 0) := by
    refine (broadcastTo_apply _ broadcasts_S5000x1_S5000x1024 (ix2 r g) (ix2 r 0) (fun a => match a with
      | ⟨0, _⟩ => by show r.val = if (5000 : Nat) = 1 then 0 else r.val; rw [if_neg (by decide)]
      | ⟨1, _⟩ => by show (0 : Nat) = if (1 : Nat) = 1 then 0 else g.val; rw [if_pos rfl])).trans ?_
    exact congrFun (shapeCast_self v3 _) _
  have e2 : broadcastTo S5000x1024 (iota .tc S1x1024 32 [1] iota_S1x1024_d1_w32) broadcasts_S1x1024_S5000x1024 (ix2 r g) = BitVec.ofNat 32 g.val := by
    refine (broadcastTo_apply _ broadcasts_S1x1024_S5000x1024 (ix2 r g) (ix2 (0 : Fin 1) g) (fun a => match a with
      | ⟨0, _⟩ => by show (0 : Nat) = if (1 : Nat) = 1 then 0 else r.val; rw [if_pos rfl]
      | ⟨1, _⟩ => by show g.val = if (1024 : Nat) = 1 then 0 else g.val; rw [if_neg (by decide)])).trans ?_
    exact iota_single_apply .tc S1x1024 32 1 iota_S1x1024_d1_w32 (ix2 (0 : Fin 1) g)
  show (((BitVec.setWidth 32 (IntOp.cmpi .eq _ _)).toInt : ℝ) : EReal) = _
  refine (congrArg₂ (fun a b => (((BitVec.setWidth 32 (IntOp.cmpi .eq a b)).toInt : ℝ) : EReal)) e1 e2).trans ?_
  exact onehot_word _ _

theorem lhsS_0 (i : S64x1024.Idx) (q : dot_S64x5000_S5000x1024_S64x1024_1_0_0_1_n_n.contr.Idx) :
    (dot_S64x5000_S5000x1024_S64x1024_1_0_0_1_n_n.lhsIdx i q 0).val = (i 0).val := by
  unfold DotDims.lhsIdx
  rw [dif_neg (show ¬(0 : Fin S64x5000.rank) ∈ dot_S64x5000_S5000x1024_S64x1024_1_0_0_1_n_n.lhsBatch by decide), dif_pos (show (0 : Fin S64x5000.rank) ∈ dot_S64x5000_S5000x1024_S64x1024_1_0_0_1_n_n.lhsNonContracting by decide)]
  rfl
theorem lhsS_1 (i : S64x1024.Idx) (q : dot_S64x5000_S5000x1024_S64x1024_1_0_0_1_n_n.contr.Idx) :
    (dot_S64x5000_S5000x1024_S64x1024_1_0_0_1_n_n.lhsIdx i q 1).val = (q ⟨0, by decide⟩).val :=
  dot_S64x5000_S5000x1024_S64x1024_1_0_0_1_n_n.lhsIdx_val_of_single rfl i q
theorem rhsS_0 (i : S64x1024.Idx) (q : dot_S64x5000_S5000x1024_S64x1024_1_0_0_1_n_n.contr.Idx) :
    (dot_S64x5000_S5000x1024_S64x1024_1_0_0_1_n_n.rhsIdx i q 0).val = (q ⟨0, by decide⟩).val :=
  dot_S64x5000_S5000x1024_S64x1024_1_0_0_1_n_n.rhsIdx_val_of_single rfl i q
theorem rhsS_1 (i : S64x1024.Idx) (q : dot_S64x5000_S5000x1024_S64x1024_1_0_0_1_n_n.contr.Idx) :
    (dot_S64x5000_S5000x1024_S64x1024_1_0_0_1_n_n.rhsIdx i q 1).val = (i 1).val := by
  unfold DotDims.rhsIdx
  rw [dif_neg (show ¬(1 : Fin S5000x1024.rank) ∈ dot_S64x5000_S5000x1024_S64x1024_1_0_0_1_n_n.rhsBatch by decide), dif_pos (show (1 : Fin S5000x1024.rank) ∈ dot_S64x5000_S5000x1024_S64x1024_1_0_0_1_n_n.rhsNonContracting by decide)]
  rfl

/-- The [64,5000] by [5000,1024] block product into the zero accumulator, at an entry. -/
theorem mmS_apply {φ₁ φ₂ : FTy} (a : FVec Ideal S64x5000 φ₁) (b : FVec Ideal S5000x1024 φ₂) (f : Fin 64) (g : Fin 1024) :
    matmul dot_S64x5000_S5000x1024_S64x1024_1_0_0_1_n_n none a b (constant S64x1024 .f32 0x00000000#32) (ix2 f g)
      = ∑ k : Fin 5000, a (ix2 f k) * b (ix2 k g) := by
  simp only [matmul]
  rw [Ideal.matmul_constant_zero_apply, ← Equiv.sum_comp (ValueIdx.contrEquiv1 dot_S64x5000_S5000x1024_S64x1024_1_0_0_1_n_n 5000 rfl rfl).symm]
  refine Finset.sum_congr rfl fun k _ => ?_
  have hk := ValueIdx.contrEquiv1_symm_val dot_S64x5000_S5000x1024_S64x1024_1_0_0_1_n_n 5000 rfl rfl k
  have el : dot_S64x5000_S5000x1024_S64x1024_1_0_0_1_n_n.lhsIdx (ix2 f g) ((ValueIdx.contrEquiv1 dot_S64x5000_S5000x1024_S64x1024_1_0_0_1_n_n 5000 rfl rfl).symm k) = ix2 f k := funext fun a => Fin.ext (by
    match a with
    | ⟨0, _⟩ => exact lhsS_0 _ _
    | ⟨1, _⟩ => exact (lhsS_1 _ _).trans hk)
  have er : dot_S64x5000_S5000x1024_S64x1024_1_0_0_1_n_n.rhsIdx (ix2 f g) ((ValueIdx.contrEquiv1 dot_S64x5000_S5000x1024_S64x1024_1_0_0_1_n_n 5000 rfl rfl).symm k) = ix2 k g := funext fun a => Fin.ext (by
    match a with
    | ⟨0, _⟩ => exact (rhsS_0 _ _).trans hk
    | ⟨1, _⟩ => exact rhsS_1 _ _)
  rw [el, er]

theorem lhsC_0 (i : S1x1024.Idx) (q : dot_S1x5000_S5000x1024_S1x1024_1_0_0_1_n_n.contr.Idx) :
    (dot_S1x5000_S5000x1024_S1x1024_1_0_0_1_n_n.lhsIdx i q 0).val = (i 0).val := by
  unfold DotDims.lhsIdx
  rw [dif_neg (show ¬(0 : Fin S1x5000.rank) ∈ dot_S1x5000_S5000x1024_S1x1024_1_0_0_1_n_n.lhsBatch by decide), dif_pos (show (0 : Fin S1x5000.rank) ∈ dot_S1x5000_S5000x1024_S1x1024_1_0_0_1_n_n.lhsNonContracting by decide)]
  rfl
theorem lhsC_1 (i : S1x1024.Idx) (q : dot_S1x5000_S5000x1024_S1x1024_1_0_0_1_n_n.contr.Idx) :
    (dot_S1x5000_S5000x1024_S1x1024_1_0_0_1_n_n.lhsIdx i q 1).val = (q ⟨0, by decide⟩).val :=
  dot_S1x5000_S5000x1024_S1x1024_1_0_0_1_n_n.lhsIdx_val_of_single rfl i q
theorem rhsC_0 (i : S1x1024.Idx) (q : dot_S1x5000_S5000x1024_S1x1024_1_0_0_1_n_n.contr.Idx) :
    (dot_S1x5000_S5000x1024_S1x1024_1_0_0_1_n_n.rhsIdx i q 0).val = (q ⟨0, by decide⟩).val :=
  dot_S1x5000_S5000x1024_S1x1024_1_0_0_1_n_n.rhsIdx_val_of_single rfl i q
theorem rhsC_1 (i : S1x1024.Idx) (q : dot_S1x5000_S5000x1024_S1x1024_1_0_0_1_n_n.contr.Idx) :
    (dot_S1x5000_S5000x1024_S1x1024_1_0_0_1_n_n.rhsIdx i q 1).val = (i 1).val := by
  unfold DotDims.rhsIdx
  rw [dif_neg (show ¬(1 : Fin S5000x1024.rank) ∈ dot_S1x5000_S5000x1024_S1x1024_1_0_0_1_n_n.rhsBatch by decide), dif_pos (show (1 : Fin S5000x1024.rank) ∈ dot_S1x5000_S5000x1024_S1x1024_1_0_0_1_n_n.rhsNonContracting by decide)]
  rfl

/-- The [1,5000] by [5000,1024] block product into the zero accumulator, at an entry. -/
theorem mmC_apply {φ₁ φ₂ : FTy} (a : FVec Ideal S1x5000 φ₁) (b : FVec Ideal S5000x1024 φ₂) (g : Fin 1024) :
    matmul dot_S1x5000_S5000x1024_S1x1024_1_0_0_1_n_n none a b (constant S1x1024 .f32 0x00000000#32) (ix2 (0 : Fin 1) g)
      = ∑ k : Fin 5000, a (ix2 (0 : Fin 1) k) * b (ix2 k g) := by
  simp only [matmul]
  rw [Ideal.matmul_constant_zero_apply, ← Equiv.sum_comp (ValueIdx.contrEquiv1 dot_S1x5000_S5000x1024_S1x1024_1_0_0_1_n_n 5000 rfl rfl).symm]
  refine Finset.sum_congr rfl fun k _ => ?_
  have hk := ValueIdx.contrEquiv1_symm_val dot_S1x5000_S5000x1024_S1x1024_1_0_0_1_n_n 5000 rfl rfl k
  have el : dot_S1x5000_S5000x1024_S1x1024_1_0_0_1_n_n.lhsIdx (ix2 (0 : Fin 1) g) ((ValueIdx.contrEquiv1 dot_S1x5000_S5000x1024_S1x1024_1_0_0_1_n_n 5000 rfl rfl).symm k) = ix2 (0 : Fin 1) k := funext fun a => Fin.ext (by
    match a with
    | ⟨0, _⟩ => exact lhsC_0 _ _
    | ⟨1, _⟩ => exact (lhsC_1 _ _).trans hk)
  have er : dot_S1x5000_S5000x1024_S1x1024_1_0_0_1_n_n.rhsIdx (ix2 (0 : Fin 1) g) ((ValueIdx.contrEquiv1 dot_S1x5000_S5000x1024_S1x1024_1_0_0_1_n_n 5000 rfl rfl).symm k) = ix2 k g := funext fun a => Fin.ext (by
    match a with
    | ⟨0, _⟩ => exact (rhsC_0 _ _).trans hk
    | ⟨1, _⟩ => exact rhsC_1 _ _)
  rw [el, er]

/-- The sums update at (f, g): the accumulator plus the tile's partial sum of feature f over the rows of graph g. -/
theorem pay4_apply (v3 : Vec Ideal S5000x1 .i32) (v12 : Vec Ideal S5000x64 .f32) (v20 : Vec Ideal S64x1024 .f32) (f : Fin 64) (g : Fin 1024) :
    k1_pay4 (F := Ideal) v3 v12 v20 (ix2 f g) = v20 (ix2 f g) + ∑ r : Fin 5000, v12 (ix2 r f) * isGraph (v3 (ix2 r 0)) g := by
  unfold k1_pay4
  refine congrArg₂ (· + ·) (congrFun (shapeCast_self v20 _) _) ?_
  refine (mmS_apply _ _ f g).trans ?_
  refine Finset.sum_congr rfl fun r _ => ?_
  refine congrArg₂ (· * ·) ?_ (pay3_apply v3 r g)
  refine (transpose_apply [1, 0] _ transposes_S5000x64_p1_0_S64x5000 (ix2 f r) (ix2 r f) (fun b => match b with
    | ⟨0, _⟩ => rfl
    | ⟨1, _⟩ => rfl)).trans ?_
  exact congrFun (shapeCast_self v12 _) _

/-- The counts update at (0, g): the accumulator plus the number of the tile's rows of graph g. -/
theorem pay5_apply (v3 : Vec Ideal S5000x1 .i32) (v24 : Vec Ideal S1x1024 .f32) (g : Fin 1024) :
    k1_pay5 (F := Ideal) v3 v24 (ix2 (0 : Fin 1) g) = v24 (ix2 (0 : Fin 1) g) + ∑ r : Fin 5000, isGraph (v3 (ix2 r 0)) g := by
  unfold k1_pay5
  refine congrArg₂ (· + ·) (congrFun (shapeCast_self v24 _) _) ?_
  refine (mmC_apply _ _ g).trans ?_
  refine Finset.sum_congr rfl fun r _ => ?_
  refine (congrArg₂ (· * ·) ?_ (pay3_apply v3 r g)).trans (one_mul _)
  refine (transpose_apply [1, 0] _ transposes_S5000x1_p1_0_S1x5000 (ix2 (0 : Fin 1) r) (ix2 r (0 : Fin 1)) (fun b => match b with
    | ⟨0, _⟩ => rfl
    | ⟨1, _⟩ => rfl)).trans ?_
  exact one_bf16

/-- The reset blocks are zero. -/
theorem pay1_apply (j : S64x1024.Idx) : k1_pay1 (F := Ideal) j = 0 := by
  unfold k1_pay1
  exact Ideal.ofBits_zero_f32
theorem pay2_apply (j : S1x1024.Idx) : k1_pay2 (F := Ideal) j = 0 := by
  unfold k1_pay2
  exact Ideal.ofBits_zero_f32

variable (V : (c : Dev nD) → (b : Ref sig .tc) → Buf (Elt Ideal) ((c : Thread nD τ).loc b))

theorem hz : (![0, 0] : Fin 2 → Nat) = fun _ => 0 := funext fun a => by fin_cases a <;> rfl

/-! ### What each control case leaves in the two accumulators -/

/-- Past the first tile the sums buffer is left at the update of what it held. -/
theorem out_B_2 {F : FTy → Type} [FloatOps F] (c : Dev nD) (i : grid1.Coords) (a1 : Memref sig .tc .vmem S5000x64 .f32) (h1 : a1.IsWhole)
    (a2 : Memref sig .tc .vmem S5000x1 .i32) (h2 : a2.IsWhole) (a3 : Memref sig .tc .vmem S64x1024 .f32) (h3 : a3.IsWhole)
    (a4 : Memref sig .tc .vmem S1x1024 .f32) (h4 : a4.IsWhole) (hc : ¬cond1_0 i)
    (x0 : Vec F S5000x64 .f32) (x1 : Vec F S5000x1 .i32) (xo2 : Vec F S64x1024 .f32) (xo3 : Vec F S1x1024 .f32) :
    out1_B_2 c i a1 h1 a2 h2 a3 h3 a4 h4 hc x0 x1 xo2 xo3 = k1_pay4 x1 x0 xo2 := by
  unfold out1_B_2
  rw [View.read_writes_eq_canon _ _ _ (cover1_B_2 c i a1 h1 a2 h2 a3 h3 a4 h4 hc x0 x1 xo2 xo3)]
  unfold kernelRun1_B
  dsimp only
  sl_unfold_words
  rw [View.canon_unit_zero hz]
  simp only [View.readAt_eq_ld, h1.read_unread, h2.read_unread, h3.read_unread, View.ld_unit_zero (S := S5000x64) hz,
    View.ld_unit_zero (S := S5000x1) hz, View.ld_unit_zero (S := S64x1024) hz]

/-- Past the first tile the counts buffer is left at the update of what it held. -/
theorem out_B_3 {F : FTy → Type} [FloatOps F] (c : Dev nD) (i : grid1.Coords) (a1 : Memref sig .tc .vmem S5000x64 .f32) (h1 : a1.IsWhole)
    (a2 : Memref sig .tc .vmem S5000x1 .i32) (h2 : a2.IsWhole) (a3 : Memref sig .tc .vmem S64x1024 .f32) (h3 : a3.IsWhole)
    (a4 : Memref sig .tc .vmem S1x1024 .f32) (h4 : a4.IsWhole) (hc : ¬cond1_0 i)
    (x0 : Vec F S5000x64 .f32) (x1 : Vec F S5000x1 .i32) (xo2 : Vec F S64x1024 .f32) (xo3 : Vec F S1x1024 .f32) :
    out1_B_3 c i a1 h1 a2 h2 a3 h3 a4 h4 hc x0 x1 xo2 xo3 = k1_pay5 x1 xo3 := by
  unfold out1_B_3
  rw [View.read_writes_eq_canon _ _ _ (cover1_B_3 c i a1 h1 a2 h2 a3 h3 a4 h4 hc x0 x1 xo2 xo3)]
  unfold kernelRun1_B
  dsimp only
  sl_unfold_words
  rw [View.canon_unit_zero hz]
  simp only [View.readAt_eq_ld, h2.read_unread, h4.read_unread, View.ld_unit_zero (S := S5000x1) hz,
    View.ld_unit_zero (S := S1x1024) hz]

/-- At the first tile the sums buffer is zeroed, read back, and left at the update of the zero block. -/
theorem out_A_2 {F : FTy → Type} [FloatOps F] (c : Dev nD) (i : grid1.Coords) (a1 : Memref sig .tc .vmem S5000x64 .f32) (h1 : a1.IsWhole)
    (a2 : Memref sig .tc .vmem S5000x1 .i32) (h2 : a2.IsWhole) (a3 : Memref sig .tc .vmem S64x1024 .f32) (h3 : a3.IsWhole)
    (a4 : Memref sig .tc .vmem S1x1024 .f32) (h4 : a4.IsWhole) (hc : cond1_0 i)
    (x0 : Vec F S5000x64 .f32) (x1 : Vec F S5000x1 .i32) :
    out1_A_2 c i a1 h1 a2 h2 a3 h3 a4 h4 hc x0 x1 = k1_pay4 x1 x0 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S64x1024) hz, View.readCov_unit_zero (S := S64x1024) _ hz]
  simp only [View.readAt_eq_ld, h1.read_unread, h2.read_unread, View.ld_unit_zero (S := S5000x64) hz,
    View.ld_unit_zero (S := S5000x1) hz]

/-- At the first tile the counts buffer is zeroed, read back, and left at the update of the zero block. -/
theorem out_A_3 {F : FTy → Type} [FloatOps F] (c : Dev nD) (i : grid1.Coords) (a1 : Memref sig .tc .vmem S5000x64 .f32) (h1 : a1.IsWhole)
    (a2 : Memref sig .tc .vmem S5000x1 .i32) (h2 : a2.IsWhole) (a3 : Memref sig .tc .vmem S64x1024 .f32) (h3 : a3.IsWhole)
    (a4 : Memref sig .tc .vmem S1x1024 .f32) (h4 : a4.IsWhole) (hc : cond1_0 i)
    (x0 : Vec F S5000x64 .f32) (x1 : Vec F S5000x1 .i32) :
    out1_A_3 c i a1 h1 a2 h2 a3 h3 a4 h4 hc x0 x1 = k1_pay5 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x1024) hz, View.readCov_unit_zero (S := S1x1024) _ hz]
  simp only [View.readAt_eq_ld, h2.read_unread, View.ld_unit_zero (S := S5000x1) hz]

/-! ### The tiles the two input windows read -/

/-- Point t's blocks of the two inputs start at row 5000·t and take every column. -/
theorem idx_h : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx_g : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- The node features, the graph ids, and their tiles at point t, at their literal types. -/
abbrev harr (c : Dev nD) : Vec Ideal S100000x64 .f32 := V c main_v13
abbrev garr (c : Dev nD) : Vec Ideal S100000x1 .i32 := V c main_v0
abbrev hblk (c : Dev nD) (t : Fin cfg1.N) : Vec Ideal S5000x64 .f32 := iblk1 V c 0 t
abbrev gblk (c : Dev nD) (t : Fin cfg1.N) : Vec Ideal S5000x1 .i32 := iblk1 V c 1 t

/-- Row r of tile t of the features is row 5000·t + r of the array. -/
theorem hblk_apply (c : Dev nD) (t : Fin cfg1.N) (r : Fin 5000) (f : Fin 64) (hr : 5000 * t.val + r.val < 100000) :
    hblk V c t (ix2 r f) = harr V c (ix2 ⟨5000 * t.val + r.val, hr⟩ f) := by
  show ((cfg1.win 0).blk t).view.read (Elt Ideal) (V c (Pipeline.arrRef spec1 0)) (ix2 r f) = _
  rw [View.read_apply]
  show V c main_v13 _ = V c main_v13 _
  congr 1
  funext a
  apply Fin.ext
  match a with
  | ⟨0, _⟩ => show win1_0.index t 0 * 5000 + 1 * r.val = 5000 * t.val + r.val; rw [(idx_h t).1]; omega
  | ⟨1, _⟩ => show win1_0.index t 1 * 64 + 1 * f.val = f.val; rw [(idx_h t).2]; omega

/-- Row r of tile t of the graph ids is row 5000·t + r of the column. -/
theorem gblk_apply (c : Dev nD) (t : Fin cfg1.N) (r : Fin 5000) (hr : 5000 * t.val + r.val < 100000) :
    gblk V c t (ix2 r 0) = garr V c (ix2 ⟨5000 * t.val + r.val, hr⟩ 0) := by
  show ((cfg1.win 1).blk t).view.read (Elt Ideal) (V c (Pipeline.arrRef spec1 1)) (ix2 r 0) = _
  rw [View.read_apply]
  show V c main_v0 _ = V c main_v0 _
  congr 1
  funext a
  apply Fin.ext
  match a with
  | ⟨0, _⟩ => show win1_1.index t 0 * 5000 + 1 * r.val = 5000 * t.val + r.val; rw [(idx_g t).1]; omega
  | ⟨1, _⟩ => show win1_1.index t 1 * 1 + 1 * 0 = 0; rw [(idx_g t).2]

/-! ### The running sums -/

/-- Node number m's term of the sum at (f, g), and of the count at g; 0 past the last node. -/
def term (h : Vec Ideal S100000x64 .f32) (g2 : Vec Ideal S100000x1 .i32) (f : Fin 64) (g : Fin 1024) (m : ℕ) : EReal :=
  if hm : m < 100000 then h (ix2 ⟨m, hm⟩ f) * isGraph (g2 (ix2 ⟨m, hm⟩ 0)) g else 0
def cterm (g2 : Vec Ideal S100000x1 .i32) (g : Fin 1024) (m : ℕ) : EReal :=
  if hm : m < 100000 then isGraph (g2 (ix2 ⟨m, hm⟩ 0)) g else 0

/-- Tile t's partial sum is the sum of the terms of nodes 5000·t … 5000·t + 4999. -/
theorem tile_sum (c : Dev nD) (t : Fin cfg1.N) (f : Fin 64) (g : Fin 1024) :
    ∑ r : Fin 5000, hblk V c t (ix2 r f) * isGraph (gblk V c t (ix2 r 0)) g
      = ∑ x ∈ Finset.range 5000, term (harr V c) (garr V c) f g (5000 * t.val + x) := by
  have hN : t.val < 20 := lt_of_lt_of_eq t.isLt N_1
  rw [← Fin.sum_univ_eq_sum_range]
  refine Finset.sum_congr rfl fun r _ => ?_
  have hr : 5000 * t.val + r.val < 100000 := by have := r.isLt; omega
  unfold term
  rw [dif_pos hr, hblk_apply V c t r f hr, gblk_apply V c t r hr]
theorem tile_cnt (c : Dev nD) (t : Fin cfg1.N) (g : Fin 1024) :
    ∑ r : Fin 5000, isGraph (gblk V c t (ix2 r 0)) g
      = ∑ x ∈ Finset.range 5000, cterm (garr V c) g (5000 * t.val + x) := by
  have hN : t.val < 20 := lt_of_lt_of_eq t.isLt N_1
  rw [← Fin.sum_univ_eq_sum_range]
  refine Finset.sum_congr rfl fun r _ => ?_
  have hr : 5000 * t.val + r.val < 100000 := by have := r.isLt; omega
  unfold cterm
  rw [dif_pos hr, gblk_apply V c t r hr]

/-- The first point leaves tile 0's partial sums. -/
theorem sums_first (c : Dev nD) (t : Fin cfg1.N) (h0 : t.val % 20 = 0) (f : Fin 64) (g : Fin 1024) :
    (outsAt1 V c t.val t.isLt).1 (ix2 f g) = ∑ r : Fin 5000, hblk V c t (ix2 r f) * isGraph (gblk V c t (ix2 r 0)) g := by
  rw [outsAt1_A V c t h0]
  dsimp only
  refine (congrFun (out_A_2 (F := Ideal) c (grid1.coords t) (ms1_0 t) (hs1_0 t) (ms1_1 t) (hs1_1 t) (ms1_2 t) (hs1_2 t) (ms1_3 t) (hs1_3 t)
    ((hcond1_0 t).mpr h0) (iblk1 V c 0 t) (iblk1 V c 1 t)) (ix2 f g)).trans ?_
  refine (pay4_apply (gblk V c t) (hblk V c t) (k1_pay1 (F := Ideal)) f g).trans ?_
  rw [pay1_apply, zero_add]
theorem cnts_first (c : Dev nD) (t : Fin cfg1.N) (h0 : t.val % 20 = 0) (g : Fin 1024) :
    (outsAt1 V c t.val t.isLt).2 (ix2 (0 : Fin 1) g) = ∑ r : Fin 5000, isGraph (gblk V c t (ix2 r 0)) g := by
  rw [outsAt1_A V c t h0]
  dsimp only
  refine (congrFun (out_A_3 (F := Ideal) c (grid1.coords t) (ms1_0 t) (hs1_0 t) (ms1_1 t) (hs1_1 t) (ms1_2 t) (hs1_2 t) (ms1_3 t) (hs1_3 t)
    ((hcond1_0 t).mpr h0) (iblk1 V c 0 t) (iblk1 V c 1 t)) (ix2 (0 : Fin 1) g)).trans ?_
  refine (pay5_apply (gblk V c t) (k1_pay2 (F := Ideal)) g).trans ?_
  rw [pay2_apply, zero_add]

/-- A later point adds its tile's partial sums to what the point before left. -/
theorem sums_step (c : Dev nD) (t : Fin cfg1.N) (h0 : ¬t.val % 20 = 0) (f : Fin 64) (g : Fin 1024) :
    (outsAt1 V c t.val t.isLt).1 (ix2 f g)
      = (outsAt1 V c (t.val - 1) (Nat.lt_of_le_of_lt (Nat.sub_le _ _) t.isLt)).1 (ix2 f g)
        + ∑ r : Fin 5000, hblk V c t (ix2 r f) * isGraph (gblk V c t (ix2 r 0)) g := by
  rw [outsAt1_B V c t h0]
  dsimp only
  refine (congrFun (out_B_2 (F := Ideal) c (grid1.coords t) (ms1_0 t) (hs1_0 t) (ms1_1 t) (hs1_1 t) (ms1_2 t) (hs1_2 t) (ms1_3 t) (hs1_3 t)
    (fun h => h0 ((hcond1_0 t).mp h)) (iblk1 V c 0 t) (iblk1 V c 1 t)
    (outsAt1 V c (t.val - 1) (Nat.lt_of_le_of_lt (Nat.sub_le _ _) t.isLt)).1
    (outsAt1 V c (t.val - 1) (Nat.lt_of_le_of_lt (Nat.sub_le _ _) t.isLt)).2) (ix2 f g)).trans ?_
  exact pay4_apply (gblk V c t) (hblk V c t) _ f g
theorem cnts_step (c : Dev nD) (t : Fin cfg1.N) (h0 : ¬t.val % 20 = 0) (g : Fin 1024) :
    (outsAt1 V c t.val t.isLt).2 (ix2 (0 : Fin 1) g)
      = (outsAt1 V c (t.val - 1) (Nat.lt_of_le_of_lt (Nat.sub_le _ _) t.isLt)).2 (ix2 (0 : Fin 1) g)
        + ∑ r : Fin 5000, isGraph (gblk V c t (ix2 r 0)) g := by
  rw [outsAt1_B V c t h0]
  dsimp only
  refine (congrFun (out_B_3 (F := Ideal) c (grid1.coords t) (ms1_0 t) (hs1_0 t) (ms1_1 t) (hs1_1 t) (ms1_2 t) (hs1_2 t) (ms1_3 t) (hs1_3 t)
    (fun h => h0 ((hcond1_0 t).mp h)) (iblk1 V c 0 t) (iblk1 V c 1 t)
    (outsAt1 V c (t.val - 1) (Nat.lt_of_le_of_lt (Nat.sub_le _ _) t.isLt)).1
    (outsAt1 V c (t.val - 1) (Nat.lt_of_le_of_lt (Nat.sub_le _ _) t.isLt)).2) (ix2 (0 : Fin 1) g)).trans ?_
  exact pay5_apply (gblk V c t) _ g

/-- After point n the sums buffer holds, at (f, g), the terms of the nodes of tiles 0 … n. -/
theorem sums_inv (c : Dev nD) (f : Fin 64) (g : Fin 1024) : ∀ (n : ℕ) (hn : n < cfg1.N),
    (outsAt1 V c n hn).1 (ix2 f g) = ∑ m ∈ Finset.range (5000 * n + 5000), term (harr V c) (garr V c) f g m
  | 0, hn => by
    refine (sums_first V c ⟨0, hn⟩ rfl f g).trans ?_
    rw [tile_sum V c ⟨0, hn⟩ f g, Finset.sum_range_add, Finset.sum_range_zero, zero_add]
  | n + 1, hn => by
    have hN : n + 1 < 20 := lt_of_lt_of_eq hn N_1
    refine (sums_step V c ⟨n + 1, hn⟩ (by dsimp only; omega) f g).trans ?_
    rw [tile_sum V c ⟨n + 1, hn⟩ f g]
    show (outsAt1 V c n _).1 (ix2 f g) + _ = _
    rw [sums_inv c f g n (Nat.lt_of_succ_lt hn), Finset.sum_range_add _ (5000 * (n + 1)) 5000]
    rfl
/-- After point n the counts buffer holds, at (0, g), the terms of the nodes of tiles 0 … n. -/
theorem cnts_inv (c : Dev nD) (g : Fin 1024) : ∀ (n : ℕ) (hn : n < cfg1.N),
    (outsAt1 V c n hn).2 (ix2 (0 : Fin 1) g) = ∑ m ∈ Finset.range (5000 * n + 5000), cterm (garr V c) g m
  | 0, hn => by
    refine (cnts_first V c ⟨0, hn⟩ rfl g).trans ?_
    rw [tile_cnt V c ⟨0, hn⟩ g, Finset.sum_range_add, Finset.sum_range_zero, zero_add]
  | n + 1, hn => by
    have hN : n + 1 < 20 := lt_of_lt_of_eq hn N_1
    refine (cnts_step V c ⟨n + 1, hn⟩ (by dsimp only; omega) g).trans ?_
    rw [tile_cnt V c ⟨n + 1, hn⟩ g]
    show (outsAt1 V c n _).2 (ix2 (0 : Fin 1) g) + _ = _
    rw [cnts_inv c g n (Nat.lt_of_succ_lt hn), Finset.sum_range_add _ (5000 * (n + 1)) 5000]
    rfl

/-! ### From the last point's write-back to the arrays -/

/-- The last of the 20 points: the only one whose staging buffers are written back. -/
abbrev tLast : Fin cfg1.N := ⟨19, by decide⟩

/-- What the two accumulators hold after the last point, as contents of the two result arrays. -/
abbrev res2 (c : Dev nD) : Buf (Elt Ideal) ((c : Thread nD τ).loc main_v14_0) := (outsAt1 V c 19 (by decide)).1
abbrev res3 (c : Dev nD) : Buf (Elt Ideal) ((c : Thread nD τ).loc main_v14_1) := (outsAt1 V c 19 (by decide)).2

/-- Both outputs' blocks sit at block index (0, 0) at the last point. -/
theorem idx_o2 : (fun a => win1_2.index tLast a * main_v14_0.ty.shape.size a) = fun _ => 0 := funext fun a => by fin_cases a <;> decide
theorem idx_o3 : (fun a => win1_3.index tLast a * main_v14_1.ty.shape.size a) = fun _ => 0 := funext fun a => by fin_cases a <;> decide

/-- The one write-back of the sums writes the whole array: its block at index (0, 0) read through zero offsets. -/
theorem flushed2_eq (c : Dev nD) (t : Fin cfg1.N) (hf : (cfg1.win 2).flush t = true) :
    (dat1 V c).flushed 2 t = ((cfg1.win 2).blk t).view.read (Elt Ideal) (res2 V c) := by
  have hN : t.val < 20 := lt_of_lt_of_eq t.isLt N_1
  have h19 : t.val = 19 := by have := (flush1_2 t).mp hf; omega
  obtain rfl : t = tLast := Fin.ext h19
  show (cfg1.win 2).cut (grid1.coords tLast) ((dat1 V c).after 2 tLast) = _
  rw [after1_2]
  exact (Memref.read_access_unit_zero (Elt Ideal) main_v14_0 idx_o2 (fun a => by rw [congrFun idx_o2 a]; simp) (res2 V c)).symm
theorem flushed3_eq (c : Dev nD) (t : Fin cfg1.N) (hf : (cfg1.win 3).flush t = true) :
    (dat1 V c).flushed 3 t = ((cfg1.win 3).blk t).view.read (Elt Ideal) (res3 V c) := by
  have hN : t.val < 20 := lt_of_lt_of_eq t.isLt N_1
  have h19 : t.val = 19 := by have := (flush1_3 t).mp hf; omega
  obtain rfl : t = tLast := Fin.ext h19
  show (cfg1.win 3).cut (grid1.coords tLast) ((dat1 V c).after 3 tLast) = _
  rw [after1_3]
  exact (Memref.read_access_unit_zero (Elt Ideal) main_v14_1 idx_o3 (fun a => by rw [congrFun idx_o3 a]; simp) (res3 V c)).symm

/-- So each result array ends holding what its accumulator held after the last point: that point's block covers it. -/
theorem final2 (c : Dev nD) : (dat1 V c).arrAt 2 cfg1.N = res2 V c :=
  (dat1 V c).arrAt_eq_of_cover 2 (res2 V c) (flushed2_eq V c) fun i =>
    ⟨tLast, (flush1_2 tLast).mpr rfl, by
      show i ∈ ((View.whole main_v14_0).slice (win1_2.rect tLast)).set
      rw [View.set_slice_whole, Rect.mem_set_unit]
      have h0 : (i 0 : Nat) < 64 := (i 0).isLt
      have h1 : (i 1 : Nat) < 1024 := (i 1).isLt
      have e0 : win1_2.index tLast 0 * win1_2.size 0 = 0 := by decide +kernel
      have e1 : win1_2.index tLast 1 * win1_2.size 1 = 0 := by decide +kernel
      have s0 : win1_2.xsize (grid1.coords tLast) 0 = 64 := by decide +kernel
      have s1 : win1_2.xsize (grid1.coords tLast) 1 = 1024 := by decide +kernel
      refine Fin.forall_fin_two.mpr ⟨?_, ?_⟩
      · show win1_2.index tLast 0 * win1_2.size 0 ≤ (i 0 : Nat) ∧ (i 0 : Nat) < win1_2.index tLast 0 * win1_2.size 0 + win1_2.xsize (grid1.coords tLast) 0
        rw [e0, s0]; omega
      · show win1_2.index tLast 1 * win1_2.size 1 ≤ (i 1 : Nat) ∧ (i 1 : Nat) < win1_2.index tLast 1 * win1_2.size 1 + win1_2.xsize (grid1.coords tLast) 1
        rw [e1, s1]; omega⟩
theorem final3 (c : Dev nD) : (dat1 V c).arrAt 3 cfg1.N = res3 V c :=
  (dat1 V c).arrAt_eq_of_cover 3 (res3 V c) (flushed3_eq V c) fun i =>
    ⟨tLast, (flush1_3 tLast).mpr rfl, by
      show i ∈ ((View.whole main_v14_1).slice (win1_3.rect tLast)).set
      rw [View.set_slice_whole, Rect.mem_set_unit]
      have h0 : (i 0 : Nat) < 1 := (i 0).isLt
      have h1 : (i 1 : Nat) < 1024 := (i 1).isLt
      have e0 : win1_3.index tLast 0 * win1_3.size 0 = 0 := by decide +kernel
      have e1 : win1_3.index tLast 1 * win1_3.size 1 = 0 := by decide +kernel
      have s0 : win1_3.xsize (grid1.coords tLast) 0 = 1 := by decide +kernel
      have s1 : win1_3.xsize (grid1.coords tLast) 1 = 1024 := by decide +kernel
      refine Fin.forall_fin_two.mpr ⟨?_, ?_⟩
      · show win1_3.index tLast 0 * win1_3.size 0 ≤ (i 0 : Nat) ∧ (i 0 : Nat) < win1_3.index tLast 0 * win1_3.size 0 + win1_3.xsize (grid1.coords tLast) 0
        rw [e0, s0]; omega
      · show win1_3.index tLast 1 * win1_3.size 1 ≤ (i 1 : Nat) ∧ (i 1 : Nat) < win1_3.index tLast 1 * win1_3.size 1 + win1_3.xsize (grid1.coords tLast) 1
        rw [e1, s1]; omega⟩

/-- All 100000 terms are the sum over the nodes. -/
theorem term_total (h : Vec Ideal S100000x64 .f32) (g2 : Vec Ideal S100000x1 .i32) (f : Fin 64) (g : Fin 1024) :
    ∑ m ∈ Finset.range 100000, term h g2 f g m = nodeSum h g2 f g := by
  rw [← Fin.sum_univ_eq_sum_range]
  exact Finset.sum_congr rfl fun m _ => dif_pos m.isLt
theorem cterm_total (g2 : Vec Ideal S100000x1 .i32) (g : Fin 1024) :
    ∑ m ∈ Finset.range 100000, cterm g2 g m = nodeCnt g2 g := by
  rw [← Fin.sum_univ_eq_sum_range]
  exact Finset.sum_congr rfl fun m _ => dif_pos m.isLt

end R1

/-- After pallas_call 1 the sums array (features × graphs) holds, at (f, g), the sum of feature f over the nodes of
    graph g: the accumulator is zeroed at the first of the 20 node tiles and each tile adds its own partial sum. -/
theorem readout1_sum (V : (c : Dev nD) → (b : Ref sig .tc) → Buf (Elt Ideal) ((c : Thread nD τ).loc b)) (c : Dev nD) (f : Fin 64) (g : Fin 1024) :
    (dat1 (F := Ideal) V c).arrAt 2 cfg1.N (ix2 f g) = nodeSum (V c main_v13) (V c main_v0) f g := by
  refine (congrFun (R1.final2 V c) (ix2 f g)).trans ?_
  refine (R1.sums_inv V c f g 19 (by decide)).trans ?_
  exact R1.term_total (V c main_v13) (V c main_v0) f g

/-- After pallas_call 1 the counts array (1 × graphs) holds, at (0, g), the number of nodes of graph g. -/
theorem readout1_cnt (V : (c : Dev nD) → (b : Ref sig .tc) → Buf (Elt Ideal) ((c : Thread nD τ).loc b)) (c : Dev nD) (g : Fin 1024) :
    (dat1 (F := Ideal) V c).arrAt 3 cfg1.N (ix2 (0 : Fin 1) g) = nodeCnt (V c main_v0) g := by
  refine (congrFun (R1.final3 V c) (ix2 (0 : Fin 1) g)).trans ?_
  refine (R1.cnts_inv V c g 19 (by decide)).trans ?_
  exact R1.cterm_total (V c main_v0) g

end Cert.KernelValue

end
-- ==== Proof.Readout2.lean ====
/- The second readout's pallas_call: per-graph sums and counts accumulated over the node tiles. -/
import proofs.«406926_j64544768525161_1_alg».proof.Proof.Gen.KernelIdeal.Frame
import proofs.«406926_j64544768525161_1_alg».proof.Proof.NodeSums
import Idealize.ShloMosaic.Lib.ValueIdx
import Idealize.ShloMosaic.Lib.Pipeline.Value
import Idealize.ShloMosaic.PureOps.Ideal.Laws
import Idealize.ShloMosaic.Lib.Affine

set_option maxRecDepth 16384

noncomputable section

namespace Cert.KernelValue

open Idealize.ShloMosaic Idealize.ShloMosaic.TcCoe Idealize.ShloMosaic.ValueIdx Idealize.SL.Sem Cert.KernelIdeal Cert.KernelIdeal.Gen
open Idealize.ShloMosaic.Pipeline (Dat Cfg Window)
open scoped BigOperators
open Cert.Readout

/-! ## Pallas_call 3, piece by piece: the payloads at an entry, what each control case leaves, the tiles read,
    the running sums by induction on the point, and the last point's write-back. -/

namespace R3

/-- The one-hot word: 1 where the two 32-bit words agree, else 0, read as a signed integer. -/
theorem onehot_word (a b : BitVec 32) :
    (((BitVec.setWidth 32 (IntOp.cmpi .eq a b)).toInt : ℝ) : EReal) = if a = b then 1 else 0 := by
  by_cases h : a = b
  · rw [if_pos h, IntOp.cmpi_eq.mpr h]
    have : (BitVec.setWidth 32 (1#1)).toInt = 1 := by decide
    rw [this]; norm_num
  · rw [if_neg h, eq_zero_of_ne_one (fun e => h (IntOp.cmpi_eq.mp e))]
    have : (BitVec.setWidth 32 (0#1)).toInt = 0 := by decide
    rw [this]; norm_num

/-- The bf16 pattern of 1.0 is the extended real 1. -/
theorem one_bf16 : Ideal.ofBits .bf16 0x3F80#16 = 1 := IdealRules.sign_bit.ideal_onePat .bf16

/-- The one-hot tile at (r, g): 1 where row r's graph id is g. -/
theorem pay3_apply (v3 : Vec Ideal S5000x1 .i32) (r : Fin 5000) (g : Fin 1024) :
    k3_pay3 (F := Ideal) v3 (ix2 r g) = isGraph (v3 (ix2 r 0)) g := by
  unfold k3_pay3
  have e1 : broadcastTo S5000x1024 (shapeCast S5000x1 v3 shapeCasts_S5000x1_S5000x1) broadcasts_S5000x1_S5000x1024 (ix2 r g) = v3 (ix2 r 0) := by
    refine (broadcastTo_apply _ broadcasts_S5000x1_S5000x1024 (ix2 r g) (ix2 r 0) (fun a => match a with
      | ⟨0, _⟩ => by show r.val = if (5000 : Nat) = 1 then 0 else r.val; rw [if_neg (by decide)]
      | ⟨1, _⟩ => by show (0 : Nat) = if (1 : Nat) = 1 then 0 else g.val; rw [if_pos rfl])).trans ?_
    exact congrFun (shapeCast_self v3 _) _
  have e2 : broadcastTo S5000x1024 (iota .tc S1x1024 32 [1] iota_S1x1024_d1_w32) broadcasts_S1x1024_S5000x1024 (ix2 r g) = BitVec.ofNat 32 g.val := by
    refine (broadcastTo_apply _ broadcasts_S1x1024_S5000x1024 (ix2 r g) (ix2 (0 : Fin 1) g) (fun a => match a with
      | ⟨0, _⟩ => by show (0 : Nat) = if (1 : Nat) = 1 then 0 else r.val; rw [if_pos rfl]
      | ⟨1, _⟩ => by show g.val = if (1024 : Nat) = 1 then 0 else g.val; rw [if_neg (by decide)])).trans ?_
    exact iota_single_apply .tc S1x1024 32 1 iota_S1x1024_d1_w32 (ix2 (0 : Fin 1) g)
  show (((BitVec.setWidth 32 (IntOp.cmpi .eq _ _)).toInt : ℝ) : EReal) = _
  refine (congrArg₂ (fun a b => (((BitVec.setWidth 32 (IntOp.cmpi .eq a b)).toInt : ℝ) : EReal)) e1 e2).trans ?_
  exact onehot_word _ _

theorem lhsS_0 (i : S64x1024.Idx) (q : dot_S64x5000_S5000x1024_S64x1024_1_0_0_1_n_n.contr.Idx) :
    (dot_S64x5000_S5000x1024_S64x1024_1_0_0_1_n_n.lhsIdx i q 0).val = (i 0).val := by
  unfold DotDims.lhsIdx
  rw [dif_neg (show ¬(0 : Fin S64x5000.rank) ∈ dot_S64x5000_S5000x1024_S64x1024_1_0_0_1_n_n.lhsBatch by decide), dif_pos (show (0 : Fin S64x5000.rank) ∈ dot_S64x5000_S5000x1024_S64x1024_1_0_0_1_n_n.lhsNonContracting by decide)]
  rfl
theorem lhsS_1 (i : S64x1024.Idx) (q : dot_S64x5000_S5000x1024_S64x1024_1_0_0_1_n_n.contr.Idx) :
    (dot_S64x5000_S5000x1024_S64x1024_1_0_0_1_n_n.lhsIdx i q 1).val = (q ⟨0, by decide⟩).val :=
  dot_S64x5000_S5000x1024_S64x1024_1_0_0_1_n_n.lhsIdx_val_of_single rfl i q
theorem rhsS_0 (i : S64x1024.Idx) (q : dot_S64x5000_S5000x1024_S64x1024_1_0_0_1_n_n.contr.Idx) :
    (dot_S64x5000_S5000x1024_S64x1024_1_0_0_1_n_n.rhsIdx i q 0).val = (q ⟨0, by decide⟩).val :=
  dot_S64x5000_S5000x1024_S64x1024_1_0_0_1_n_n.rhsIdx_val_of_single rfl i q
theorem rhsS_1 (i : S64x1024.Idx) (q : dot_S64x5000_S5000x1024_S64x1024_1_0_0_1_n_n.contr.Idx) :
    (dot_S64x5000_S5000x1024_S64x1024_1_0_0_1_n_n.rhsIdx i q 1).val = (i 1).val := by
  unfold DotDims.rhsIdx
  rw [dif_neg (show ¬(1 : Fin S5000x1024.rank) ∈ dot_S64x5000_S5000x1024_S64x1024_1_0_0_1_n_n.rhsBatch by decide), dif_pos (show (1 : Fin S5000x1024.rank) ∈ dot_S64x5000_S5000x1024_S64x1024_1_0_0_1_n_n.rhsNonContracting by decide)]
  rfl

/-- The [64,5000] by [5000,1024] block product into the zero accumulator, at an entry. -/
theorem mmS_apply {φ₁ φ₂ : FTy} (a : FVec Ideal S64x5000 φ₁) (b : FVec Ideal S5000x1024 φ₂) (f : Fin 64) (g : Fin 1024) :
    matmul dot_S64x5000_S5000x1024_S64x1024_1_0_0_1_n_n none a b (constant S64x1024 .f32 0x00000000#32) (ix2 f g)
      = ∑ k : Fin 5000, a (ix2 f k) * b (ix2 k g) := by
  simp only [matmul]
  rw [Ideal.matmul_constant_zero_apply, ← Equiv.sum_comp (ValueIdx.contrEquiv1 dot_S64x5000_S5000x1024_S64x1024_1_0_0_1_n_n 5000 rfl rfl).symm]
  refine Finset.sum_congr rfl fun k _ => ?_
  have hk := ValueIdx.contrEquiv1_symm_val dot_S64x5000_S5000x1024_S64x1024_1_0_0_1_n_n 5000 rfl rfl k
  have el : dot_S64x5000_S5000x1024_S64x1024_1_0_0_1_n_n.lhsIdx (ix2 f g) ((ValueIdx.contrEquiv1 dot_S64x5000_S5000x1024_S64x1024_1_0_0_1_n_n 5000 rfl rfl).symm k) = ix2 f k := funext fun a => Fin.ext (by
    match a with
    | ⟨0, _⟩ => exact lhsS_0 _ _
    | ⟨1, _⟩ => exact (lhsS_1 _ _).trans hk)
  have er : dot_S64x5000_S5000x1024_S64x1024_1_0_0_1_n_n.rhsIdx (ix2 f g) ((ValueIdx.contrEquiv1 dot_S64x5000_S5000x1024_S64x1024_1_0_0_1_n_n 5000 rfl rfl).symm k) = ix2 k g := funext fun a => Fin.ext (by
    match a with
    | ⟨0, _⟩ => exact (rhsS_0 _ _).trans hk
    | ⟨1, _⟩ => exact rhsS_1 _ _)
  rw [el, er]

theorem lhsC_0 (i : S1x1024.Idx) (q : dot_S1x5000_S5000x1024_S1x1024_1_0_0_1_n_n.contr.Idx) :
    (dot_S1x5000_S5000x1024_S1x1024_1_0_0_1_n_n.lhsIdx i q 0).val = (i 0).val := by
  unfold DotDims.lhsIdx
  rw [dif_neg (show ¬(0 : Fin S1x5000.rank) ∈ dot_S1x5000_S5000x1024_S1x1024_1_0_0_1_n_n.lhsBatch by decide), dif_pos (show (0 : Fin S1x5000.rank) ∈ dot_S1x5000_S5000x1024_S1x1024_1_0_0_1_n_n.lhsNonContracting by decide)]
  rfl
theorem lhsC_1 (i : S1x1024.Idx) (q : dot_S1x5000_S5000x1024_S1x1024_1_0_0_1_n_n.contr.Idx) :
    (dot_S1x5000_S5000x1024_S1x1024_1_0_0_1_n_n.lhsIdx i q 1).val = (q ⟨0, by decide⟩).val :=
  dot_S1x5000_S5000x1024_S1x1024_1_0_0_1_n_n.lhsIdx_val_of_single rfl i q
theorem rhsC_0 (i : S1x1024.Idx) (q : dot_S1x5000_S5000x1024_S1x1024_1_0_0_1_n_n.contr.Idx) :
    (dot_S1x5000_S5000x1024_S1x1024_1_0_0_1_n_n.rhsIdx i q 0).val = (q ⟨0, by decide⟩).val :=
  dot_S1x5000_S5000x1024_S1x1024_1_0_0_1_n_n.rhsIdx_val_of_single rfl i q
theorem rhsC_1 (i : S1x1024.Idx) (q : dot_S1x5000_S5000x1024_S1x1024_1_0_0_1_n_n.contr.Idx) :
    (dot_S1x5000_S5000x1024_S1x1024_1_0_0_1_n_n.rhsIdx i q 1).val = (i 1).val := by
  unfold DotDims.rhsIdx
  rw [dif_neg (show ¬(1 : Fin S5000x1024.rank) ∈ dot_S1x5000_S5000x1024_S1x1024_1_0_0_1_n_n.rhsBatch by decide), dif_pos (show (1 : Fin S5000x1024.rank) ∈ dot_S1x5000_S5000x1024_S1x1024_1_0_0_1_n_n.rhsNonContracting by decide)]
  rfl

/-- The [1,5000] by [5000,1024] block product into the zero accumulator, at an entry. -/
theorem mmC_apply {φ₁ φ₂ : FTy} (a : FVec Ideal S1x5000 φ₁) (b : FVec Ideal S5000x1024 φ₂) (g : Fin 1024) :
    matmul dot_S1x5000_S5000x1024_S1x1024_1_0_0_1_n_n none a b (constant S1x1024 .f32 0x00000000#32) (ix2 (0 : Fin 1) g)
      = ∑ k : Fin 5000, a (ix2 (0 : Fin 1) k) * b (ix2 k g) := by
  simp only [matmul]
  rw [Ideal.matmul_constant_zero_apply, ← Equiv.sum_comp (ValueIdx.contrEquiv1 dot_S1x5000_S5000x1024_S1x1024_1_0_0_1_n_n 5000 rfl rfl).symm]
  refine Finset.sum_congr rfl fun k _ => ?_
  have hk := ValueIdx.contrEquiv1_symm_val dot_S1x5000_S5000x1024_S1x1024_1_0_0_1_n_n 5000 rfl rfl k
  have el : dot_S1x5000_S5000x1024_S1x1024_1_0_0_1_n_n.lhsIdx (ix2 (0 : Fin 1) g) ((ValueIdx.contrEquiv1 dot_S1x5000_S5000x1024_S1x1024_1_0_0_1_n_n 5000 rfl rfl).symm k) = ix2 (0 : Fin 1) k := funext fun a => Fin.ext (by
    match a with
    | ⟨0, _⟩ => exact lhsC_0 _ _
    | ⟨1, _⟩ => exact (lhsC_1 _ _).trans hk)
  have er : dot_S1x5000_S5000x1024_S1x1024_1_0_0_1_n_n.rhsIdx (ix2 (0 : Fin 1) g) ((ValueIdx.contrEquiv1 dot_S1x5000_S5000x1024_S1x1024_1_0_0_1_n_n 5000 rfl rfl).symm k) = ix2 k g := funext fun a => Fin.ext (by
    match a with
    | ⟨0, _⟩ => exact (rhsC_0 _ _).trans hk
    | ⟨1, _⟩ => exact rhsC_1 _ _)
  rw [el, er]

/-- The sums update at (f, g): the accumulator plus the tile's partial sum of feature f over the rows of graph g. -/
theorem pay4_apply (v3 : Vec Ideal S5000x1 .i32) (v12 : Vec Ideal S5000x64 .f32) (v20 : Vec Ideal S64x1024 .f32) (f : Fin 64) (g : Fin 1024) :
    k3_pay4 (F := Ideal) v3 v12 v20 (ix2 f g) = v20 (ix2 f g) + ∑ r : Fin 5000, v12 (ix2 r f) * isGraph (v3 (ix2 r 0)) g := by
  unfold k3_pay4
  refine congrArg₂ (· + ·) (congrFun (shapeCast_self v20 _) _) ?_
  refine (mmS_apply _ _ f g).trans ?_
  refine Finset.sum_congr rfl fun r _ => ?_
  refine congrArg₂ (· * ·) ?_ (pay3_apply v3 r g)
  refine (transpose_apply [1, 0] _ transposes_S5000x64_p1_0_S64x5000 (ix2 f r) (ix2 r f) (fun b => match b with
    | ⟨0, _⟩ => rfl
    | ⟨1, _⟩ => rfl)).trans ?_
  exact congrFun (shapeCast_self v12 _) _

/-- The counts update at (0, g): the accumulator plus the number of the tile's rows of graph g. -/
theorem pay5_apply (v3 : Vec Ideal S5000x1 .i32) (v24 : Vec Ideal S1x1024 .f32) (g : Fin 1024) :
    k3_pay5 (F := Ideal) v3 v24 (ix2 (0 : Fin 1) g) = v24 (ix2 (0 : Fin 1) g) + ∑ r : Fin 5000, isGraph (v3 (ix2 r 0)) g := by
  unfold k3_pay5
  refine congrArg₂ (· + ·) (congrFun (shapeCast_self v24 _) _) ?_
  refine (mmC_apply _ _ g).trans ?_
  refine Finset.sum_congr rfl fun r _ => ?_
  refine (congrArg₂ (· * ·) ?_ (pay3_apply v3 r g)).trans (one_mul _)
  refine (transpose_apply [1, 0] _ transposes_S5000x1_p1_0_S1x5000 (ix2 (0 : Fin 1) r) (ix2 r (0 : Fin 1)) (fun b => match b with
    | ⟨0, _⟩ => rfl
    | ⟨1, _⟩ => rfl)).trans ?_
  exact one_bf16

/-- The reset blocks are zero. -/
theorem pay1_apply (j : S64x1024.Idx) : k3_pay1 (F := Ideal) j = 0 := by
  unfold k3_pay1
  exact Ideal.ofBits_zero_f32
theorem pay2_apply (j : S1x1024.Idx) : k3_pay2 (F := Ideal) j = 0 := by
  unfold k3_pay2
  exact Ideal.ofBits_zero_f32

variable (V : (c : Dev nD) → (b : Ref sig .tc) → Buf (Elt Ideal) ((c : Thread nD τ).loc b))

theorem hz : (![0, 0] : Fin 2 → Nat) = fun _ => 0 := funext fun a => by fin_cases a <;> rfl

/-! ### What each control case leaves in the two accumulators -/

/-- Past the first tile the sums buffer is left at the update of what it held. -/
theorem out_B_2 {F : FTy → Type} [FloatOps F] (c : Dev nD) (i : grid3.Coords) (a1 : Memref sig .tc .vmem S5000x64 .f32) (h1 : a1.IsWhole)
    (a2 : Memref sig .tc .vmem S5000x1 .i32) (h2 : a2.IsWhole) (a3 : Memref sig .tc .vmem S64x1024 .f32) (h3 : a3.IsWhole)
    (a4 : Memref sig .tc .vmem S1x1024 .f32) (h4 : a4.IsWhole) (hc : ¬cond3_0 i)
    (x0 : Vec F S5000x64 .f32) (x1 : Vec F S5000x1 .i32) (xo2 : Vec F S64x1024 .f32) (xo3 : Vec F S1x1024 .f32) :
    out3_B_2 c i a1 h1 a2 h2 a3 h3 a4 h4 hc x0 x1 xo2 xo3 = k3_pay4 x1 x0 xo2 := by
  unfold out3_B_2
  rw [View.read_writes_eq_canon _ _ _ (cover3_B_2 c i a1 h1 a2 h2 a3 h3 a4 h4 hc x0 x1 xo2 xo3)]
  unfold kernelRun3_B
  dsimp only
  sl_unfold_words
  rw [View.canon_unit_zero hz]
  simp only [View.readAt_eq_ld, h1.read_unread, h2.read_unread, h3.read_unread, View.ld_unit_zero (S := S5000x64) hz,
    View.ld_unit_zero (S := S5000x1) hz, View.ld_unit_zero (S := S64x1024) hz]

/-- Past the first tile the counts buffer is left at the update of what it held. -/
theorem out_B_3 {F : FTy → Type} [FloatOps F] (c : Dev nD) (i : grid3.Coords) (a1 : Memref sig .tc .vmem S5000x64 .f32) (h1 : a1.IsWhole)
    (a2 : Memref sig .tc .vmem S5000x1 .i32) (h2 : a2.IsWhole) (a3 : Memref sig .tc .vmem S64x1024 .f32) (h3 : a3.IsWhole)
    (a4 : Memref sig .tc .vmem S1x1024 .f32) (h4 : a4.IsWhole) (hc : ¬cond3_0 i)
    (x0 : Vec F S5000x64 .f32) (x1 : Vec F S5000x1 .i32) (xo2 : Vec F S64x1024 .f32) (xo3 : Vec F S1x1024 .f32) :
    out3_B_3 c i a1 h1 a2 h2 a3 h3 a4 h4 hc x0 x1 xo2 xo3 = k3_pay5 x1 xo3 := by
  unfold out3_B_3
  rw [View.read_writes_eq_canon _ _ _ (cover3_B_3 c i a1 h1 a2 h2 a3 h3 a4 h4 hc x0 x1 xo2 xo3)]
  unfold kernelRun3_B
  dsimp only
  sl_unfold_words
  rw [View.canon_unit_zero hz]
  simp only [View.readAt_eq_ld, h2.read_unread, h4.read_unread, View.ld_unit_zero (S := S5000x1) hz,
    View.ld_unit_zero (S := S1x1024) hz]

/-- At the first tile the sums buffer is zeroed, read back, and left at the update of the zero block. -/
theorem out_A_2 {F : FTy → Type} [FloatOps F] (c : Dev nD) (i : grid3.Coords) (a1 : Memref sig .tc .vmem S5000x64 .f32) (h1 : a1.IsWhole)
    (a2 : Memref sig .tc .vmem S5000x1 .i32) (h2 : a2.IsWhole) (a3 : Memref sig .tc .vmem S64x1024 .f32) (h3 : a3.IsWhole)
    (a4 : Memref sig .tc .vmem S1x1024 .f32) (h4 : a4.IsWhole) (hc : cond3_0 i)
    (x0 : Vec F S5000x64 .f32) (x1 : Vec F S5000x1 .i32) :
    out3_A_2 c i a1 h1 a2 h2 a3 h3 a4 h4 hc x0 x1 = k3_pay4 x1 x0 (k3_pay1 (F := F)) := by
  unfold out3_A_2
  rw [View.read_writes_eq_canon _ _ _ (cover3_A_2 c i a1 h1 a2 h2 a3 h3 a4 h4 hc x0 x1)]
  unfold kernelRun3_A
  dsimp only
  sl_unfold_words
  rw [View.canon_cons_unit_zero (S := S64x1024) hz, View.readCov_unit_zero (S := S64x1024) _ hz]
  simp only [View.readAt_eq_ld, h1.read_unread, h2.read_unread, View.ld_unit_zero (S := S5000x64) hz,
    View.ld_unit_zero (S := S5000x1) hz]

/-- At the first tile the counts buffer is zeroed, read back, and left at the update of the zero block. -/
theorem out_A_3 {F : FTy → Type} [FloatOps F] (c : Dev nD) (i : grid3.Coords) (a1 : Memref sig .tc .vmem S5000x64 .f32) (h1 : a1.IsWhole)
    (a2 : Memref sig .tc .vmem S5000x1 .i32) (h2 : a2.IsWhole) (a3 : Memref sig .tc .vmem S64x1024 .f32) (h3 : a3.IsWhole)
    (a4 : Memref sig .tc .vmem S1x1024 .f32) (h4 : a4.IsWhole) (hc : cond3_0 i)
    (x0 : Vec F S5000x64 .f32) (x1 : Vec F S5000x1 .i32) :
    out3_A_3 c i a1 h1 a2 h2 a3 h3 a4 h4 hc x0 x1 = k3_pay5 x1 (k3_pay2 (F := F)) := by
  unfold out3_A_3
  rw [View.read_writes_eq_canon _ _ _ (cover3_A_3 c i a1 h1 a2 h2 a3 h3 a4 h4 hc x0 x1)]
  unfold kernelRun3_A
  dsimp only
  sl_unfold_words
  rw [View.canon_cons_unit_zero (S := S1x1024) hz, View.readCov_unit_zero (S := S1x1024) _ hz]
  simp only [View.readAt_eq_ld, h2.read_unread, View.ld_unit_zero (S := S5000x1) hz]

/-! ### The tiles the two input windows read -/

/-- Point t's blocks of the two inputs start at row 5000·t and take every column. -/
theorem idx_h : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem idx_g : ∀ t : Fin cfg3.N, win3_1.index t (0 : Fin 2) = t.val ∧ win3_1.index t (1 : Fin 2) = 0 :=
  (by decide +kernel : ∀ t : Fin grid3.N, win3_1.index t (0 : Fin 2) = t.val ∧ win3_1.index t (1 : Fin 2) = 0)

/-- The node features, the graph ids, and their tiles at point t, at their literal types. -/
abbrev harr (c : Dev nD) : Vec Ideal S100000x64 .f32 := V c main_v32
abbrev garr (c : Dev nD) : Vec Ideal S100000x1 .i32 := V c main_v0
abbrev hblk (c : Dev nD) (t : Fin cfg3.N) : Vec Ideal S5000x64 .f32 := iblk3 V c 0 t
abbrev gblk (c : Dev nD) (t : Fin cfg3.N) : Vec Ideal S5000x1 .i32 := iblk3 V c 1 t

/-- Row r of tile t of the features is row 5000·t + r of the array. -/
theorem hblk_apply (c : Dev nD) (t : Fin cfg3.N) (r : Fin 5000) (f : Fin 64) (hr : 5000 * t.val + r.val < 100000) :
    hblk V c t (ix2 r f) = harr V c (ix2 ⟨5000 * t.val + r.val, hr⟩ f) := by
  show ((cfg3.win 0).blk t).view.read (Elt Ideal) (V c (Pipeline.arrRef spec3 0)) (ix2 r f) = _
  rw [View.read_apply]
  show V c main_v32 _ = V c main_v32 _
  congr 1
  funext a
  apply Fin.ext
  match a with
  | ⟨0, _⟩ => show win3_0.index t 0 * 5000 + 1 * r.val = 5000 * t.val + r.val; rw [(idx_h t).1]; omega
  | ⟨1, _⟩ => show win3_0.index t 1 * 64 + 1 * f.val = f.val; rw [(idx_h t).2]; omega

/-- Row r of tile t of the graph ids is row 5000·t + r of the column. -/
theorem gblk_apply (c : Dev nD) (t : Fin cfg3.N) (r : Fin 5000) (hr : 5000 * t.val + r.val < 100000) :
    gblk V c t (ix2 r 0) = garr V c (ix2 ⟨5000 * t.val + r.val, hr⟩ 0) := by
  show ((cfg3.win 1).blk t).view.read (Elt Ideal) (V c (Pipeline.arrRef spec3 1)) (ix2 r 0) = _
  rw [View.read_apply]
  show V c main_v0 _ = V c main_v0 _
  congr 1
  funext a
  apply Fin.ext
  match a with
  | ⟨0, _⟩ => show win3_1.index t 0 * 5000 + 1 * r.val = 5000 * t.val + r.val; rw [(idx_g t).1]; omega
  | ⟨1, _⟩ => show win3_1.index t 1 * 1 + 1 * 0 = 0; rw [(idx_g t).2]

/-! ### The running sums -/

/-- Node number m's term of the sum at (f, g), and of the count at g; 0 past the last node. -/
def term (h : Vec Ideal S100000x64 .f32) (g2 : Vec Ideal S100000x1 .i32) (f : Fin 64) (g : Fin 1024) (m : ℕ) : EReal :=
  if hm : m < 100000 then h (ix2 ⟨m, hm⟩ f) * isGraph (g2 (ix2 ⟨m, hm⟩ 0)) g else 0
def cterm (g2 : Vec Ideal S100000x1 .i32) (g : Fin 1024) (m : ℕ) : EReal :=
  if hm : m < 100000 then isGraph (g2 (ix2 ⟨m, hm⟩ 0)) g else 0

/-- Tile t's partial sum is the sum of the terms of nodes 5000·t … 5000·t + 4999. -/
theorem tile_sum (c : Dev nD) (t : Fin cfg3.N) (f : Fin 64) (g : Fin 1024) :
    ∑ r : Fin 5000, hblk V c t (ix2 r f) * isGraph (gblk V c t (ix2 r 0)) g
      = ∑ x ∈ Finset.range 5000, term (harr V c) (garr V c) f g (5000 * t.val + x) := by
  have hN : t.val < 20 := lt_of_lt_of_eq t.isLt N_3
  rw [← Fin.sum_univ_eq_sum_range]
  refine Finset.sum_congr rfl fun r _ => ?_
  have hr : 5000 * t.val + r.val < 100000 := by have := r.isLt; omega
  unfold term
  rw [dif_pos hr, hblk_apply V c t r f hr, gblk_apply V c t r hr]
theorem tile_cnt (c : Dev nD) (t : Fin cfg3.N) (g : Fin 1024) :
    ∑ r : Fin 5000, isGraph (gblk V c t (ix2 r 0)) g
      = ∑ x ∈ Finset.range 5000, cterm (garr V c) g (5000 * t.val + x) := by
  have hN : t.val < 20 := lt_of_lt_of_eq t.isLt N_3
  rw [← Fin.sum_univ_eq_sum_range]
  refine Finset.sum_congr rfl fun r _ => ?_
  have hr : 5000 * t.val + r.val < 100000 := by have := r.isLt; omega
  unfold cterm
  rw [dif_pos hr, gblk_apply V c t r hr]

/-- The first point leaves tile 0's partial sums. -/
theorem sums_first (c : Dev nD) (t : Fin cfg3.N) (h0 : t.val % 20 = 0) (f : Fin 64) (g : Fin 1024) :
    (outsAt3 V c t.val t.isLt).1 (ix2 f g) = ∑ r : Fin 5000, hblk V c t (ix2 r f) * isGraph (gblk V c t (ix2 r 0)) g := by
  rw [outsAt3_A V c t h0]
  dsimp only
  refine (congrFun (out_A_2 (F := Ideal) c (grid3.coords t) (ms3_0 t) (hs3_0 t) (ms3_1 t) (hs3_1 t) (ms3_2 t) (hs3_2 t) (ms3_3 t) (hs3_3 t)
    ((hcond3_0 t).mpr h0) (iblk3 V c 0 t) (iblk3 V c 1 t)) (ix2 f g)).trans ?_
  refine (pay4_apply (gblk V c t) (hblk V c t) (k3_pay1 (F := Ideal)) f g).trans ?_
  rw [pay1_apply, zero_add]
theorem cnts_first (c : Dev nD) (t : Fin cfg3.N) (h0 : t.val % 20 = 0) (g : Fin 1024) :
    (outsAt3 V c t.val t.isLt).2 (ix2 (0 : Fin 1) g) = ∑ r : Fin 5000, isGraph (gblk V c t (ix2 r 0)) g := by
  rw [outsAt3_A V c t h0]
  dsimp only
  refine (congrFun (out_A_3 (F := Ideal) c (grid3.coords t) (ms3_0 t) (hs3_0 t) (ms3_1 t) (hs3_1 t) (ms3_2 t) (hs3_2 t) (ms3_3 t) (hs3_3 t)
    ((hcond3_0 t).mpr h0) (iblk3 V c 0 t) (iblk3 V c 1 t)) (ix2 (0 : Fin 1) g)).trans ?_
  refine (pay5_apply (gblk V c t) (k3_pay2 (F := Ideal)) g).trans ?_
  rw [pay2_apply, zero_add]

/-- A later point adds its tile's partial sums to what the point before left. -/
theorem sums_step (c : Dev nD) (t : Fin cfg3.N) (h0 : ¬t.val % 20 = 0) (f : Fin 64) (g : Fin 1024) :
    (outsAt3 V c t.val t.isLt).1 (ix2 f g)
      = (outsAt3 V c (t.val - 1) (Nat.lt_of_le_of_lt (Nat.sub_le _ _) t.isLt)).1 (ix2 f g)
        + ∑ r : Fin 5000, hblk V c t (ix2 r f) * isGraph (gblk V c t (ix2 r 0)) g := by
  rw [outsAt3_B V c t h0]
  dsimp only
  refine (congrFun (out_B_2 (F := Ideal) c (grid3.coords t) (ms3_0 t) (hs3_0 t) (ms3_1 t) (hs3_1 t) (ms3_2 t) (hs3_2 t) (ms3_3 t) (hs3_3 t)
    (fun h => h0 ((hcond3_0 t).mp h)) (iblk3 V c 0 t) (iblk3 V c 1 t)
    (outsAt3 V c (t.val - 1) (Nat.lt_of_le_of_lt (Nat.sub_le _ _) t.isLt)).1
    (outsAt3 V c (t.val - 1) (Nat.lt_of_le_of_lt (Nat.sub_le _ _) t.isLt)).2) (ix2 f g)).trans ?_
  exact pay4_apply (gblk V c t) (hblk V c t) _ f g
theorem cnts_step (c : Dev nD) (t : Fin cfg3.N) (h0 : ¬t.val % 20 = 0) (g : Fin 1024) :
    (outsAt3 V c t.val t.isLt).2 (ix2 (0 : Fin 1) g)
      = (outsAt3 V c (t.val - 1) (Nat.lt_of_le_of_lt (Nat.sub_le _ _) t.isLt)).2 (ix2 (0 : Fin 1) g)
        + ∑ r : Fin 5000, isGraph (gblk V c t (ix2 r 0)) g := by
  rw [outsAt3_B V c t h0]
  dsimp only
  refine (congrFun (out_B_3 (F := Ideal) c (grid3.coords t) (ms3_0 t) (hs3_0 t) (ms3_1 t) (hs3_1 t) (ms3_2 t) (hs3_2 t) (ms3_3 t) (hs3_3 t)
    (fun h => h0 ((hcond3_0 t).mp h)) (iblk3 V c 0 t) (iblk3 V c 1 t)
    (outsAt3 V c (t.val - 1) (Nat.lt_of_le_of_lt (Nat.sub_le _ _) t.isLt)).1
    (outsAt3 V c (t.val - 1) (Nat.lt_of_le_of_lt (Nat.sub_le _ _) t.isLt)).2) (ix2 (0 : Fin 1) g)).trans ?_
  exact pay5_apply (gblk V c t) _ g

/-- After point n the sums buffer holds, at (f, g), the terms of the nodes of tiles 0 … n. -/
theorem sums_inv (c : Dev nD) (f : Fin 64) (g : Fin 1024) : ∀ (n : ℕ) (hn : n < cfg3.N),
    (outsAt3 V c n hn).1 (ix2 f g) = ∑ m ∈ Finset.range (5000 * n + 5000), term (harr V c) (garr V c) f g m
  | 0, hn => by
    refine (sums_first V c ⟨0, hn⟩ rfl f g).trans ?_
    rw [tile_sum V c ⟨0, hn⟩ f g, Finset.sum_range_add, Finset.sum_range_zero, zero_add]
  | n + 1, hn => by
    have hN : n + 1 < 20 := lt_of_lt_of_eq hn N_3
    refine (sums_step V c ⟨n + 1, hn⟩ (by dsimp only; omega) f g).trans ?_
    rw [tile_sum V c ⟨n + 1, hn⟩ f g]
    show (outsAt3 V c n _).1 (ix2 f g) + _ = _
    rw [sums_inv c f g n (Nat.lt_of_succ_lt hn), Finset.sum_range_add _ (5000 * (n + 1)) 5000]
    rfl
/-- After point n the counts buffer holds, at (0, g), the terms of the nodes of tiles 0 … n. -/
theorem cnts_inv (c : Dev nD) (g : Fin 1024) : ∀ (n : ℕ) (hn : n < cfg3.N),
    (outsAt3 V c n hn).2 (ix2 (0 : Fin 1) g) = ∑ m ∈ Finset.range (5000 * n + 5000), cterm (garr V c) g m
  | 0, hn => by
    refine (cnts_first V c ⟨0, hn⟩ rfl g).trans ?_
    rw [tile_cnt V c ⟨0, hn⟩ g, Finset.sum_range_add, Finset.sum_range_zero, zero_add]
  | n + 1, hn => by
    have hN : n + 1 < 20 := lt_of_lt_of_eq hn N_3
    refine (cnts_step V c ⟨n + 1, hn⟩ (by dsimp only; omega) g).trans ?_
    rw [tile_cnt V c ⟨n + 1, hn⟩ g]
    show (outsAt3 V c n _).2 (ix2 (0 : Fin 1) g) + _ = _
    rw [cnts_inv c g n (Nat.lt_of_succ_lt hn), Finset.sum_range_add _ (5000 * (n + 1)) 5000]
    rfl

/-! ### From the last point's write-back to the arrays -/

/-- The last of the 20 points: the only one whose staging buffers are written back. -/
abbrev tLast : Fin cfg3.N := ⟨19, by decide⟩

/-- What the two accumulators hold after the last point, as contents of the two result arrays. -/
abbrev res2 (c : Dev nD) : Buf (Elt Ideal) ((c : Thread nD τ).loc main_v33_0) := (outsAt3 V c 19 (by decide)).1
abbrev res3 (c : Dev nD) : Buf (Elt Ideal) ((c : Thread nD τ).loc main_v33_1) := (outsAt3 V c 19 (by decide)).2

/-- Both outputs' blocks sit at block index (0, 0) at the last point. -/
theorem idx_o2 : (fun a => win3_2.index tLast a * main_v33_0.ty.shape.size a) = fun _ => 0 := funext fun a => by fin_cases a <;> decide
theorem idx_o3 : (fun a => win3_3.index tLast a * main_v33_1.ty.shape.size a) = fun _ => 0 := funext fun a => by fin_cases a <;> decide

/-- The one write-back of the sums writes the whole array: its block at index (0, 0) read through zero offsets. -/
theorem flushed2_eq (c : Dev nD) (t : Fin cfg3.N) (hf : (cfg3.win 2).flush t = true) :
    (dat3 V c).flushed 2 t = ((cfg3.win 2).blk t).view.read (Elt Ideal) (res2 V c) := by
  have hN : t.val < 20 := lt_of_lt_of_eq t.isLt N_3
  have h19 : t.val = 19 := by have := (flush3_2 t).mp hf; omega
  obtain rfl : t = tLast := Fin.ext h19
  show (cfg3.win 2).cut (grid3.coords tLast) ((dat3 V c).after 2 tLast) = _
  rw [after3_2]
  exact (Memref.read_access_unit_zero (Elt Ideal) main_v33_0 idx_o2 (fun a => by rw [congrFun idx_o2 a]; simp) (res2 V c)).symm
theorem flushed3_eq (c : Dev nD) (t : Fin cfg3.N) (hf : (cfg3.win 3).flush t = true) :
    (dat3 V c).flushed 3 t = ((cfg3.win 3).blk t).view.read (Elt Ideal) (res3 V c) := by
  have hN : t.val < 20 := lt_of_lt_of_eq t.isLt N_3
  have h19 : t.val = 19 := by have := (flush3_3 t).mp hf; omega
  obtain rfl : t = tLast := Fin.ext h19
  show (cfg3.win 3).cut (grid3.coords tLast) ((dat3 V c).after 3 tLast) = _
  rw [after3_3]
  exact (Memref.read_access_unit_zero (Elt Ideal) main_v33_1 idx_o3 (fun a => by rw [congrFun idx_o3 a]; simp) (res3 V c)).symm

/-- So each result array ends holding what its accumulator held after the last point: that point's block covers it. -/
theorem final2 (c : Dev nD) : (dat3 V c).arrAt 2 cfg3.N = res2 V c :=
  (dat3 V c).arrAt_eq_of_cover 2 (res2 V c) (flushed2_eq V c) fun i =>
    ⟨tLast, (flush3_2 tLast).mpr rfl, by
      show i ∈ ((View.whole main_v33_0).slice (win3_2.rect tLast)).set
      rw [View.set_slice_whole, Rect.mem_set_unit]
      have h0 : (i 0 : Nat) < 64 := (i 0).isLt
      have h1 : (i 1 : Nat) < 1024 := (i 1).isLt
      have e0 : win3_2.index tLast 0 * win3_2.size 0 = 0 := by decide +kernel
      have e1 : win3_2.index tLast 1 * win3_2.size 1 = 0 := by decide +kernel
      have s0 : win3_2.xsize (grid3.coords tLast) 0 = 64 := by decide +kernel
      have s1 : win3_2.xsize (grid3.coords tLast) 1 = 1024 := by decide +kernel
      refine Fin.forall_fin_two.mpr ⟨?_, ?_⟩
      · show win3_2.index tLast 0 * win3_2.size 0 ≤ (i 0 : Nat) ∧ (i 0 : Nat) < win3_2.index tLast 0 * win3_2.size 0 + win3_2.xsize (grid3.coords tLast) 0
        rw [e0, s0]; omega
      · show win3_2.index tLast 1 * win3_2.size 1 ≤ (i 1 : Nat) ∧ (i 1 : Nat) < win3_2.index tLast 1 * win3_2.size 1 + win3_2.xsize (grid3.coords tLast) 1
        rw [e1, s1]; omega⟩
theorem final3 (c : Dev nD) : (dat3 V c).arrAt 3 cfg3.N = res3 V c :=
  (dat3 V c).arrAt_eq_of_cover 3 (res3 V c) (flushed3_eq V c) fun i =>
    ⟨tLast, (flush3_3 tLast).mpr rfl, by
      show i ∈ ((View.whole main_v33_1).slice (win3_3.rect tLast)).set
      rw [View.set_slice_whole, Rect.mem_set_unit]
      have h0 : (i 0 : Nat) < 1 := (i 0).isLt
      have h1 : (i 1 : Nat) < 1024 := (i 1).isLt
      have e0 : win3_3.index tLast 0 * win3_3.size 0 = 0 := by decide +kernel
      have e1 : win3_3.index tLast 1 * win3_3.size 1 = 0 := by decide +kernel
      have s0 : win3_3.xsize (grid3.coords tLast) 0 = 1 := by decide +kernel
      have s1 : win3_3.xsize (grid3.coords tLast) 1 = 1024 := by decide +kernel
      refine Fin.forall_fin_two.mpr ⟨?_, ?_⟩
      · show win3_3.index tLast 0 * win3_3.size 0 ≤ (i 0 : Nat) ∧ (i 0 : Nat) < win3_3.index tLast 0 * win3_3.size 0 + win3_3.xsize (grid3.coords tLast) 0
        rw [e0, s0]; omega
      · show win3_3.index tLast 1 * win3_3.size 1 ≤ (i 1 : Nat) ∧ (i 1 : Nat) < win3_3.index tLast 1 * win3_3.size 1 + win3_3.xsize (grid3.coords tLast) 1
        rw [e1, s1]; omega⟩

/-- All 100000 terms are the sum over the nodes. -/
theorem term_total (h : Vec Ideal S100000x64 .f32) (g2 : Vec Ideal S100000x1 .i32) (f : Fin 64) (g : Fin 1024) :
    ∑ m ∈ Finset.range 100000, term h g2 f g m = nodeSum h g2 f g := by
  rw [← Fin.sum_univ_eq_sum_range]
  exact Finset.sum_congr rfl fun m _ => dif_pos m.isLt
theorem cterm_total (g2 : Vec Ideal S100000x1 .i32) (g : Fin 1024) :
    ∑ m ∈ Finset.range 100000, cterm g2 g m = nodeCnt g2 g := by
  rw [← Fin.sum_univ_eq_sum_range]
  exact Finset.sum_congr rfl fun m _ => dif_pos m.isLt

end R3

/-- After pallas_call 3 the sums array (features × graphs) holds, at (f, g), the sum of feature f over the nodes of
    graph g: the accumulator is zeroed at the first of the 20 node tiles and each tile adds its own partial sum. -/
theorem readout2_sum (V : (c : Dev nD) → (b : Ref sig .tc) → Buf (Elt Ideal) ((c : Thread nD τ).loc b)) (c : Dev nD) (f : Fin 64) (g : Fin 1024) :
    (dat3 (F := Ideal) V c).arrAt 2 cfg3.N (ix2 f g) = nodeSum (V c main_v32) (V c main_v0) f g := by
  refine (congrFun (R3.final2 V c) (ix2 f g)).trans ?_
  refine (R3.sums_inv V c f g 19 (by decide)).trans ?_
  exact R3.term_total (V c main_v32) (V c main_v0) f g

/-- After pallas_call 3 the counts array (1 × graphs) holds, at (0, g), the number of nodes of graph g. -/
theorem readout2_cnt (V : (c : Dev nD) → (b : Ref sig .tc) → Buf (Elt Ideal) ((c : Thread nD τ).loc b)) (c : Dev nD) (g : Fin 1024) :
    (dat3 (F := Ideal) V c).arrAt 3 cfg3.N (ix2 (0 : Fin 1) g) = nodeCnt (V c main_v0) g := by
  refine (congrFun (R3.final3 V c) (ix2 (0 : Fin 1) g)).trans ?_
  refine (R3.cnts_inv V c g 19 (by decide)).trans ?_
  exact R3.cterm_total (V c main_v0) g

end Cert.KernelValue

end
-- ==== Proof.HeadLayers.lean ====
/- The dense head's pallas_call (one grid point, every operand whole), as a whole-array value. -/
import proofs.«406926_j64544768525161_1_alg».proof.Proof.Gen.KernelIdeal.Frame
import proofs.«406926_j64544768525161_1_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

set_option maxRecDepth 16384

noncomputable section

namespace Cert.KernelValue

open Idealize.ShloMosaic Idealize.ShloMosaic.TcCoe Idealize.ShloMosaic.ValueIdx Idealize.SL.Sem Cert.KernelIdeal Cert.KernelIdeal.Gen
open Idealize.ShloMosaic.Pipeline (Dat Cfg Window)
open scoped BigOperators

namespace HeadCall

/-! ## One layer, function against function

Each layer of the head is h ↦ (h narrowed to bf16) · (w narrowed to bf16) + b, the bias a one-row matrix laid down the
rows, followed (but for the last layer) by a maximum with zero. At the exact values a narrowing is the identity, the
matrix unit's product into a zero accumulator is the sum over the contraction index that the host's product is, the
vector unit's broadcast of a row is the host's broadcast in dimensions 0 and 1, and the splat of the scalar zero is the
host's broadcast of the zero constant. -/

/-- A one-row matrix laid down `m` rows: at (p, q) both broadcasts read the row at q. -/
theorem broadcastTo_oneRow {α : Type} {m n : Nat} (b : (⟨2, ![1, n]⟩ : Shape).Idx → α)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ b hb = broadcastInDim ⟨2, ![m, n]⟩ ![0, 1] hd b := by
  funext i
  obtain ⟨p, q, rfl⟩ : ∃ (p : Fin m) (q : Fin n), i = ix2 p q := ⟨i 0, i 1, eq_ix2 i⟩
  rw [broadcastTo_1b_ab_apply, broadcastInDim_oneRow_apply]

/-- The product of two operands narrowed to bf16, accumulated into zero, is the host's product of the operands: the same
    sum of products over the contraction index, entry by entry. -/
theorem matmul_narrowed {sl sr so : Shape} (d d' : DotDims sl sr so) (hdd : d = d') (hlt : FTy.bits .bf16 < FTy.bits .f32)
    (h : FVec Ideal sl .f32) (w : FVec Ideal sr .f32) :
    matmul (F := Ideal) d none (truncf .bf16 h hlt) (truncf .bf16 w hlt) (constant (F := Ideal) so .f32 0x00000000#32)
      = Host.dotGeneral (F := Ideal) d' none h w := by
  subst hdd
  funext j
  simp only [Host.dotGeneral, matmul]
  rw [Ideal.matmul_constant_zero_apply, Ideal.dotGeneral_apply]
  rfl

/-- An affine layer: the narrowed product plus the bias row down the rows is the host's product plus the bias broadcast. -/
theorem affine_layer {m k n : Nat} (d d' : DotDims ⟨2, ![m, k]⟩ ⟨2, ![k, n]⟩ ⟨2, ![m, n]⟩) (hdd : d = d')
    (hlt : FTy.bits .bf16 < FTy.bits .f32) (hc : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1])
    (h : FVec Ideal ⟨2, ![m, k]⟩ .f32) (w : FVec Ideal ⟨2, ![k, n]⟩ .f32) (b : FVec Ideal ⟨2, ![1, n]⟩ .f32) :
    addf (matmul (F := Ideal) d none (truncf .bf16 h hlt) (truncf .bf16 w hlt) (constant (F := Ideal) ⟨2, ![m, n]⟩ .f32 0x00000000#32))
        (broadcastTo ⟨2, ![m, n]⟩ (shapeCast ⟨2, ![1, n]⟩ b hc) hb)
      = addf (Host.dotGeneral (F := Ideal) d' none h w) (broadcastInDim ⟨2, ![m, n]⟩ ![0, 1] hd b) := by
  rw [shapeCast_self, broadcastTo_oneRow b hb hd, matmul_narrowed d d' hdd]

/-- The maximum with the splat of the scalar zero is the maximum with the host's broadcast of the zero constant. -/
theorem relu_zero {s : Shape} (hz : (⟨0, ![]⟩ : Shape).BroadcastsInDim s ![]) (x : FVec Ideal s .f32) :
    maximumf x (broadcast s (Scalar.ofBits (F := Ideal) .f32 0x00000000#32))
      = maximumf x (broadcastInDim s ![] hz (constant (F := Ideal) ⟨0, ![]⟩ .f32 0x00000000#32)) := by
  rw [broadcastInDim_constant]

/-! ## The body against the head -/

/-- The kernel body's result, of the loaded arrays, is the head of them: the seven layers rewritten one by one, the
    innermost first. -/
theorem body_eq (x0 : FVec Ideal S1024x80 .f32) (x1 : FVec Ideal S80x256 .f32) (x2 : FVec Ideal S1x256 .f32)
    (x3 : FVec Ideal S256x128 .f32) (x4 : FVec Ideal S1x128 .f32) (x5 : FVec Ideal S128x128 .f32) (x6 : FVec Ideal S1x128 .f32)
    (x7 : FVec Ideal S128x64 .f32) (x8 : FVec Ideal S1x64 .f32) (x9 : FVec Ideal S64x64 .f32) (x10 : FVec Ideal S1x64 .f32)
    (x11 : FVec Ideal S64x32 .f32) (x12 : FVec Ideal S1x32 .f32) (x13 : FVec Ideal S32x1 .f32) (x14 : FVec Ideal S1x1 .f32) :
    k4_pay1 (F := Ideal) (k4_pay2 x0 x1 x2 x3 x4 x5 x6) (k4_pay3 x7) x8 x9 x10 x11 x12 x13 x14
      = Cert.Spec.head x0 x1 x2 x3 x4 x5 x6 x7 x8 x9 x10 x11 x12 x13 x14 := by
  unfold k4_pay1 k4_pay2 k4_pay3 Cert.Spec.head
  dsimp only
  rw [shapeCast_self x0]
  -- layer 0
  rw [affine_layer Cert.KernelIdeal.dot_S1024x80_S80x256_S1024x256_1_0_0_1_n_n Cert.ReferenceIdeal.dot_S1024x80_S80x256_S1024x256_1_0_0_1_n_n rfl _ _ _ Cert.ReferenceIdeal.Gen.bcast_S1x256_S1024x256_0_1]
  rw [relu_zero Cert.ReferenceIdeal.Gen.bcast_S_S1024x256]
  -- layer 1
  rw [affine_layer Cert.KernelIdeal.dot_S1024x256_S256x128_S1024x128_1_0_0_1_n_n Cert.ReferenceIdeal.dot_S1024x256_S256x128_S1024x128_1_0_0_1_n_n rfl _ _ _ Cert.ReferenceIdeal.Gen.bcast_S1x128_S1024x128_0_1]
  rw [relu_zero Cert.ReferenceIdeal.Gen.bcast_S_S1024x128]
  -- layer 2
  rw [affine_layer Cert.KernelIdeal.dot_S1024x128_S128x128_S1024x128_1_0_0_1_n_n Cert.ReferenceIdeal.dot_S1024x128_S128x128_S1024x128_1_0_0_1_n_n rfl _ _ _ Cert.ReferenceIdeal.Gen.bcast_S1x128_S1024x128_0_1]
  rw [relu_zero Cert.ReferenceIdeal.Gen.bcast_S_S1024x128]
  -- layer 3
  rw [affine_layer Cert.KernelIdeal.dot_S1024x128_S128x64_S1024x64_1_0_0_1_n_n Cert.ReferenceIdeal.dot_S1024x128_S128x64_S1024x64_1_0_0_1_n_n rfl _ _ _ Cert.ReferenceIdeal.Gen.bcast_S1x64_S1024x64_0_1]
  rw [relu_zero Cert.ReferenceIdeal.Gen.bcast_S_S1024x64]
  -- layer 4
  rw [affine_layer Cert.KernelIdeal.dot_S1024x64_S64x64_S1024x64_1_0_0_1_n_n Cert.ReferenceIdeal.dot_S1024x64_S64x64_S1024x64_1_0_0_1_n_n rfl _ _ _ Cert.ReferenceIdeal.Gen.bcast_S1x64_S1024x64_0_1]
  rw [relu_zero Cert.ReferenceIdeal.Gen.bcast_S_S1024x64]
  -- layer 5
  rw [affine_layer Cert.KernelIdeal.dot_S1024x64_S64x32_S1024x32_1_0_0_1_n_n Cert.ReferenceIdeal.dot_S1024x64_S64x32_S1024x32_1_0_0_1_n_n rfl _ _ _ Cert.ReferenceIdeal.Gen.bcast_S1x32_S1024x32_0_1]
  rw [relu_zero Cert.ReferenceIdeal.Gen.bcast_S_S1024x32]
  -- layer 6
  rw [affine_layer Cert.KernelIdeal.dot_S1024x32_S32x1_S1024x1_1_0_0_1_n_n Cert.ReferenceIdeal.dot_S1024x32_S32x1_S1024x1_1_0_0_1_n_n rfl _ _ _ Cert.ReferenceIdeal.Gen.bcast_S1x1_S1024x1_0_1]

/-! ## From the one block to the array

The call has one grid point and every window's block is its whole array: each index map is constantly zero, so an
element of a block sits in the array at 0 × size + 1 × its own coordinate, its own index. -/

/-- The zero offsets of a whole-buffer access are the constant zero. -/
theorem zero_offsets : (![0, 0] : Fin 2 → Nat) = fun _ => 0 := funext fun a => by fin_cases a <;> rfl

/-- Every window's block index at the one grid point is zero on every axis (decided over the windows, the point and
    the axes). -/
theorem index_zero : ∀ (w : Fin cfg4.W) (t : Fin cfg4.N) (a : Fin (cfg4.win w).shape.rank), (cfg4.win w).index t a = 0 :=
  (by decide +kernel : ∀ (w : Fin 16) (t : Fin grid4.N) (a : Fin (win4 w).shape.rank), (win4 w).index t a = 0)

/-- So an element of a window's block is, in the array, at its own index. -/
theorem blk_emb (w : Fin cfg4.W) (t : Fin cfg4.N) (y : ((cfg4.win w).xblock (cfg4.grid.coords t)).Idx)
    (a : Fin (cfg4.win w).shape.rank) : (((cfg4.win w).rect t).emb y a : Nat) = y a :=
  (cfg4.win w).rect_emb_val_of_index_zero t a (index_zero w t a) y

/-- What the body leaves in the result buffer, of the input blocks, is the head of them: its one store covers the
    buffer, each load reads a whole block, and the payload is the head. -/
theorem out_eq (x0 : FVec Ideal S1024x80 .f32) (x1 : FVec Ideal S80x256 .f32) (x2 : FVec Ideal S1x256 .f32) (x3 : FVec Ideal S256x128 .f32) (x4 : FVec Ideal S1x128 .f32)
    (x5 : FVec Ideal S128x128 .f32) (x6 : FVec Ideal S1x128 .f32) (x7 : FVec Ideal S128x64 .f32) (x8 : FVec Ideal S1x64 .f32) (x9 : FVec Ideal S64x64 .f32)
    (x10 : FVec Ideal S1x64 .f32) (x11 : FVec Ideal S64x32 .f32) (x12 : FVec Ideal S1x32 .f32) (x13 : FVec Ideal S32x1 .f32) (x14 : FVec Ideal S1x1 .f32) :
    out4_15 (F := Ideal) x0 x1 x2 x3 x4 x5 x6 x7 x8 x9 x10 x11 x12 x13 x14 = Cert.Spec.head x0 x1 x2 x3 x4 x5 x6 x7 x8 x9 x10 x11 x12 x13 x14 := by
  unfold out4_15
  rw [View.canon_unit_zero zero_offsets]
  simp only [View.ld_unit_zero (S := S1024x80) zero_offsets,
    View.ld_unit_zero (S := S80x256) zero_offsets,
    View.ld_unit_zero (S := S1x256) zero_offsets,
    View.ld_unit_zero (S := S256x128) zero_offsets,
    View.ld_unit_zero (S := S1x128) zero_offsets,
    View.ld_unit_zero (S := S128x128) zero_offsets,
    View.ld_unit_zero (S := S128x64) zero_offsets,
    View.ld_unit_zero (S := S1x64) zero_offsets,
    View.ld_unit_zero (S := S64x64) zero_offsets,
    View.ld_unit_zero (S := S64x32) zero_offsets,
    View.ld_unit_zero (S := S1x32) zero_offsets,
    View.ld_unit_zero (S := S32x1) zero_offsets,
    View.ld_unit_zero (S := S1x1) zero_offsets]
  exact body_eq x0 x1 x2 x3 x4 x5 x6 x7 x8 x9 x10 x11 x12 x13 x14

section
variable (V : (c : Dev nD) → (b : Ref sig .tc) → Buf (Elt Ideal) ((c : Thread nD τ).loc b)) (c : Dev nD) (t : Fin cfg4.N)

/-! Each input window's block at the point is the array the window stages, index for index. -/

theorem iblk_0 : (iblk4 V c 0 t : S1024x80.Idx → Ideal .f32) = V c main_v41 := by
  funext y
  show V c main_v41 (((cfg4.win 0).blk t).view.emb y) = V c main_v41 y
  exact congrArg _ (funext fun a => Fin.ext (blk_emb 0 t y a))
theorem iblk_1 : (iblk4 V c 1 t : S80x256.Idx → Ideal .f32) = V c main_arg13 := by
  funext y
  show V c main_arg13 (((cfg4.win 1).blk t).view.emb y) = V c main_arg13 y
  exact congrArg _ (funext fun a => Fin.ext (blk_emb 1 t y a))
theorem iblk_2 : (iblk4 V c 2 t : S1x256.Idx → Ideal .f32) = V c main_v42 := by
  funext y
  show V c main_v42 (((cfg4.win 2).blk t).view.emb y) = V c main_v42 y
  exact congrArg _ (funext fun a => Fin.ext (blk_emb 2 t y a))
theorem iblk_3 : (iblk4 V c 3 t : S256x128.Idx → Ideal .f32) = V c main_arg15 := by
  funext y
  show V c main_arg15 (((cfg4.win 3).blk t).view.emb y) = V c main_arg15 y
  exact congrArg _ (funext fun a => Fin.ext (blk_emb 3 t y a))
theorem iblk_4 : (iblk4 V c 4 t : S1x128.Idx → Ideal .f32) = V c main_v43 := by
  funext y
  show V c main_v43 (((cfg4.win 4).blk t).view.emb y) = V c main_v43 y
  exact congrArg _ (funext fun a => Fin.ext (blk_emb 4 t y a))
theorem iblk_5 : (iblk4 V c 5 t : S128x128.Idx → Ideal .f32) = V c main_arg17 := by
  funext y
  show V c main_arg17 (((cfg4.win 5).blk t).view.emb y) = V c main_arg17 y
  exact congrArg _ (funext fun a => Fin.ext (blk_emb 5 t y a))
theorem iblk_6 : (iblk4 V c 6 t : S1x128.Idx → Ideal .f32) = V c main_v44 := by
  funext y
  show V c main_v44 (((cfg4.win 6).blk t).view.emb y) = V c main_v44 y
  exact congrArg _ (funext fun a => Fin.ext (blk_emb 6 t y a))
theorem iblk_7 : (iblk4 V c 7 t : S128x64.Idx → Ideal .f32) = V c main_arg19 := by
  funext y
  show V c main_arg19 (((cfg4.win 7).blk t).view.emb y) = V c main_arg19 y
  exact congrArg _ (funext fun a => Fin.ext (blk_emb 7 t y a))
theorem iblk_8 : (iblk4 V c 8 t : S1x64.Idx → Ideal .f32) = V c main_v45 := by
  funext y
  show V c main_v45 (((cfg4.win 8).blk t).view.emb y) = V c main_v45 y
  exact congrArg _ (funext fun a => Fin.ext (blk_emb 8 t y a))
theorem iblk_9 : (iblk4 V c 9 t : S64x64.Idx → Ideal .f32) = V c main_arg21 := by
  funext y
  show V c main_arg21 (((cfg4.win 9).blk t).view.emb y) = V c main_arg21 y
  exact congrArg _ (funext fun a => Fin.ext (blk_emb 9 t y a))
theorem iblk_10 : (iblk4 V c 10 t : S1x64.Idx → Ideal .f32) = V c main_v46 := by
  funext y
  show V c main_v46 (((cfg4.win 10).blk t).view.emb y) = V c main_v46 y
  exact congrArg _ (funext fun a => Fin.ext (blk_emb 10 t y a))
theorem iblk_11 : (iblk4 V c 11 t : S64x32.Idx → Ideal .f32) = V c main_arg23 := by
  funext y
  show V c main_arg23 (((cfg4.win 11).blk t).view.emb y) = V c main_arg23 y
  exact congrArg _ (funext fun a => Fin.ext (blk_emb 11 t y a))
theorem iblk_12 : (iblk4 V c 12 t : S1x32.Idx → Ideal .f32) = V c main_v47 := by
  funext y
  show V c main_v47 (((cfg4.win 12).blk t).view.emb y) = V c main_v47 y
  exact congrArg _ (funext fun a => Fin.ext (blk_emb 12 t y a))
theorem iblk_13 : (iblk4 V c 13 t : S32x1.Idx → Ideal .f32) = V c main_arg25 := by
  funext y
  show V c main_arg25 (((cfg4.win 13).blk t).view.emb y) = V c main_arg25 y
  exact congrArg _ (funext fun a => Fin.ext (blk_emb 13 t y a))
theorem iblk_14 : (iblk4 V c 14 t : S1x1.Idx → Ideal .f32) = V c main_v48 := by
  funext y
  show V c main_v48 (((cfg4.win 14).blk t).view.emb y) = V c main_v48 y
  exact congrArg _ (funext fun a => Fin.ext (blk_emb 14 t y a))

/-- What the one point writes back is its block of the head of the arrays the call is entered with: the body leaves
    the head of the input blocks, each input block is its array, and the block of the result is the whole result. -/
theorem flushed_eq : (dat4 (F := Ideal) V c).flushed 15 t
    = ((cfg4.win 15).blk t).view.read (Elt Ideal)
        (Cert.Spec.head (V c main_v41) (V c main_arg13) (V c main_v42) (V c main_arg15) (V c main_v43) (V c main_arg17) (V c main_v44)
          (V c main_arg19) (V c main_v45) (V c main_arg21) (V c main_v46) (V c main_arg23) (V c main_v47) (V c main_arg25) (V c main_v48)) := by
  show (cfg4.win 15).cut (grid4.coords t) ((dat4 (F := Ideal) V c).after 15 t) = _
  rw [after4_15, out_eq]
  simp only [iblk_0 V c t, iblk_1 V c t, iblk_2 V c t, iblk_3 V c t, iblk_4 V c t, iblk_5 V c t, iblk_6 V c t, iblk_7 V c t, iblk_8 V c t, iblk_9 V c t, iblk_10 V c t, iblk_11 V c t, iblk_12 V c t, iblk_13 V c t, iblk_14 V c t]
  funext j
  show Cert.Spec.head (V c main_v41) (V c main_arg13) (V c main_v42) (V c main_arg15) (V c main_v43) (V c main_arg17) (V c main_v44) (V c main_arg19) (V c main_v45) (V c main_arg21) (V c main_v46) (V c main_arg23) (V c main_v47) (V c main_arg25) (V c main_v48) j
    = Cert.Spec.head (V c main_v41) (V c main_arg13) (V c main_v42) (V c main_arg15) (V c main_v43) (V c main_arg17) (V c main_v44) (V c main_arg19) (V c main_v45) (V c main_arg21) (V c main_v46) (V c main_arg23) (V c main_v47) (V c main_arg25) (V c main_v48) (((cfg4.win 15).blk t).view.emb j)
  exact congrArg _ (funext fun a => Fin.ext (blk_emb 15 t j a)).symm

end

/-- Every index of the result array is in a point's block: the block starts at zero and has the array's extents. -/
theorem mem_blk (t : Fin cfg4.N) (i : S1024x1.Idx) : i ∈ ((cfg4.win 15).blk t).view.set := by
  show i ∈ ((View.whole main_v49).slice (win4_15.rect t)).set
  rw [View.set_slice_whole, Rect.mem_set_unit]
  intro a
  have h0 : win4_15.index t a = 0 := index_zero 15 t a
  have hi : (i a).val < S1024x1.size a := (i a).isLt
  constructor
  · show win4_15.index t a * S1024x1.size a ≤ (i a).val
    rw [h0, Nat.zero_mul]; exact Nat.zero_le _
  · show (i a).val < win4_15.index t a * S1024x1.size a + S1024x1.size a
    rw [h0, Nat.zero_mul, Nat.zero_add]; exact hi

/-- The one point's block covers the result array. -/
theorem covered (i : S1024x1.Idx) : ∃ t : Fin cfg4.N, (cfg4.win 15).flush t = true ∧ i ∈ ((cfg4.win 15).blk t).view.set :=
  ⟨⟨0, by decide⟩, flush4_15 _, mem_blk _ i⟩

end HeadCall

open HeadCall in
/-- After pallas_call 4 the result array holds the seven-layer head of the arrays the call was entered with. -/
theorem head (V : (c : Dev nD) → (b : Ref sig .tc) → Buf (Elt Ideal) ((c : Thread nD τ).loc b)) (c : Dev nD) :
    (dat4 (F := Ideal) V c).arrAt 15 cfg4.N
      = Cert.Spec.head (V c main_v41) (V c main_arg13) (V c main_v42) (V c main_arg15) (V c main_v43) (V c main_arg17) (V c main_v44)
          (V c main_arg19) (V c main_v45) (V c main_arg21) (V c main_v46) (V c main_arg23) (V c main_v47) (V c main_arg25) (V c main_v48) :=
  (dat4 (F := Ideal) V c).arrAt_eq_of_cover 15 _ (fun t _ => flushed_eq V c t) covered

end Cert.KernelValue

end
-- ==== Proof.SegSums.lean ====
/- The reference's per-graph sums (a scatter-add of the node rows at their graph ids) read at an index. -/
import proofs.«406926_j64544768525161_1_alg».proof.Proof.NodeSums
import Idealize.ShloMosaic.Lib.IdealHost

noncomputable section

namespace Cert.Readout

open Idealize.ShloMosaic Idealize.ShloMosaic.ValueIdx Cert.ReferenceIdeal Cert.ReferenceIdeal.Gen
open scoped BigOperators

/-! ## Words and indices -/

/-- A 32-bit word read signed is the graph number g exactly when it is g's word (g is below 1024, so g's word is not
    negative and reads back as g). -/
theorem toInt_eq_iff (w : BitVec 32) (g : Fin 1024) : w.toInt = (g.val : ℤ) ↔ w = BitVec.ofNat 32 g.val := by
  have hg : (BitVec.ofNat 32 g.val).toInt = (g.val : ℤ) := by
    have := g.isLt
    rw [BitVec.toInt_eq_toNat_of_lt (by rw [BitVec.toNat_ofNat]; omega), BitVec.toNat_ofNat]
    omega
  constructor
  · intro h; exact BitVec.eq_of_toInt_eq (h.trans hg.symm)
  · rintro rfl; exact hg

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (F : (⟨1, ![n]⟩ : Shape).Idx → M) :
    ∑ i, F i = ∑ a : Fin n, F (ix1 a) := by
  rw [← Equiv.sum_comp (idxEquiv1 (n := n)).symm F]
  rfl

/-! ## The scatter of the node rows: where an update element lands

The operand is graphs × features, the updates nodes × features, the ids a column. The update's feature axis is the
window axis and goes to the operand's feature axis; the operand's graph axis is the inserted one and takes its start from
the id of the update's node, read signed. -/

/-- The dimension numbers of the scatter of the node rows. -/
abbrev rowDims := scatter_S1024x64_S100000x1_S100000x64_1_0_0_1

/-- On the graph axis the start is the node's id read signed. -/
theorem rowDims_start0 (n : Fin 100000) (f' : Fin 64) (idx : IVec S100000x1 32) :
    rowDims.start (ix2 n f') idx 0 = (idx (ix2 n 0)).toInt := by
  unfold ScatterDims.start
  rw [dif_pos (show (0 : Fin S1024x64.rank) ∈ rowDims.scatterDimsToOperandDims from List.mem_singleton.mpr rfl)]
  congr 2
  funext b
  match b with
  | ⟨0, _⟩ => rfl
  | ⟨1, _⟩ => rfl

/-- On the feature axis the start is 0: the index map does not name it. -/
theorem rowDims_start1 (n : Fin 100000) (f' : Fin 64) (idx : IVec S100000x1 32) :
    rowDims.start (ix2 n f') idx 1 = 0 := by
  unfold ScatterDims.start
  rw [dif_neg (show ¬ (1 : Fin S1024x64.rank) ∈ rowDims.scatterDimsToOperandDims by decide)]

/-- On the graph axis the window coordinate is 0: the axis is an inserted one. -/
theorem rowDims_window0 (n : Fin 100000) (f' : Fin 64) : rowDims.window (ix2 n f') 0 = 0 := by
  unfold ScatterDims.window
  rw [dif_neg (show ¬ (0 : Fin S1024x64.rank) ∈ rowDims.sKept by decide)]

/-- On the feature axis the window coordinate is the update's feature. -/
theorem rowDims_window1 (n : Fin 100000) (f' : Fin 64) : rowDims.window (ix2 n f') 1 = f'.val := by
  unfold ScatterDims.window
  rw [dif_pos (show (1 : Fin S1024x64.rank) ∈ rowDims.sKept by decide)]
  rfl

/-- Update element (n, f') of the rows lands at (g, f) exactly when node n's id, read signed, is g and f' = f. -/
theorem rowDims_resultIdx_iff (n : Fin 100000) (f' : Fin 64) (idx : IVec S100000x1 32) (g : Fin 1024) (f : Fin 64) :
    rowDims.resultIdx? (ix2 n f') idx = some (ix2 g f) ↔ ((idx (ix2 n 0)).toInt = (g.val : ℤ) ∧ f' = f) := by
  have hg := g.isLt
  have hf := f.isLt
  have hf' := f'.isLt
  unfold ScatterDims.resultIdx?
  split_ifs with hr
  · rw [Option.some.injEq]
    have h0 := hr 0
    rw [rowDims_start0, rowDims_window0] at h0
    constructor
    · intro e
      have e0 := congrArg Fin.val (congrFun e 0)
      have e1 := congrArg Fin.val (congrFun e 1)
      simp only [rowDims_start0, rowDims_window0, rowDims_start1, rowDims_window1] at e0 e1
      refine ⟨?_, Fin.ext ?_⟩
      · have : ((idx (ix2 n 0)).toInt + ((0 : ℕ) : ℤ)).toNat = g.val := e0
        omega
      · have : ((0 : ℤ) + (f'.val : ℤ)).toNat = f.val := e1
        omega
    · rintro ⟨h1, rfl⟩
      funext a
      match a with
      | ⟨0, _⟩ =>
        apply Fin.ext
        show (rowDims.start (ix2 n f') idx 0 + (rowDims.window (ix2 n f') 0 : ℕ)).toNat = g.val
        rw [rowDims_start0, rowDims_window0]; omega
      | ⟨1, _⟩ =>
        apply Fin.ext
        show (rowDims.start (ix2 n f') idx 1 + (rowDims.window (ix2 n f') 1 : ℕ)).toNat = f'.val
        rw [rowDims_start1, rowDims_window1]; omega
  · constructor
    · intro e; cases e
    · rintro ⟨h1, rfl⟩
      exfalso; apply hr
      intro a
      match a with
      | ⟨0, _⟩ =>
        show 0 ≤ rowDims.start (ix2 n f') idx 0 + (rowDims.window (ix2 n f') 0 : ℕ)
          ∧ rowDims.start (ix2 n f') idx 0 + (rowDims.window (ix2 n f') 0 : ℕ) < (1024 : ℕ)
        rw [rowDims_start0, rowDims_window0]; omega
      | ⟨1, _⟩ =>
        show 0 ≤ rowDims.start (ix2 n f') idx 1 + (rowDims.window (ix2 n f') 1 : ℕ)
          ∧ rowDims.start (ix2 n f') idx 1 + (rowDims.window (ix2 n f') 1 : ℕ) < (64 : ℕ)
        rw [rowDims_start1, rowDims_window1]; omega

/-- Entry (g, f) of the scatter-add of the node rows is the sum of feature f over the nodes whose id is g. -/
theorem segSum_apply (h : FVec Ideal S100000x64 .f32) (g2 : IVec S100000x1 32) (g : Fin 1024) (f : Fin 64) :
    Cert.Spec.segSum h g2 (ix2 g f) = nodeSum h g2 f g := by
  unfold Cert.Spec.segSum Host.scatterAdd nodeSum
  rw [Ideal.hostScatterAdd_def]
  unfold Ideal.hostScatterAdd
  -- the operand is the zero array
  rw [broadcastInDim_scalar_apply, constant_apply, Ideal.ofBits_zero_f32, zero_add]
  -- the sum over the update elements that land at (g, f), node by node and feature by feature
  rw [Finset.sum_filter, sum_idx2]
  refine Finset.sum_congr rfl fun n _ => ?_
  simp only [rowDims_resultIdx_iff]
  unfold isGraph
  by_cases hw : (g2 (ix2 n 0)).toInt = (g.val : ℤ)
  · rw [if_pos ((toInt_eq_iff _ _).mp hw), mul_one]
    simp only [hw, true_and]
    rw [Finset.sum_ite_eq' Finset.univ f, if_pos (Finset.mem_univ f)]
  · rw [if_neg (fun e => hw ((toInt_eq_iff _ _).mpr e)), mul_zero]
    simp only [hw, false_and, if_false, Finset.sum_const_zero]

/-! ## The scatter of ones: where an update element lands

The operand is the graphs, the updates one per node with no window axis; the operand's one axis is the inserted one and
takes its start from the node's id, read signed. -/

/-- The dimension numbers of the scatter of ones. -/
abbrev oneDims := scatter_S1024_S100000x1_S100000_n_0_0_1

/-- The start is the node's id read signed. -/
theorem oneDims_start0 (n : Fin 100000) (idx : IVec S100000x1 32) :
    oneDims.start (ix1 n) idx 0 = (idx (ix2 n 0)).toInt := by
  unfold ScatterDims.start
  rw [dif_pos (show (0 : Fin S1024.rank) ∈ oneDims.scatterDimsToOperandDims from List.mem_singleton.mpr rfl)]
  congr 2
  funext b
  match b with
  | ⟨0, _⟩ => rfl
  | ⟨1, _⟩ => rfl

/-- The window coordinate is 0: the one axis is an inserted one. -/
theorem oneDims_window0 (n : Fin 100000) : oneDims.window (ix1 n) 0 = 0 := by
  unfold ScatterDims.window
  rw [dif_neg (show ¬ (0 : Fin S1024.rank) ∈ oneDims.sKept by decide)]

/-- Update element n of the ones lands at g exactly when node n's id, read signed, is g. -/
theorem oneDims_resultIdx_iff (n : Fin 100000) (idx : IVec S100000x1 32) (g : Fin 1024) :
    oneDims.resultIdx? (ix1 n) idx = some (ix1 g) ↔ (idx (ix2 n 0)).toInt = (g.val : ℤ) := by
  have hg := g.isLt
  unfold ScatterDims.resultIdx?
  split_ifs with hr
  · rw [Option.some.injEq]
    have h0 := hr 0
    rw [oneDims_start0, oneDims_window0] at h0
    constructor
    · intro e
      have e0 := congrArg Fin.val (congrFun e 0)
      simp only [oneDims_start0, oneDims_window0] at e0
      have : ((idx (ix2 n 0)).toInt + ((0 : ℕ) : ℤ)).toNat = g.val := e0
      omega
    · intro h1
      funext a
      match a with
      | ⟨0, _⟩ =>
        apply Fin.ext
        show (oneDims.start (ix1 n) idx 0 + (oneDims.window (ix1 n) 0 : ℕ)).toNat = g.val
        rw [oneDims_start0, oneDims_window0]; omega
  · constructor
    · intro e; cases e
    · intro h1
      exfalso; apply hr
      intro a
      match a with
      | ⟨0, _⟩ =>
        show 0 ≤ oneDims.start (ix1 n) idx 0 + (oneDims.window (ix1 n) 0 : ℕ)
          ∧ oneDims.start (ix1 n) idx 0 + (oneDims.window (ix1 n) 0 : ℕ) < (1024 : ℕ)
        rw [oneDims_start0, oneDims_window0]; omega

/-- Entry g of the scatter-add of ones is the number of nodes whose id is g. -/
theorem segCnt_apply (g2 : IVec S100000x1 32) (g : Fin 1024) :
    Cert.Spec.segCnt g2 (ix1 g) = nodeCnt g2 g := by
  unfold Cert.Spec.segCnt Host.scatterAdd nodeCnt
  rw [Ideal.hostScatterAdd_def]
  unfold Ideal.hostScatterAdd
  -- the operand is the zero array
  rw [broadcastInDim_scalar_apply, constant_apply, Ideal.ofBits_zero_f32, zero_add]
  -- the sum over the update elements that land at g, node by node; each update element is 1
  rw [Finset.sum_filter, sum_idx1]
  refine Finset.sum_congr rfl fun n _ => ?_
  rw [broadcastInDim_scalar_apply, constant_apply, Ideal.ofBits_one_f32]
  unfold isGraph
  exact if_congr ((oneDims_resultIdx_iff n g2 g).trans (toInt_eq_iff _ _)) rfl rfl

end Cert.Readout

end
-- ==== Proof.ReadoutMean.lean ====
/- From the kernel's sums (features × graphs) and counts to the mean readout (graphs × features): the host divides by
   max(count, 1) and transposes; the reference divides its own per-graph sums by its own counts. Equal index by index. -/
import proofs.«406926_j64544768525161_1_alg».proof.Proof.Gen.KernelIdeal
import proofs.«406926_j64544768525161_1_alg».proof.Proof.SegSums
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost

noncomputable section

namespace Cert.KernelValue

open Idealize.ShloMosaic Idealize.ShloMosaic.ValueIdx Cert.KernelIdeal Cert.KernelIdeal.Gen Cert.Readout
open scoped BigOperators

/-! ## A column read at an index -/

/-- A column broadcast along b columns, read at (r, t), is the column at (r, 0). -/
theorem broadcastInDim_col_apply {α : Type} {a b : ℕ} (hbc : (⟨2, ![a, 1]⟩ : Shape).BroadcastsInDim ⟨2, ![a, b]⟩ ![0, 1])
    (y : (⟨2, ![a, 1]⟩ : Shape).Idx → α) (r : Fin a) (t : Fin b) :
    broadcastInDim ⟨2, ![a, b]⟩ ![0, 1] hbc y (ix2 r t) = y (ix2 r (0 : Fin 1)) := by
  refine broadcastInDim_apply ![0, 1] hbc y (ix2 r t) (ix2 r (0 : Fin 1)) ?_
  intro c
  match c with
  | ⟨0, _⟩ =>
    show r.val = if a = 1 then 0 else r.val
    split_ifs with ha
    · have := r.isLt; omega
    · rfl
  | ⟨1, _⟩ =>
    show (0 : ℕ) = if (1 : ℕ) = 1 then 0 else t.val
    rw [if_pos rfl]

/-- A vector stood up as a column, read at (r, 0), is the vector at r. -/
theorem broadcastInDim_vec_col_apply {α : Type} {a : ℕ} (hbc : (⟨1, ![a]⟩ : Shape).BroadcastsInDim ⟨2, ![a, 1]⟩ ![0])
    (y : (⟨1, ![a]⟩ : Shape).Idx → α) (r : Fin a) (z : Fin 1) :
    broadcastInDim ⟨2, ![a, 1]⟩ ![0] hbc y (ix2 r z) = y (ix1 r) := by
  refine broadcastInDim_apply ![0] hbc y (ix2 r z) (ix1 r) ?_
  intro c
  match c with
  | ⟨0, _⟩ =>
    show r.val = if a = 1 then 0 else r.val
    split_ifs with ha
    · have := r.isLt; omega
    · rfl

/-! ## The mean readout -/

/-- The reference's mean readout at (g, f): the sum of feature f over graph g's nodes over max(their number, 1). -/
theorem avgPool_apply (h : FVec Ideal Cert.ReferenceIdeal.S100000x64 .f32) (g2 : IVec Cert.ReferenceIdeal.S100000x1 32)
    (g : Fin 1024) (f : Fin 64) :
    Cert.Spec.avgPool h g2 (ix2 g f) = Ideal.div (nodeSum h g2 f g) (max (nodeCnt g2 g) 1) := by
  unfold Cert.Spec.avgPool
  rw [hostDivf_apply, segSum_apply, broadcastInDim_col_apply, broadcastInDim_vec_col_apply, maximumf_apply,
    segCnt_apply, broadcastInDim_scalar_apply, constant_apply, Ideal.ofBits_one_f32]

/-- Sums over max(counts, 1), transposed, is the mean readout of the node rows. -/
theorem mean_eq (h : FVec Ideal S100000x64 .f32) (g2 : IVec S100000x1 32) (A2 : FVec Ideal S64x1024 .f32) (A3 : FVec Ideal S1x1024 .f32)
    (h2 : ∀ (f : Fin 64) (g : Fin 1024), A2 (ix2 f g) = nodeSum h g2 f g)
    (h3 : ∀ g : Fin 1024, A3 (ix2 (0 : Fin 1) g) = nodeCnt g2 g) :
    transpose S1024x64 [1, 0] (Host.divf A2 (broadcastInDim S64x1024 ![0, 1] bcast_S1x1024_S64x1024_0_1
        (maximumf A3 (broadcastInDim S1x1024 ![] bcast_S_S1x1024 (constant S_ .f32 0x3F800000#32))))) transposes_S64x1024_S1024x64_1_0
      = Cert.Spec.avgPool h g2 := by
  funext i
  obtain ⟨g, f, rfl⟩ : ∃ (g : Fin 1024) (f : Fin 64), i = ix2 g f := ⟨i 0, i 1, eq_ix2 i⟩
  rw [avgPool_apply, transpose_ix2_apply, hostDivf_apply, broadcastInDim_oneRow_apply, maximumf_apply,
    broadcastInDim_scalar_apply, constant_apply, Ideal.ofBits_one_f32, h2, h3]

end Cert.KernelValue

end
-- ==== Proof.RowForms.lean ====
/- A vector reshaped to one row (or one column) is the vector broadcast along the new axis: the kernel's program
   reshapes its bias vectors and graph ids where the reference broadcasts them. -/
import proofs.«406926_j64544768525161_1_alg».proof.Proof.Gen.KernelIdeal
import proofs.«406926_j64544768525161_1_alg».proof.Proof.Spec
import Idealize.ShloMosaic.Lib.ValueIdx
import Idealize.ShloMosaic.Lib.Pipeline.Value
import Idealize.ShloMosaic.Lib.ValueLayout

noncomputable section

namespace Cert.KernelValue

open Idealize.ShloMosaic Idealize.ShloMosaic.ValueIdx Cert.KernelIdeal Cert.KernelIdeal.Gen

/-! ## The two spellings at an index -/

section
variable {α : Type}

/-- A vector laid as one row by a broadcast, read at (u, i), is the vector at i. -/
theorem rowBcast_apply {a : ℕ} (hbc : (⟨1, ![a]⟩ : Shape).BroadcastsInDim ⟨2, ![1, a]⟩ ![1])
    (y : (⟨1, ![a]⟩ : Shape).Idx → α) (u : Fin 1) (i : Fin a) :
    broadcastInDim ⟨2, ![1, a]⟩ ![1] hbc y (ix2 u i) = y (ix1 i) := by
  refine broadcastInDim_apply ![1] hbc y (ix2 u i) (ix1 i) ?_
  intro c
  match c with
  | ⟨0, _⟩ =>
    show i.val = if a = 1 then 0 else i.val
    split_ifs with ha
    · have := i.isLt; omega
    · rfl

/-- A vector stood up as one column by a broadcast, read at (i, u), is the vector at i. -/
theorem colBcast_apply {a : ℕ} (hbc : (⟨1, ![a]⟩ : Shape).BroadcastsInDim ⟨2, ![a, 1]⟩ ![0])
    (y : (⟨1, ![a]⟩ : Shape).Idx → α) (i : Fin a) (u : Fin 1) :
    broadcastInDim ⟨2, ![a, 1]⟩ ![0] hbc y (ix2 i u) = y (ix1 i) := by
  refine broadcastInDim_apply ![0] hbc y (ix2 i u) (ix1 i) ?_
  intro c
  match c with
  | ⟨0, _⟩ =>
    show i.val = if a = 1 then 0 else i.val
    split_ifs with ha
    · have := i.isLt; omega
    · rfl

/-- A vector reshaped to one column, read at (i, u), is the vector at i: the row-major position of (i, u) is i. -/
theorem colCast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector reshaped to one row is the vector broadcast along a new leading axis. -/
theorem reshape_row {a : ℕ} (h : (⟨1, ![a]⟩ : Shape).ShapeCasts ⟨2, ![1, a]⟩)
    (hbc : (⟨1, ![a]⟩ : Shape).BroadcastsInDim ⟨2, ![1, a]⟩ ![1]) (b : (⟨1, ![a]⟩ : Shape).Idx → α) :
    shapeCast ⟨2, ![1, a]⟩ b h = broadcastInDim ⟨2, ![1, a]⟩ ![1] hbc b := by
  funext i
  obtain ⟨u, t, rfl⟩ : ∃ (u : Fin 1) (t : Fin a), i = ix2 u t := ⟨i 0, i 1, eq_ix2 i⟩
  rw [shapeCast_a_1a_apply, rowBcast_apply]

/-- A vector reshaped to one column is the vector broadcast along a new trailing axis. -/
theorem reshape_col {a : ℕ} (h : (⟨1, ![a]⟩ : Shape).ShapeCasts ⟨2, ![a, 1]⟩)
    (hbc : (⟨1, ![a]⟩ : Shape).BroadcastsInDim ⟨2, ![a, 1]⟩ ![0]) (b : (⟨1, ![a]⟩ : Shape).Idx → α) :
    shapeCast ⟨2, ![a, 1]⟩ b h = broadcastInDim ⟨2, ![a, 1]⟩ ![0] hbc b := by
  funext i
  obtain ⟨t, u, rfl⟩ : ∃ (t : Fin a) (u : Fin 1), i = ix2 t u := ⟨i 0, i 1, eq_ix2 i⟩
  rw [colCast_apply, colBcast_apply]

end

/-! ## The program's vectors -/

theorem reshape_row64 (b : FVec Ideal S64 .f32) : shapeCast S1x64 b shapeCasts_S64_S1x64 = Cert.Spec.row64 b := by
  unfold Cert.Spec.row64
  exact reshape_row _ _ b
theorem reshape_row256 (b : FVec Ideal S256 .f32) : shapeCast S1x256 b shapeCasts_S256_S1x256 = Cert.Spec.row256 b := by
  unfold Cert.Spec.row256
  exact reshape_row _ _ b
theorem reshape_row128 (b : FVec Ideal S128 .f32) : shapeCast S1x128 b shapeCasts_S128_S1x128 = Cert.Spec.row128 b := by
  unfold Cert.Spec.row128
  exact reshape_row _ _ b
theorem reshape_row32 (b : FVec Ideal S32 .f32) : shapeCast S1x32 b shapeCasts_S32_S1x32 = Cert.Spec.row32 b := by
  unfold Cert.Spec.row32
  exact reshape_row _ _ b
theorem reshape_row1 (b : FVec Ideal S1 .f32) : shapeCast S1x1 b shapeCasts_S1_S1x1 = Cert.Spec.row1 b := by
  unfold Cert.Spec.row1
  exact reshape_row _ _ b
theorem reshape_gidCol (g : IVec S100000 32) : shapeCast S100000x1 g shapeCasts_S100000_S100000x1 = Cert.Spec.gidCol g := by
  unfold Cert.Spec.gidCol
  exact reshape_col _ _ g

end Cert.KernelValue

end
-- ==== Proof.KernelValue.lean ====
/- The idealized kernel's result as one function of its argument arrays.

   The kernel's @main is three stretches of host operations around five pallas_calls. What a buffer holds at a boundary
   is a fold: a host stretch applies its operations, a pallas_call replaces its output arrays by what its write-backs
   leave and keeps every other buffer. Reading the result buffer back through that fold:
     the head's call leaves the seven-layer head of its operands;
     its first operand is, by the last host stretch, the two mean readouts summed (the second twice) beside the event features;
     a mean readout is, by the host, a readout call's sums over max(counts, 1), transposed, and the call's sums and counts are
       the per-graph sums and node counts of the layer's node features;
     a layer's node features are what a GIN call leaves: the row-wise update of the previous features and of their sum over
       the incoming edges, which the host computed by a gather and a scatter-add — the same operations the reference applies.
   So the result is the composition `Cert.Spec.whole` of the launch contents of the 27 arguments. -/
import proofs.«406926_j64544768525161_1_alg».proof.Proof.Gen.KernelIdeal.Frame
import proofs.«406926_j64544768525161_1_alg».proof.Proof.Layer1Rows
import proofs.«406926_j64544768525161_1_alg».proof.Proof.Layer2Rows
import proofs.«406926_j64544768525161_1_alg».proof.Proof.Readout1
import proofs.«406926_j64544768525161_1_alg».proof.Proof.Readout2
import proofs.«406926_j64544768525161_1_alg».proof.Proof.HeadLayers
import proofs.«406926_j64544768525161_1_alg».proof.Proof.ReadoutMean
import proofs.«406926_j64544768525161_1_alg».proof.Proof.RowForms
import Idealize.ShloMosaic.Lib.StableHlo.Run

set_option maxRecDepth 16384

noncomputable section

namespace Cert.KernelValue

open Idealize.ShloMosaic Idealize.ShloMosaic.TcCoe Idealize.ShloMosaic.ValueIdx Idealize.ShloMosaic.StableHlo Idealize.SL.Sem
open Cert.KernelIdeal Cert.KernelIdeal.Gen Cert.Readout
open Idealize.ShloMosaic.Pipeline (Dat Cfg Window)

variable (m : (ℓ : Loc nD τ sig) → Buf (Elt Ideal) ℓ) (ρ : Dev nD → PrngReg) (c : Dev nD)

/-! ## What the folds keep

A pallas_call keeps every buffer that is not one of its arrays; a host stretch keeps every buffer none of its
operations writes. So a buffer that nothing before a boundary writes still holds its launch contents there. -/

/-- The references the first host stretch writes. -/
abbrev hostOps0_W : List (Ref sig .tc) := [main_v0, main_c, main_v1, main_v2, main_c_0, main_v3, main_v4, main_v5, main_v6, main_v7, main_cst, main_v8, main_v9, main_v10, main_v11, main_v12]
theorem hostOps0_writes : (hostOps0 : List (HloOp τ sig (Elt Ideal))).Forall fun op => op.writes ⊆ (hostOps0_W.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the first host stretch does not write keeps its contents. -/
theorem hostOps0_keep (W : Valuation τ sig (Elt Ideal)) (r : Ref sig .tc) (h : r ∉ hostOps0_W) :
    StableHlo.after hostOps0 W (Proc.devRef .tc r) = W (Proc.devRef .tc r) :=
  StableHlo.after_of_writes_sub hostOps0 _ hostOps0_writes h

/-- The references the middle host stretch writes. -/
abbrev hostOps2_W : List (Ref sig .tc) := [main_cst_1, main_v15, main_v16, main_v17, main_v18, main_v19, main_c_2, main_v20, main_v21, main_c_3, main_v22, main_v23, main_v24, main_v25, main_v26, main_cst_4, main_v27, main_v28, main_v29, main_v30, main_v31]
theorem hostOps2_writes : (hostOps2 : List (HloOp τ sig (Elt Ideal))).Forall fun op => op.writes ⊆ (hostOps2_W.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the middle host stretch does not write keeps its contents. -/
theorem hostOps2_keep (W : Valuation τ sig (Elt Ideal)) (r : Ref sig .tc) (h : r ∉ hostOps2_W) :
    StableHlo.after hostOps2 W (Proc.devRef .tc r) = W (Proc.devRef .tc r) :=
  StableHlo.after_of_writes_sub hostOps2 _ hostOps2_writes h

/-- The references the last host stretch writes. -/
abbrev hostOps4_W : List (Ref sig .tc) := [main_cst_5, main_v34, main_v35, main_v36, main_v37, main_v38, main_v39, main_v40, main_v41, main_v42, main_v43, main_v44, main_v45, main_v46, main_v47, main_v48]
theorem hostOps4_writes : (hostOps4 : List (HloOp τ sig (Elt Ideal))).Forall fun op => op.writes ⊆ (hostOps4_W.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer the last host stretch does not write keeps its contents. -/
theorem hostOps4_keep (W : Valuation τ sig (Elt Ideal)) (r : Ref sig .tc) (h : r ∉ hostOps4_W) :
    StableHlo.after hostOps4 W (Proc.devRef .tc r) = W (Proc.devRef .tc r) :=
  StableHlo.after_of_writes_sub hostOps4 _ hostOps4_writes h

theorem at1 (r : Ref sig .tc) (h0 : r ∉ hostOps0_W) : W1 m ρ c (Proc.devRef .tc r) = m ((c : Thread nD τ).loc r) :=
  hostOps0_keep (W0 m ρ c) r h0

theorem at3 (r : Ref sig .tc) (h0 : r ∉ hostOps0_W) (n0 : ∀ w, Pipeline.arrRef spec0 w ≠ r) (n1 : ∀ w, Pipeline.arrRef spec1 w ≠ r) :
    W3 m ρ c (Proc.devRef .tc r) = m ((c : Thread nD τ).loc r) :=
  (W3_of_ne m ρ c r n1).trans ((W2_of_ne m ρ c r n0).trans (at1 m ρ c r h0))

theorem at4 (r : Ref sig .tc) (h0 : r ∉ hostOps0_W) (n0 : ∀ w, Pipeline.arrRef spec0 w ≠ r) (n1 : ∀ w, Pipeline.arrRef spec1 w ≠ r)
    (h2 : r ∉ hostOps2_W) : W4 m ρ c (Proc.devRef .tc r) = m ((c : Thread nD τ).loc r) :=
  (hostOps2_keep (W3 m ρ c) r h2).trans (at3 m ρ c r h0 n0 n1)

theorem at6 (r : Ref sig .tc) (h0 : r ∉ hostOps0_W) (n0 : ∀ w, Pipeline.arrRef spec0 w ≠ r) (n1 : ∀ w, Pipeline.arrRef spec1 w ≠ r)
    (h2 : r ∉ hostOps2_W) (n2 : ∀ w, Pipeline.arrRef spec2 w ≠ r) (n3 : ∀ w, Pipeline.arrRef spec3 w ≠ r) :
    W6 m ρ c (Proc.devRef .tc r) = m ((c : Thread nD τ).loc r) :=
  (W6_of_ne m ρ c r n3).trans ((W5_of_ne m ρ c r n2).trans (at4 m ρ c r h0 n0 n1 h2))

theorem at7 (r : Ref sig .tc) (h0 : r ∉ hostOps0_W) (n0 : ∀ w, Pipeline.arrRef spec0 w ≠ r) (n1 : ∀ w, Pipeline.arrRef spec1 w ≠ r)
    (h2 : r ∉ hostOps2_W) (n2 : ∀ w, Pipeline.arrRef spec2 w ≠ r) (n3 : ∀ w, Pipeline.arrRef spec3 w ≠ r) (h4 : r ∉ hostOps4_W) :
    W7 m ρ c (Proc.devRef .tc r) = m ((c : Thread nD τ).loc r) :=
  (hostOps4_keep (W6 m ρ c) r h4).trans (at6 m ρ c r h0 n0 n1 h2 n2 n3)

/-! ## Layer 1 -/

set_option maxHeartbeats 4000000 in
/-- The first call's edge sums are the gather and scatter-add of the input features. -/
theorem agg1_eq : V1 m ρ c main_v10 = Cert.Spec.agg32 (m ((c : Thread nD τ).loc main_arg0)) (m ((c : Thread nD τ).loc main_arg2)) (m ((c : Thread nD τ).loc main_arg3)) := by
  show StableHlo.after hostOps0 (W0 m ρ c) (Proc.devRef .tc main_v10) = _
  after_results
  unfold Cert.Spec.agg32 Cert.Spec.srcIdx
  rfl

set_option maxHeartbeats 4000000 in
/-- After the first GIN call the node features are layer 1's. -/
theorem hidden1_at2 : W2 m ρ c (Proc.devRef .tc main_v13) = (Cert.Spec.hidden1 (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) := by
  refine (W2_arr m ρ c 6).trans ((layer1 (V1 m ρ) c).trans ?_)
  have e0 : V1 m ρ c main_arg0 = (m ((c : Thread nD τ).loc main_arg0)) := by
    show StableHlo.after hostOps0 (W0 m ρ c) (Proc.devRef .tc main_arg0) = _
    after_results <;> rfl
  have e5 : V1 m ρ c main_arg5 = (m ((c : Thread nD τ).loc main_arg5)) := by
    show StableHlo.after hostOps0 (W0 m ρ c) (Proc.devRef .tc main_arg5) = _
    after_results <;> rfl
  have e7 : V1 m ρ c main_arg7 = (m ((c : Thread nD τ).loc main_arg7)) := by
    show StableHlo.after hostOps0 (W0 m ρ c) (Proc.devRef .tc main_arg7) = _
    after_results <;> rfl
  have e11 : V1 m ρ c main_v11 = Cert.Spec.row64 (m ((c : Thread nD τ).loc main_arg6)) := by
    refine Eq.trans ?_ (reshape_row64 _)
    show StableHlo.after hostOps0 (W0 m ρ c) (Proc.devRef .tc main_v11) = _
    after_results <;> rfl
  have e12 : V1 m ρ c main_v12 = Cert.Spec.row64 (m ((c : Thread nD τ).loc main_arg8)) := by
    refine Eq.trans ?_ (reshape_row64 _)
    show StableHlo.after hostOps0 (W0 m ρ c) (Proc.devRef .tc main_v12) = _
    after_results <;> rfl
  rw [e0, agg1_eq m ρ c, e5, e11, e7, e12]
  rfl

set_option maxHeartbeats 4000000 in
/-- The graph ids as a column, at the first call's exit. -/
theorem gid_at2 : W2 m ρ c (Proc.devRef .tc main_v0) = (Cert.Spec.gidCol (m ((c : Thread nD τ).loc main_arg4))) := by
  refine (W2_of_ne m ρ c main_v0 (by decide)).trans (Eq.trans ?_ (reshape_gidCol _))
  show StableHlo.after hostOps0 (W0 m ρ c) (Proc.devRef .tc main_v0) = _
  after_results <;> rfl

/-! ## Readout 1 -/

theorem hidden1_at3 : W3 m ρ c (Proc.devRef .tc main_v13) = (Cert.Spec.hidden1 (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) :=
  (W3_arr m ρ c 0).trans ((((dat1 (V2 m ρ) c).arrAt_in 0 rfl _).trans (A_eq1 (V2 m ρ) c 0)).trans (hidden1_at2 m ρ c))

theorem gid_at3 : W3 m ρ c (Proc.devRef .tc main_v0) = (Cert.Spec.gidCol (m ((c : Thread nD τ).loc main_arg4))) :=
  (W3_arr m ρ c 1).trans ((((dat1 (V2 m ρ) c).arrAt_in 1 rfl _).trans (A_eq1 (V2 m ρ) c 1)).trans (gid_at2 m ρ c))

set_option maxHeartbeats 4000000 in
/-- The first mean readout, as the middle host stretch leaves it. -/
theorem pool1_at4 : W4 m ρ c (Proc.devRef .tc main_v19) = (Cert.Spec.avgPool (Cert.Spec.hidden1 (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (Cert.Spec.gidCol (m ((c : Thread nD τ).loc main_arg4)))) := by
  refine Eq.trans ?_ (mean_eq (Cert.Spec.hidden1 (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (Cert.Spec.gidCol (m ((c : Thread nD τ).loc main_arg4))) (W3 m ρ c (Proc.devRef .tc main_v14_0)) (W3 m ρ c (Proc.devRef .tc main_v14_1)) ?_ ?_)
  · show StableHlo.after hostOps2 (W3 m ρ c) (Proc.devRef .tc main_v19) = _
    after_results <;> rfl
  · intro f g
    have e := readout1_sum (V2 m ρ) c f g
    rw [show V2 m ρ c main_v13 = _ from hidden1_at2 m ρ c, show V2 m ρ c main_v0 = _ from gid_at2 m ρ c] at e
    exact (congrFun (W3_arr m ρ c 2) (ix2 f g)).trans e
  · intro g
    have e := readout1_cnt (V2 m ρ) c g
    rw [show V2 m ρ c main_v0 = _ from gid_at2 m ρ c] at e
    exact (congrFun (W3_arr m ρ c 3) (ix2 (0 : Fin 1) g)).trans e

/-! ## Layer 2 -/

set_option maxHeartbeats 4000000 in
theorem agg2_eq : V4 m ρ c main_v29 = Cert.Spec.agg64 (Cert.Spec.hidden1 (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg3)) := by
  have e : V4 m ρ c main_v29 = Cert.Spec.agg64 (W3 m ρ c (Proc.devRef .tc main_v13)) (W3 m ρ c (Proc.devRef .tc main_arg2)) (W3 m ρ c (Proc.devRef .tc main_arg3)) := by
    show StableHlo.after hostOps2 (W3 m ρ c) (Proc.devRef .tc main_v29) = _
    after_results
    rfl
  rw [e, hidden1_at3 m ρ c]
  rw [at3 m ρ c main_arg2 (by decide) (by decide) (by decide), at3 m ρ c main_arg3 (by decide) (by decide) (by decide)]

set_option maxHeartbeats 4000000 in
/-- After the second GIN call the node features are layer 2's. -/
theorem hidden2_at5 : W5 m ρ c (Proc.devRef .tc main_v32) = (Cert.Spec.hidden2 (Cert.Spec.hidden1 (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg3)) (m ((c : Thread nD τ).loc main_arg9)) (m ((c : Thread nD τ).loc main_arg10)) (m ((c : Thread nD τ).loc main_arg11)) (m ((c : Thread nD τ).loc main_arg12))) := by
  refine (W5_arr m ρ c 6).trans ((layer2 (V4 m ρ) c).trans ?_)
  have e13 : V4 m ρ c main_v13 = (Cert.Spec.hidden1 (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) := by
    refine Eq.trans ?_ (hidden1_at3 m ρ c)
    show StableHlo.after hostOps2 (W3 m ρ c) (Proc.devRef .tc main_v13) = _
    after_results <;> rfl
  have e9 : V4 m ρ c main_arg9 = (m ((c : Thread nD τ).loc main_arg9)) := at4 m ρ c main_arg9 (by decide) (by decide) (by decide) (by decide)
  have e11 : V4 m ρ c main_arg11 = (m ((c : Thread nD τ).loc main_arg11)) := at4 m ρ c main_arg11 (by decide) (by decide) (by decide) (by decide)
  have e30 : V4 m ρ c main_v30 = Cert.Spec.row64 (m ((c : Thread nD τ).loc main_arg10)) := by
    refine Eq.trans ?_ ((congrArg (fun b => shapeCast S1x64 b shapeCasts_S64_S1x64) (at3 m ρ c main_arg10 (by decide) (by decide) (by decide))).trans (reshape_row64 _))
    show StableHlo.after hostOps2 (W3 m ρ c) (Proc.devRef .tc main_v30) = _
    after_results <;> rfl
  have e31 : V4 m ρ c main_v31 = Cert.Spec.row64 (m ((c : Thread nD τ).loc main_arg12)) := by
    refine Eq.trans ?_ ((congrArg (fun b => shapeCast S1x64 b shapeCasts_S64_S1x64) (at3 m ρ c main_arg12 (by decide) (by decide) (by decide))).trans (reshape_row64 _))
    show StableHlo.after hostOps2 (W3 m ρ c) (Proc.devRef .tc main_v31) = _
    after_results <;> rfl
  rw [e13, agg2_eq m ρ c, e9, e30, e11, e31]
  rfl

set_option maxHeartbeats 4000000 in
theorem gid_at5 : W5 m ρ c (Proc.devRef .tc main_v0) = (Cert.Spec.gidCol (m ((c : Thread nD τ).loc main_arg4))) := by
  refine Eq.trans ?_ (gid_at3 m ρ c)
  rw [W5_of_ne m ρ c main_v0 (by decide)]
  show StableHlo.after hostOps2 (W3 m ρ c) (Proc.devRef .tc main_v0) = _
  after_results <;> rfl

/-! ## Readout 2 and the head's input -/

theorem pool1_at6 : W6 m ρ c (Proc.devRef .tc main_v19) = (Cert.Spec.avgPool (Cert.Spec.hidden1 (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (Cert.Spec.gidCol (m ((c : Thread nD τ).loc main_arg4)))) :=
  (W6_of_ne m ρ c main_v19 (by decide)).trans ((W5_of_ne m ρ c main_v19 (by decide)).trans (pool1_at4 m ρ c))

set_option maxHeartbeats 4000000 in
/-- The head's first operand: the two mean readouts summed beside the event features. -/
theorem headIn_at7 : V7 m ρ c main_v41 = Cert.Spec.headIn (Cert.Spec.avgPool (Cert.Spec.hidden2 (Cert.Spec.hidden1 (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg3)) (m ((c : Thread nD τ).loc main_arg9)) (m ((c : Thread nD τ).loc main_arg10)) (m ((c : Thread nD τ).loc main_arg11)) (m ((c : Thread nD τ).loc main_arg12))) (Cert.Spec.gidCol (m ((c : Thread nD τ).loc main_arg4)))) (Cert.Spec.avgPool (Cert.Spec.hidden1 (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (Cert.Spec.gidCol (m ((c : Thread nD τ).loc main_arg4)))) (m ((c : Thread nD τ).loc main_arg1)) := by
  have hp2 : transpose S1024x64 [1, 0] (Host.divf (W6 m ρ c (Proc.devRef .tc main_v33_0)) (broadcastInDim S64x1024 ![0, 1] bcast_S1x1024_S64x1024_0_1
        (maximumf (W6 m ρ c (Proc.devRef .tc main_v33_1)) (broadcastInDim S1x1024 ![] bcast_S_S1x1024 (constant S_ .f32 0x3F800000#32))))) transposes_S64x1024_S1024x64_1_0
      = (Cert.Spec.avgPool (Cert.Spec.hidden2 (Cert.Spec.hidden1 (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg3)) (m ((c : Thread nD τ).loc main_arg9)) (m ((c : Thread nD τ).loc main_arg10)) (m ((c : Thread nD τ).loc main_arg11)) (m ((c : Thread nD τ).loc main_arg12))) (Cert.Spec.gidCol (m ((c : Thread nD τ).loc main_arg4)))) := by
    refine mean_eq (Cert.Spec.hidden2 (Cert.Spec.hidden1 (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (m ((c : Thread nD τ).loc main_arg2)) (m ((c : Thread nD τ).loc main_arg3)) (m ((c : Thread nD τ).loc main_arg9)) (m ((c : Thread nD τ).loc main_arg10)) (m ((c : Thread nD τ).loc main_arg11)) (m ((c : Thread nD τ).loc main_arg12))) (Cert.Spec.gidCol (m ((c : Thread nD τ).loc main_arg4))) _ _ ?_ ?_
    · intro f g
      have e := readout2_sum (V5 m ρ) c f g
      rw [show V5 m ρ c main_v32 = _ from hidden2_at5 m ρ c, show V5 m ρ c main_v0 = _ from gid_at5 m ρ c] at e
      exact (congrFun (W6_arr m ρ c 2) (ix2 f g)).trans e
    · intro g
      have e := readout2_cnt (V5 m ρ) c g
      rw [show V5 m ρ c main_v0 = _ from gid_at5 m ρ c] at e
      exact (congrFun (W6_arr m ρ c 3) (ix2 (0 : Fin 1) g)).trans e
  have e1 : W6 m ρ c (Proc.devRef .tc main_arg1) = (m ((c : Thread nD τ).loc main_arg1)) := at6 m ρ c main_arg1 (by decide) (by decide) (by decide) (by decide) (by decide) (by decide)
  have e : V7 m ρ c main_v41 = Cert.Spec.headIn
      (transpose S1024x64 [1, 0] (Host.divf (W6 m ρ c (Proc.devRef .tc main_v33_0)) (broadcastInDim S64x1024 ![0, 1] bcast_S1x1024_S64x1024_0_1
        (maximumf (W6 m ρ c (Proc.devRef .tc main_v33_1)) (broadcastInDim S1x1024 ![] bcast_S_S1x1024 (constant S_ .f32 0x3F800000#32))))) transposes_S64x1024_S1024x64_1_0)
      (W6 m ρ c (Proc.devRef .tc main_v19)) (W6 m ρ c (Proc.devRef .tc main_arg1)) := by
    show StableHlo.after hostOps4 (W6 m ρ c) (Proc.devRef .tc main_v41) = _
    after_results
    rfl
  rw [e, hp2, pool1_at6 m ρ c, e1]

/-! ## The head -/

set_option maxHeartbeats 4000000 in
/-- The kernel's result buffer ends at the specification's composition of the launch arrays. -/
theorem result_eq : W8 m ρ c (Proc.devRef .tc main_v49) =
    Cert.Spec.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) := by
  refine (W8_arr m ρ c 15).trans ((head (V7 m ρ) c).trans ?_)
  have e13 : V7 m ρ c main_arg13 = (m ((c : Thread nD τ).loc main_arg13)) := at7 m ρ c main_arg13 (by decide) (by decide) (by decide) (by decide) (by decide) (by decide) (by decide)
  have v42 : V7 m ρ c main_v42 = Cert.Spec.row256 (m ((c : Thread nD τ).loc main_arg14)) := by
    refine Eq.trans ?_ ((congrArg (fun b => shapeCast S1x256 b shapeCasts_S256_S1x256) (at6 m ρ c main_arg14 (by decide) (by decide) (by decide) (by decide) (by decide) (by decide))).trans (reshape_row256 _))
    show StableHlo.after hostOps4 (W6 m ρ c) (Proc.devRef .tc main_v42) = _
    after_results <;> rfl
  have e15 : V7 m ρ c main_arg15 = (m ((c : Thread nD τ).loc main_arg15)) := at7 m ρ c main_arg15 (by decide) (by decide) (by decide) (by decide) (by decide) (by decide) (by decide)
  have v43 : V7 m ρ c main_v43 = Cert.Spec.row128 (m ((c : Thread nD τ).loc main_arg16)) := by
    refine Eq.trans ?_ ((congrArg (fun b => shapeCast S1x128 b shapeCasts_S128_S1x128) (at6 m ρ c main_arg16 (by decide) (by decide) (by decide) (by decide) (by decide) (by decide))).trans (reshape_row128 _))
    show StableHlo.after hostOps4 (W6 m ρ c) (Proc.devRef .tc main_v43) = _
    after_results <;> rfl
  have e17 : V7 m ρ c main_arg17 = (m ((c : Thread nD τ).loc main_arg17)) := at7 m ρ c main_arg17 (by decide) (by decide) (by decide) (by decide) (by decide) (by decide) (by decide)
  have v44 : V7 m ρ c main_v44 = Cert.Spec.row128 (m ((c : Thread nD τ).loc main_arg18)) := by
    refine Eq.trans ?_ ((congrArg (fun b => shapeCast S1x128 b shapeCasts_S128_S1x128) (at6 m ρ c main_arg18 (by decide) (by decide) (by decide) (by decide) (by decide) (by decide))).trans (reshape_row128 _))
    show StableHlo.after hostOps4 (W6 m ρ c) (Proc.devRef .tc main_v44) = _
    after_results <;> rfl
  have e19 : V7 m ρ c main_arg19 = (m ((c : Thread nD τ).loc main_arg19)) := at7 m ρ c main_arg19 (by decide) (by decide) (by decide) (by decide) (by decide) (by decide) (by decide)
  have v45 : V7 m ρ c main_v45 = Cert.Spec.row64 (m ((c : Thread nD τ).loc main_arg20)) := by
    refine Eq.trans ?_ ((congrArg (fun b => shapeCast S1x64 b shapeCasts_S64_S1x64) (at6 m ρ c main_arg20 (by decide) (by decide) (by decide) (by decide) (by decide) (by decide))).trans (reshape_row64 _))
    show StableHlo.after hostOps4 (W6 m ρ c) (Proc.devRef .tc main_v45) = _
    after_results <;> rfl
  have e21 : V7 m ρ c main_arg21 = (m ((c : Thread nD τ).loc main_arg21)) := at7 m ρ c main_arg21 (by decide) (by decide) (by decide) (by decide) (by decide) (by decide) (by decide)
  have v46 : V7 m ρ c main_v46 = Cert.Spec.row64 (m ((c : Thread nD τ).loc main_arg22)) := by
    refine Eq.trans ?_ ((congrArg (fun b => shapeCast S1x64 b shapeCasts_S64_S1x64) (at6 m ρ c main_arg22 (by decide) (by decide) (by decide) (by decide) (by decide) (by decide))).trans (reshape_row64 _))
    show StableHlo.after hostOps4 (W6 m ρ c) (Proc.devRef .tc main_v46) = _
    after_results <;> rfl
  have e23 : V7 m ρ c main_arg23 = (m ((c : Thread nD τ).loc main_arg23)) := at7 m ρ c main_arg23 (by decide) (by decide) (by decide) (by decide) (by decide) (by decide) (by decide)
  have v47 : V7 m ρ c main_v47 = Cert.Spec.row32 (m ((c : Thread nD τ).loc main_arg24)) := by
    refine Eq.trans ?_ ((congrArg (fun b => shapeCast S1x32 b shapeCasts_S32_S1x32) (at6 m ρ c main_arg24 (by decide) (by decide) (by decide) (by decide) (by decide) (by decide))).trans (reshape_row32 _))
    show StableHlo.after hostOps4 (W6 m ρ c) (Proc.devRef .tc main_v47) = _
    after_results <;> rfl
  have e25 : V7 m ρ c main_arg25 = (m ((c : Thread nD τ).loc main_arg25)) := at7 m ρ c main_arg25 (by decide) (by decide) (by decide) (by decide) (by decide) (by decide) (by decide)
  have v48 : V7 m ρ c main_v48 = Cert.Spec.row1 (m ((c : Thread nD τ).loc main_arg26)) := by
    refine Eq.trans ?_ ((congrArg (fun b => shapeCast S1x1 b shapeCasts_S1_S1x1) (at6 m ρ c main_arg26 (by decide) (by decide) (by decide) (by decide) (by decide) (by decide))).trans (reshape_row1 _))
    show StableHlo.after hostOps4 (W6 m ρ c) (Proc.devRef .tc main_v48) = _
    after_results <;> rfl
  rw [headIn_at7 m ρ c, e13, v42, e15, v43, e17, v44, e19, v45, e21, v46, e23, v47, e25, v48]
  rfl

end Cert.KernelValue

end
-- ==== Proof.RefTerm.lean ====
/- The reference's result is the specification's composition: its generated run ends with the result at one composed
   term of the argument arrays, and that term is, literally, two GIN layers, the mean readouts and the dense head
   of Proof/Spec.lean applied to the arguments. -/
import proofs.«406926_j64544768525161_1_alg».proof.Proof.Gen.ReferenceIdeal.Run
import proofs.«406926_j64544768525161_1_alg».proof.Proof.Spec

noncomputable section

namespace Cert.RefValue

open Idealize.ShloMosaic Idealize.ShloMosaic.TcCoe Idealize.SL.Sem Cert.ReferenceIdeal Cert.Spec

set_option maxRecDepth 8192 in
/-- The reference run's composed term IS that function of the launch arrays: both sides unfold to the same text. -/
theorem res_eq (m : (ℓ : Loc nD τ sig) → Buf (Elt Ideal) ℓ) (c : Dev nD) :
    Cert.ReferenceIdeal.Value.res_main_v114 (F := Ideal) m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) (m ((c.tc : Thread nD τ).loc main_arg20))
          (m ((c.tc : Thread nD τ).loc main_arg21)) (m ((c.tc : Thread nD τ).loc main_arg22)) (m ((c.tc : Thread nD τ).loc main_arg23))
          (m ((c.tc : Thread nD τ).loc main_arg24)) (m ((c.tc : Thread nD τ).loc main_arg25)) (m ((c.tc : Thread nD τ).loc main_arg26)) := by
  unfold Cert.ReferenceIdeal.Value.res_main_v114 whole hidden2 hidden1 head headIn avgPool segSum segCnt gidCol mlp64 mlp32 agg64 agg32 srcIdx
    rows64 row64 row256 row128 row32 row1 zero64
  rfl

end Cert.RefValue

end
-- ==== Proof.lean ====
/- The certificate of a two-layer GIN network with mean readouts and a dense head, computed by five pallas_calls
   (two row-tiled node updates, two readouts accumulated over the node tiles, one seven-layer head) among host
   gathers and scatter-adds, against the plain jnp reference.

   Frames: the kernel's two programs run, fault-free, and keep their arguments (the several-region launch over the
   generated per-call proof data); the reference's frame is its host run with the result dropped.
   Preserves: the ideal pass rewrote nothing, the conjunct is `True`.
   Algebraic: at the exact values both programs end at ONE function of the 27 argument arrays, `Cert.Spec.whole`:
   the reference's composed term is that function literally (Proof/RefTerm.lean), and the kernel's result buffer,
   read back through the host stretches and the calls' write-backs, is it too (Proof/KernelValue.lean): each node
   update is row-wise, so its 20 row blocks are blocks of one array; a readout's accumulator ends at the sum over
   all node tiles of (rows × one-hot of the graph ids), which is the scatter-add's sum over the nodes of each graph,
   since a product with a 0/1 factor keeps or drops the row whatever its value; matrix products into a zero
   accumulator are the host's dot products; the bf16 roundings are the identity at the exact values. No law beyond
   the commutative monoid laws of + and the 0/1 products is used, so the finiteness of the inputs is not needed. -/
import proofs.«406926_j64544768525161_1_alg».proof.Defs
import proofs.«406926_j64544768525161_1_alg».proof.Proof.Gen.Kernel
import proofs.«406926_j64544768525161_1_alg».proof.Proof.Gen.Kernel.Frame
import proofs.«406926_j64544768525161_1_alg».proof.Proof.Gen.KernelIdeal
import proofs.«406926_j64544768525161_1_alg».proof.Proof.Gen.KernelIdeal.Frame
import proofs.«406926_j64544768525161_1_alg».proof.Proof.Gen.ReferenceIdeal
import proofs.«406926_j64544768525161_1_alg».proof.Proof.Gen.ReferenceIdeal.Run
import proofs.«406926_j64544768525161_1_alg».proof.Proof.Gen.Pre_finite_inputs
import proofs.«406926_j64544768525161_1_alg».proof.Proof.KernelIdealRun
import proofs.«406926_j64544768525161_1_alg».proof.Proof.KernelValue
import proofs.«406926_j64544768525161_1_alg».proof.Proof.RefTerm
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its host run with the result dropped. -/
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 4000000 in
/-- Both programs end at the specification's composition of the argument arrays, on which the two memories agree. -/
theorem algebraic : Cert.algebraic_KernelIdeal_ReferenceIdeal := by
  intro m ρ m' ρ' _ hagree
  refine ⟨fun c => Cert.Spec.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)), ?_, ?_⟩
  · exact (θ_run Cert.KernelIdeal.defs _ _).mono
      (fun _ h c => ⟨(h c).1.trans (Cert.KernelValue.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24, h25, h26⟩ := hagree c
    rw [Cert.RefValue.res_eq m' c, h0, h1, h2, h3, h4, h5, h6, h7, h8, h9, h10, h11, h12, h13, h14, h15, h16, h17, h18, h19, h20, h21, h22, h23, h24, h25, h26]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
